-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x2048x1024 .f32) (main_arg1 : FVec F S1024x1024 .f32) (main_arg2 : FVec F S1024x1024 .f32) (main_arg3 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x2048x1024 : Shape := ⟨3, ![8, 2048, 1024]⟩
abbrev S1024x1024 : Shape := ⟨2, ![1024, 1024]⟩
abbrev S16384x1024 : Shape := ⟨2, ![16384, 1024]⟩
abbrev S512x1024 : Shape := ⟨2, ![512, 1024]⟩
abbrev S8x1x2048 : Shape := ⟨3, ![8, 1, 2048]⟩
abbrev S1x512x1024 : Shape := ⟨3, ![1, 512, 1024]⟩
abbrev S1x1x512 : Shape := ⟨3, ![1, 1, 512]⟩
abbrev S512x1 : Shape := ⟨2, ![512, 1]⟩
abbrev S1x512 : Shape := ⟨2, ![1, 512]⟩
abbrev S512x512 : Shape := ⟨2, ![512, 512]⟩
abbrev S512 : Shape := ⟨1, ![512]⟩

abbrev nBuf : Space → Nat
  | .hbm => 16
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S16384x1024, .f32⟩
  | .hbm, ⟨8, _⟩ => ⟨S16384x1024, .bf16⟩
  | .hbm, ⟨9, _⟩ => ⟨S16384x1024, .bf16⟩
  | .hbm, ⟨10, _⟩ => ⟨S16384x1024, .bf16⟩
  | .hbm, ⟨11, _⟩ => ⟨S8x2048x1024, .bf16⟩
  | .hbm, ⟨12, _⟩ => ⟨S8x2048x1024, .bf16⟩
  | .hbm, ⟨13, _⟩ => ⟨S8x2048x1024, .bf16⟩
  | .hbm, ⟨14, _⟩ => ⟨S8x1x2048, .f32⟩
  | .hbm, ⟨15, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x1x512, .f32⟩
  | .local _ .vmem, ⟨16, _⟩ => ⟨S1x1x512, .f32⟩
  | .local _ .vmem, ⟨17, _⟩ => ⟨S512x1, .f32⟩
  | .local _ .vmem, ⟨18, _⟩ => ⟨S512x1, .f32⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x1x512, .f32⟩
  | .local _ .vmem, ⟨26, _⟩ => ⟨S1x1x512, .f32⟩
  | .local _ .vmem, ⟨27, _⟩ => ⟨S1x512x1024, .f32⟩
  | .local _ .vmem, ⟨28, _⟩ => ⟨S1x512x1024, .f32⟩
  | .local _ .vmem, ⟨29, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![8, 4, 4], ![false, false, false]⟩

def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![8, 4, 4], ![false, false, false]⟩

def k2_cond3 (i : grid2.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, c0_i32.toNat, v0.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  bitsLt_bf16_f32 : FTy.bits .bf16 < FTy.bits .f32
  shapeCasts_S8x2048x1024_S16384x1024 : S8x2048x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1_d0_w32 : S512x1.Iotas .tc 32 [0]
  iota_S1x512_d1_w32 : S1x512.Iotas .tc 32 [1]
  broadcasts_S1x512_S512x512 : S1x512.Broadcasts S512x512
  broadcasts_S512x1_S512x512 : S512x1.Broadcasts S512x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x512_S512 : S512x512.Reduces [1] S512
  shapeCasts_S512_S512x1 : S512.ShapeCasts S512x1
  transposes_S512x1_p1_0_S1x512 : S512x1.Transposes [1, 0] S1x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .bf16 = 32 ∨ (Rect.block (s := S16384x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .bf16 = 32 ∨ (Rect.block (s := S16384x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .bf16 = 32 ∨ (Rect.block (s := S8x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x1024.size a
  hwx1_1 : ∀ i : grid1.Coords, EltTy.bits .bf16 = 32 ∨ (Rect.block (s := S8x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S8x1x2048.size a
  hwx1_2 : ∀ i : grid1.Coords, EltTy.bits .f32 = 32 ∨ (Rect.block (s := S8x1x2048) S1x1x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S8x2048x1024.size a
  hwx2_0 : ∀ i : grid2.Coords, EltTy.bits .bf16 = 32 ∨ (Rect.block (s := S8x2048x1024) S1x512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x1024.size a ≤ S8x2048x1024.size a
  hwx2_1 : ∀ i : grid2.Coords, EltTy.bits .bf16 = 32 ∨ (Rect.block (s := S8x2048x1024) S1x512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S8x2048x1024.size a
  hwx2_2 : ∀ i : grid2.Coords, EltTy.bits .bf16 = 32 ∨ (Rect.block (s := S8x2048x1024) S1x512x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x512.size a ≤ S8x1x2048.size a
  hwx2_3 : ∀ i : grid2.Coords, EltTy.bits .f32 = 32 ∨ (Rect.block (s := S8x1x2048) S1x1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x1024.size a ≤ S8x2048x1024.size a
  hwx2_4 : ∀ i : grid2.Coords, EltTy.bits .f32 = 32 ∨ (Rect.block (s := S8x2048x1024) S1x512x1024.size (cc2_transform_4 i) (hinb2_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v6) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

abbrev win2_0 : Pipeline.Window sig grid2 :=
  Pipeline.Window.ofSpec (Memref.whole main_v5) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1x512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x512x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond3 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S_ : Shape := ⟨0, ![]⟩
abbrev S2048x2048 : Shape := ⟨2, ![2048, 2048]⟩
abbrev S1x2048x2048 : Shape := ⟨3, ![1, 2048, 2048]⟩
abbrev S8x2048 : Shape := ⟨2, ![8, 2048]⟩
abbrev S8x1x2048 : Shape := ⟨3, ![8, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S1x2048x2048, .i1⟩
  | .hbm, ⟨20, _⟩ => ⟨S_, .f32⟩
  | .hbm, ⟨21, _⟩ => ⟨S_, .f32⟩
  | .hbm, ⟨22, _⟩ => ⟨S8x2048x2048, .i1⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S_, .f32⟩
  | .hbm, ⟨28, _⟩ => ⟨S8x2048, .f32⟩
  | .hbm, ⟨29, _⟩ => ⟨S8x2048, .f32⟩
  | .hbm, ⟨30, _⟩ => ⟨S8x1x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x1x2048, .f32⟩
  | .hbm, ⟨37, _⟩ => ⟨S8x2048x2048, .f32⟩
  | .hbm, ⟨38, _⟩ => ⟨S8x2048x2048, .f32⟩
  | .hbm, ⟨39, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KI.R0Defs.lean ====
/-
  The projection call (the program's first kernel region), at any entry contents `V`: the blocks its windows
  stage and its proof data. The grid has 32 points; point `t` stages rows `512 t … 512 t + 511` of the row-major
  `x` (window 0) and the three whole weight matrices (windows 1–3, fetched once), and writes back the same rows of the
  three products (windows 4–6): each output block is the body's matrix product of the `x` block with one weight.
-/
import proofs.«416763_j40561671143865_3_alg».proof.Proof.Gen.KernelIdeal.Launch
import proofs.«416763_j40561671143865_3_alg».proof.Proof.Gen.KernelIdeal.Skeleton
import proofs.«416763_j40561671143865_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: every input's buffer keeps its block; output `4 + k` holds the product of the row block with weight `k`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay2 (iblk0 V c 0 t) (iblk0 V c 1 t)
    | ⟨5, _⟩ => k0_pay3 (iblk0 V c 0 t) (iblk0 V c 2 t)
    | ⟨6, _⟩ => k0_pay4 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay2 (iblk0 V c 0 t) (iblk0 V c 1 t) := by dsimp only [dat0]
theorem after0_5 (c : Dev nD) (t : Fin cfg0.N) : (dat0 V c).after 5 t = k0_pay3 (iblk0 V c 0 t) (iblk0 V c 2 t) := by dsimp only [dat0]
theorem after0_6 (c : Dev nD) (t : Fin cfg0.N) : (dat0 V c).after 6 t = k0_pay4 (iblk0 V c 0 t) (iblk0 V c 3 t) := by dsimp only [dat0]

end Cert.KernelIdeal.Hand

end
-- ==== Proof.KI.R1Defs.lean ====
/-
  The statistics call (the second kernel region), at any entry contents `V`. Its grid is (batch, key block,
  query block), 8 × 4 × 4 points with the query block innermost. Two scratch columns are carried from point to point:
  the running row maximum and the running row sum of exponentials. At the first query block both are reset; at a
  query block not before the key block the block of scores is folded in; at the last query block the row
  log-sum-exp, maximum plus logarithm of the sum, is stored into the output block (idle at every other point).
-/
import proofs.«416763_j40561671143865_3_alg».proof.Proof.Gen.KernelIdeal.Launch
import proofs.«416763_j40561671143865_3_alg».proof.Proof.Gen.KernelIdeal.Skeleton
import proofs.«416763_j40561671143865_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block is the first: both scratch columns are reset. -/
abbrev cond1_0 (i : grid1.Coords) : Prop :=
  Scalar.cmpi .ne (Scalar.extui (Scalar.cmpi .eq (BitVec.ofNat 32 (i 2).val) 0#32)) 0#32 = 1#1
/-- The query block is not before the key block: the block of scores is folded into the scratch columns. -/
abbrev cond1_1 (i : grid1.Coords) : Prop :=
  Scalar.cmpi .ne (Scalar.extui (Scalar.cmpi .sge (BitVec.ofNat 32 (i 2).val) (BitVec.ofNat 32 (i 1).val))) 0#32 = 1#1
/-- The query block is the last: the output block is stored. -/
abbrev cond1_2 (i : grid1.Coords) : Prop := k1_cond3 i = 1#1

/-- The two scratch columns. -/
abbrev scM1_0 : Memref sig .tc .vmem S512x1 .f32 := Memref.whole cc1_scratch0
abbrev scM1_1 : Memref sig .tc .vmem S512x1 .f32 := Memref.whole cc1_scratch1

/-- One point's effect on the pair (running maximum, running sum), from the key block `xk`, the query block `xq` and
    the pair the point finds. -/
def scStep1 (i : grid1.Coords) (xk xq : Vec F S1x512x1024 .bf16) (s : Vec F S512x1 .f32 × Vec F S512x1 .f32) :
    Vec F S512x1 .f32 × Vec F S512x1 .f32 :=
  let s1 : Vec F S512x1 .f32 × Vec F S512x1 .f32 := if cond1_0 i then (k1_pay1, k1_pay2) else s
  if cond1_1 i then
    (k1_pay3 (k1_pay6 (BitVec.ofNat 32 (i 1).val) (BitVec.ofNat 32 (i 2).val) xk xq s1.1),
     k1_pay7 (BitVec.ofNat 32 (i 1).val) (BitVec.ofNat 32 (i 2).val) xk xq s1.1 s1.1 s1.2)
  else s1

/-- The pair after the point at position `n`, by recursion on the position (the first point resets, so what it finds
    does not matter: the reset values stand in). -/
def scAt1 (c : Dev nD) : (n : ℕ) → n < cfg1.N → Vec F S512x1 .f32 × Vec F S512x1 .f32
  | 0, hn => scStep1 (grid1.coords ⟨0, hn⟩) (iblk1 V c 0 ⟨0, hn⟩) (iblk1 V c 1 ⟨0, hn⟩) (k1_pay1, k1_pay2)
  | n + 1, hn => scStep1 (grid1.coords ⟨n + 1, hn⟩) (iblk1 V c 0 ⟨n + 1, hn⟩) (iblk1 V c 1 ⟨n + 1, hn⟩) (scAt1 c n (Nat.lt_of_succ_lt hn))

/-- The output block a point stores when it stores one: the row log-sum-exp of the pair after the point. -/
def lseAt1 (c : Dev nD) (t : Fin cfg1.N) : Vec F S1x1x512 .f32 :=
  k1_pay4 (scAt1 V c t.val t.isLt).1 (scAt1 V c t.val t.isLt).2

/-- The region invariant before position `n`: before the first point the class's; afterwards the two scratch columns
    at the pair the point before left, every other scoped buffer at anything, the generator register at some state. -/
def PhiS1 (c : Dev nD) : (n : ℕ) → n ≤ cfg1.N → sProp 𝕄
  | 0, _ => Pipeline.ΦA spec1 c
  | n + 1, hn => iprop((owns (c : Thread nD τ) scM1_0 fullShare (scAt1 V c n hn).1 ∗ owns (c : Thread nD τ) scM1_1 fullShare (scAt1 V c n hn).2)
      ∗ Pipeline.scopedRestBut (Ix := Unit) (Name := ℕ) (U := UR sig nD τ) (Lvl := ℕ) (Val := Elt F) spec1 c [cc1_scratch0, cc1_scratch1]
      ∗ (∃ r, prngReg c r))

/-- The proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => lseAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = lseAt1 V c t := by dsimp only [dat1]

end Cert.KernelIdeal.Hand

end
-- ==== Proof.KI.R2Defs.lean ====
/-
  The output call (the third kernel region), at any entry contents `V`. Its grid is (batch, query block, key
  block), 8 × 4 × 4 points with the key block innermost. One scratch block, the accumulator, is carried from point
  to point: reset at the first key block, increased at a key block not after the query block by the product of the
  block of weights with the value block, and stored into the output block at the last key block (idle elsewhere).
-/
import proofs.«416763_j40561671143865_3_alg».proof.Proof.Gen.KernelIdeal.Launch
import proofs.«416763_j40561671143865_3_alg».proof.Proof.Gen.KernelIdeal.Skeleton
import proofs.«416763_j40561671143865_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The key block is the first: the accumulator is reset. -/
abbrev cond2_0 (i : grid2.Coords) : Prop :=
  Scalar.cmpi .ne (Scalar.extui (Scalar.cmpi .eq (BitVec.ofNat 32 (i 2).val) 0#32)) 0#32 = 1#1
/-- The key block is not after the query block: its contribution is added. -/
abbrev cond2_1 (i : grid2.Coords) : Prop :=
  Scalar.cmpi .ne (Scalar.extui (Scalar.cmpi .sle (BitVec.ofNat 32 (i 2).val) (BitVec.ofNat 32 (i 1).val))) 0#32 = 1#1
/-- The key block is the last: the output block is stored. -/
abbrev cond2_2 (i : grid2.Coords) : Prop := k2_cond3 i = 1#1

/-- The accumulator. -/
abbrev scM2_0 : Memref sig .tc .vmem S512x1024 .f32 := Memref.whole cc2_scratch0

/-- One point's effect on the accumulator, from the query, key, value and log-sum-exp blocks and what the point finds. -/
def accStep2 (i : grid2.Coords) (xq xk xv : Vec F S1x512x1024 .bf16) (xl : Vec F S1x1x512 .f32) (a : Vec F S512x1024 .f32) :
    Vec F S512x1024 .f32 :=
  let a1 : Vec F S512x1024 .f32 := if cond2_0 i then k2_pay1 else a
  if cond2_1 i then k2_pay2 i xq xk xl a1 xv else a1

/-- The accumulator after the point at position `n` (the first point resets: the reset value stands in for what it finds). -/
def accAt2 (c : Dev nD) : (n : ℕ) → n < cfg2.N → Vec F S512x1024 .f32
  | 0, hn => accStep2 (grid2.coords ⟨0, hn⟩) (iblk2 V c 0 ⟨0, hn⟩) (iblk2 V c 1 ⟨0, hn⟩) (iblk2 V c 2 ⟨0, hn⟩) (iblk2 V c 3 ⟨0, hn⟩) k2_pay1
  | n + 1, hn => accStep2 (grid2.coords ⟨n + 1, hn⟩) (iblk2 V c 0 ⟨n + 1, hn⟩) (iblk2 V c 1 ⟨n + 1, hn⟩) (iblk2 V c 2 ⟨n + 1, hn⟩) (iblk2 V c 3 ⟨n + 1, hn⟩)
      (accAt2 c n (Nat.lt_of_succ_lt hn))

/-- The output block a point stores when it stores one: the accumulator after the point. -/
def outAt2 (c : Dev nD) (t : Fin cfg2.N) : Vec F S1x512x1024 .f32 := k2_pay3 (accAt2 V c t.val t.isLt)

/-- The region invariant before position `n`: before the first point the class's; afterwards the accumulator at what
    the point before left, every other scoped buffer at anything, the generator register at some state. -/
def PhiS2 (c : Dev nD) : (n : ℕ) → n ≤ cfg2.N → sProp 𝕄
  | 0, _ => Pipeline.ΦA spec2 c
  | n + 1, hn => iprop(owns (c : Thread nD τ) scM2_0 fullShare (accAt2 V c n hn)
      ∗ Pipeline.scopedRestBut (Ix := Unit) (Name := ℕ) (U := UR sig nD τ) (Lvl := ℕ) (Val := Elt F) spec2 c [cc2_scratch0]
      ∗ (∃ r, prngReg c r))

/-- The proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outAt2 V c t := by dsimp only [dat2]

end Cert.KernelIdeal.Hand

end
-- ==== Proof.KI.RunDefs.lean ====
/-
  The buffer contents at every boundary of the program's five items — the weight casts and the reshape of `x`, the
  projection call, the three reshapes of its results, the statistics call, the output call — as a fold from the
  launch memory, and every call's proof data at its entry contents. A kernel call leaves its windows' arrays at what
  its write-backs fold to and every other buffer as it found it.
-/
import proofs.«416763_j40561671143865_3_alg».proof.Proof.KI.R0Defs
import proofs.«416763_j40561671143865_3_alg».proof.Proof.KI.R1Defs
import proofs.«416763_j40561671143865_3_alg».proof.Proof.KI.R2Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the casts and the reshape (the projection call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection call's exit. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the three reshapes (the statistics call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the statistics call's exit (the output call's entry). -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
/-- At the output call's exit: the end. -/
def W5 (c : Dev nD) : Valuation τ sig (Elt F) :=
  Pipeline.withArrays spec2 c (W4 m ρ c) fun w => (dat2 (V4 m ρ) c).arrAt w cfg2.N
abbrev V5 : (c : Dev nD) → (b : Ref sig .tc) → Buf (Elt F) ((c : Thread nD τ).loc b) := fun c b => W5 m ρ c b

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb

/-- No call has a prefetched table. -/
abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c

end Cert.KernelIdeal.Hand

end
-- ==== Proof.KI.R0.lean ====
/-
  The projection call's body, run on its staging buffers, and its body obligation.
-/
import proofs.«416763_j40561671143865_3_alg».proof.Proof.KI.R0Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input's buffer

An input's buffer holds its block at every point, fetched there or not: where the pipeline does not fetch, the
block index has not moved, and the body leaves the buffer as it found it. The row block of `x` is fetched at every
point; each weight matrix is fetched once, at the first point, and its block is the whole matrix at every point. -/

/-- The row block of `x`, for any proof data over `V`'s array whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The first weight matrix, whole: fetched at the first point only, its block index constant. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The second weight matrix, whole. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The third weight matrix, whole. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## One whole store, and whole loads

Every access of the body is through the rectangle of its buffer's own sizes at zero offsets: a load through it reads
the contents, and the one store through it leaves its payload, whatever the buffer held. -/

/-- The whole-buffer rectangle's offsets are zero. -/
theorem offsets_zero0 : (![0, 0] : Fin 2 → ℕ) = fun _ => 0 := funext fun a => by fin_cases a <;> rfl

/-- A buffer of 512 × 1024 stored once, whole, reads as what was stored. -/
theorem read_store_whole0 {κ : Kind} {sp : Space} {e : EltTy} (v : View sig κ sp S512x1024 e) (f : v.ty.Contents (Elt F))
    (w : S512x1024.Idx → Elt F e) :
    v.read (Elt F) (v.writes (Elt F) f [⟨Rect.unit (s := S512x1024) ![0, 0] S512x1024.size inb_S512x1024_S512x1024_0_0, w⟩]) = w := by
  rw [View.read_writes_eq_canon _ _ _ (fun y => ⟨_, List.mem_singleton_self _, View.mem_set_unit_zero offsets_zero0 inb_S512x1024_S512x1024_0_0 y⟩),
    View.canon_unit_zero offsets_zero0]

/-! ## The body's triple -/

set_option maxHeartbeats 4000000 in
/-- The body on whole staging buffers — the row block and the three weights at read contents `x0`, `x1`, `x2`, `x3`,
    the three products' buffers at anything — runs to the continuation with the inputs as they were and each product's
    buffer holding the matrix product of the row block with its weight. The body also reads each product's buffer
    before storing it; what it reads there is not used. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1024x1024 .bf16) (harg3 : arg3.IsWhole) (arg4 : Memref sig .tc .vmem S1024x1024 .bf16) (harg4 : arg4.IsWhole)
    (arg5 : Memref sig .tc .vmem S512x1024 .bf16) (harg5 : arg5.IsWhole) (arg6 : Memref sig .tc .vmem S512x1024 .bf16) (harg6 : arg6.IsWhole)
    (arg7 : Memref sig .tc .vmem S512x1024 .bf16) (harg7 : arg7.IsWhole)
    (x0 : Vec F S512x1024 .f32) (x1 x2 x3 : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay2 x0 x1) ∗ owns (c : Thread nD τ) arg6 fullShare (k0_pay3 x0 x2) ∗ owns (c : Thread nD τ) arg7 fullShare (k0_pay4 x0 x3)) -∗ K ⟨⟩))
      ⊢ wp frame (wpE (defs₀ (F := F)) Variants.none c none) E (cc0_kernel i arg1 harg1 arg2 harg2 arg3 harg3 arg4 harg4 arg5 harg5 arg6 harg6 arg7 harg7) K := by
  simp only [cc0_kernel_eq_skeleton]; unfold cc0_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_store_whole0]
    simp only [View.readAt_eq_ld, View.ld_unit_zero (S := S512x1024) offsets_zero0, View.ld_unit_zero (S := S1024x1024) offsets_zero0]
  isplitl [H6]
  · iexists _; isplitr
    swap; · iexact H6
    ipureintro
    rw [read_store_whole0]
    simp only [View.readAt_eq_ld, View.ld_unit_zero (S := S512x1024) offsets_zero0, View.ld_unit_zero (S := S1024x1024) offsets_zero0]
  iexists _; isplitr
  swap; · iexact H7
  ipureintro
  rw [read_store_whole0]
  simp only [View.readAt_eq_ld, View.ld_unit_zero (S := S512x1024) offsets_zero0, View.ld_unit_zero (S := S1024x1024) offsets_zero0]

/-! ## The body at a point of the grid -/

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`: the invariant, what the core owes, and the seven windows' current
    buffers — the four inputs' at what they hold, the three products' at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the same, each buffer at what the body leaves there. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the body's triple applies at those blocks; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The statistics call's body, run on its staging buffers and scratch columns, and its body obligation.
-/
import proofs.«416763_j40561671143865_3_alg».proof.Proof.KI.R1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## Whole-buffer stores and loads -/

/-- The whole-buffer rectangle's offsets are zero. -/
theorem hz2 : (![0, 0] : Fin 2 → ℕ) = fun _ => 0 := funext fun a => by fin_cases a <;> rfl
theorem hz3 : (![0, 0, 0] : Fin 3 → ℕ) = fun _ => 0 := funext fun a => by fin_cases a <;> rfl

section Whole

variable {κ : Kind} {sp : Space} {S : Shape} {e : EltTy}

/-- A buffer reads, after a store through its whole-shape rectangle made last, that store's value, whatever was
    stored before. -/
theorem read_writes_cons_unit_zero (v : View sig κ sp S e) (f : v.ty.Contents (Elt F)) {off : Fin S.rank → ℕ}
    (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A load of the whole buffer after such a store reads the store's value. -/
theorem readCov_cons_unit_zero (v : View sig κ sp S e) {off : Fin S.rank → ℕ}
    (h : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Whole

/-! ## The kernel on whole buffers, by the three branch conditions

Every store of the kernel is of a whole buffer and every load reads a whole buffer, so what a buffer holds after the
run is the value last stored into it, and a load after a store reads that value. Each of the eight assignments of
the three conditions is run on its own; in each the step function's conditionals reduce to the branch taken. -/

set_option maxHeartbeats 4000000 in
theorem kernel1_ttt (c : Dev nD) (i : grid1.Coords)
    (arg3 : Memref sig .tc .vmem S1x512x1024 .bf16) (harg3 : arg3.IsWhole)
    (arg4 : Memref sig .tc .vmem S1x512x1024 .bf16) (harg4 : arg4.IsWhole)
    (arg5 : Memref sig .tc .vmem S1x1x512 .f32) (harg5 : arg5.IsWhole)
    (arg6 : Memref sig .tc .vmem S512x1 .f32) (harg6 : arg6.IsWhole)
    (arg7 : Memref sig .tc .vmem S512x1 .f32) (harg7 : arg7.IsWhole)
    (h0 : cond1_0 i) (h1 : cond1_1 i) (h2 : cond1_2 i)
    (xk xq : Vec F S1x512x1024 .bf16) (xo : Vec F S1x1x512 .f32) (ms ls : Vec F S512x1 .f32)
    (E : Set ℕ) (K : PUnit → sProp 𝕄) :
    iprop(owns (c : Thread nD τ) arg3 fullShare xk ∗ owns (c : Thread nD τ) arg4 fullShare xq ∗ owns (c : Thread nD τ) arg5 fullShare xo
        ∗ owns (c : Thread nD τ) arg6 fullShare ms ∗ owns (c : Thread nD τ) arg7 fullShare ls
        ∗ (iprop(owns (c : Thread nD τ) arg3 fullShare xk ∗ owns (c : Thread nD τ) arg4 fullShare xq
            ∗ owns (c : Thread nD τ) arg5 fullShare
                (if cond1_2 i then k1_pay4 (scStep1 i xk xq (ms, ls)).1 (scStep1 i xk xq (ms, ls)).2 else xo)
            ∗ owns (c : Thread nD τ) arg6 fullShare (scStep1 i xk xq (ms, ls)).1
            ∗ owns (c : Thread nD τ) arg7 fullShare (scStep1 i xk xq (ms, ls)).2) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    unfold scStep1
    simp only [if_pos h0, if_pos h1, if_pos h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  isplitl [H6]
  · iexists _; isplitr
    swap; · iexact H6
    ipureintro
    sl_unfold_words
    unfold scStep1
    simp only [if_pos h0, if_pos h1, if_pos h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  · iexists _; isplitr
    swap; · iexact H7
    ipureintro
    sl_unfold_words
    unfold scStep1
    simp only [if_pos h0, if_pos h1, if_pos h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]

set_option maxHeartbeats 4000000 in
theorem kernel1_ttf (c : Dev nD) (i : grid1.Coords)
    (arg3 : Memref sig .tc .vmem S1x512x1024 .bf16) (harg3 : arg3.IsWhole)
    (arg4 : Memref sig .tc .vmem S1x512x1024 .bf16) (harg4 : arg4.IsWhole)
    (arg5 : Memref sig .tc .vmem S1x1x512 .f32) (harg5 : arg5.IsWhole)
    (arg6 : Memref sig .tc .vmem S512x1 .f32) (harg6 : arg6.IsWhole)
    (arg7 : Memref sig .tc .vmem S512x1 .f32) (harg7 : arg7.IsWhole)
    (h0 : cond1_0 i) (h1 : cond1_1 i) (h2 : ¬cond1_2 i)
    (xk xq : Vec F S1x512x1024 .bf16) (xo : Vec F S1x1x512 .f32) (ms ls : Vec F S512x1 .f32)
    (E : Set ℕ) (K : PUnit → sProp 𝕄) :
    iprop(owns (c : Thread nD τ) arg3 fullShare xk ∗ owns (c : Thread nD τ) arg4 fullShare xq ∗ owns (c : Thread nD τ) arg5 fullShare xo
        ∗ owns (c : Thread nD τ) arg6 fullShare ms ∗ owns (c : Thread nD τ) arg7 fullShare ls
        ∗ (iprop(owns (c : Thread nD τ) arg3 fullShare xk ∗ owns (c : Thread nD τ) arg4 fullShare xq
            ∗ owns (c : Thread nD τ) arg5 fullShare
                (if cond1_2 i then k1_pay4 (scStep1 i xk xq (ms, ls)).1 (scStep1 i xk xq (ms, ls)).2 else xo)
            ∗ owns (c : Thread nD τ) arg6 fullShare (scStep1 i xk xq (ms, ls)).1
            ∗ owns (c : Thread nD τ) arg7 fullShare (scStep1 i xk xq (ms, ls)).2) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    unfold scStep1
    simp only [if_pos h0, if_pos h1, if_neg h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  isplitl [H6]
  · iexists _; isplitr
    swap; · iexact H6
    ipureintro
    sl_unfold_words
    unfold scStep1
    simp only [if_pos h0, if_pos h1, if_neg h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  · iexists _; isplitr
    swap; · iexact H7
    ipureintro
    sl_unfold_words
    unfold scStep1
    simp only [if_pos h0, if_pos h1, if_neg h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]

set_option maxHeartbeats 4000000 in
theorem kernel1_tft (c : Dev nD) (i : grid1.Coords)
    (arg3 : Memref sig .tc .vmem S1x512x1024 .bf16) (harg3 : arg3.IsWhole)
    (arg4 : Memref sig .tc .vmem S1x512x1024 .bf16) (harg4 : arg4.IsWhole)
    (arg5 : Memref sig .tc .vmem S1x1x512 .f32) (harg5 : arg5.IsWhole)
    (arg6 : Memref sig .tc .vmem S512x1 .f32) (harg6 : arg6.IsWhole)
    (arg7 : Memref sig .tc .vmem S512x1 .f32) (harg7 : arg7.IsWhole)
    (h0 : cond1_0 i) (h1 : ¬cond1_1 i) (h2 : cond1_2 i)
    (xk xq : Vec F S1x512x1024 .bf16) (xo : Vec F S1x1x512 .f32) (ms ls : Vec F S512x1 .f32)
    (E : Set ℕ) (K : PUnit → sProp 𝕄) :
    iprop(owns (c : Thread nD τ) arg3 fullShare xk ∗ owns (c : Thread nD τ) arg4 fullShare xq ∗ owns (c : Thread nD τ) arg5 fullShare xo
        ∗ owns (c : Thread nD τ) arg6 fullShare ms ∗ owns (c : Thread nD τ) arg7 fullShare ls
        ∗ (iprop(owns (c : Thread nD τ) arg3 fullShare xk ∗ owns (c : Thread nD τ) arg4 fullShare xq
            ∗ owns (c : Thread nD τ) arg5 fullShare
                (if cond1_2 i then k1_pay4 (scStep1 i xk xq (ms, ls)).1 (scStep1 i xk xq (ms, ls)).2 else xo)
            ∗ owns (c : Thread nD τ) arg6 fullShare (scStep1 i xk xq (ms, ls)).1
            ∗ owns (c : Thread nD τ) arg7 fullShare (scStep1 i xk xq (ms, ls)).2) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    unfold scStep1
    simp only [if_pos h0, if_neg h1, if_pos h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  isplitl [H6]
  · iexists _; isplitr
    swap; · iexact H6
    ipureintro
    sl_unfold_words
    unfold scStep1
    simp only [if_pos h0, if_neg h1, if_pos h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  · iexists _; isplitr
    swap; · iexact H7
    ipureintro
    sl_unfold_words
    unfold scStep1
    simp only [if_pos h0, if_neg h1, if_pos h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]

set_option maxHeartbeats 4000000 in
theorem kernel1_tff (c : Dev nD) (i : grid1.Coords)
    (arg3 : Memref sig .tc .vmem S1x512x1024 .bf16) (harg3 : arg3.IsWhole)
    (arg4 : Memref sig .tc .vmem S1x512x1024 .bf16) (harg4 : arg4.IsWhole)
    (arg5 : Memref sig .tc .vmem S1x1x512 .f32) (harg5 : arg5.IsWhole)
    (arg6 : Memref sig .tc .vmem S512x1 .f32) (harg6 : arg6.IsWhole)
    (arg7 : Memref sig .tc .vmem S512x1 .f32) (harg7 : arg7.IsWhole)
    (h0 : cond1_0 i) (h1 : ¬cond1_1 i) (h2 : ¬cond1_2 i)
    (xk xq : Vec F S1x512x1024 .bf16) (xo : Vec F S1x1x512 .f32) (ms ls : Vec F S512x1 .f32)
    (E : Set ℕ) (K : PUnit → sProp 𝕄) :
    iprop(owns (c : Thread nD τ) arg3 fullShare xk ∗ owns (c : Thread nD τ) arg4 fullShare xq ∗ owns (c : Thread nD τ) arg5 fullShare xo
        ∗ owns (c : Thread nD τ) arg6 fullShare ms ∗ owns (c : Thread nD τ) arg7 fullShare ls
        ∗ (iprop(owns (c : Thread nD τ) arg3 fullShare xk ∗ owns (c : Thread nD τ) arg4 fullShare xq
            ∗ owns (c : Thread nD τ) arg5 fullShare
                (if cond1_2 i then k1_pay4 (scStep1 i xk xq (ms, ls)).1 (scStep1 i xk xq (ms, ls)).2 else xo)
            ∗ owns (c : Thread nD τ) arg6 fullShare (scStep1 i xk xq (ms, ls)).1
            ∗ owns (c : Thread nD τ) arg7 fullShare (scStep1 i xk xq (ms, ls)).2) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    unfold scStep1
    simp only [if_pos h0, if_neg h1, if_neg h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  isplitl [H6]
  · iexists _; isplitr
    swap; · iexact H6
    ipureintro
    sl_unfold_words
    unfold scStep1
    simp only [if_pos h0, if_neg h1, if_neg h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  · iexists _; isplitr
    swap; · iexact H7
    ipureintro
    sl_unfold_words
    unfold scStep1
    simp only [if_pos h0, if_neg h1, if_neg h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]

set_option maxHeartbeats 4000000 in
theorem kernel1_ftt (c : Dev nD) (i : grid1.Coords)
    (arg3 : Memref sig .tc .vmem S1x512x1024 .bf16) (harg3 : arg3.IsWhole)
    (arg4 : Memref sig .tc .vmem S1x512x1024 .bf16) (harg4 : arg4.IsWhole)
    (arg5 : Memref sig .tc .vmem S1x1x512 .f32) (harg5 : arg5.IsWhole)
    (arg6 : Memref sig .tc .vmem S512x1 .f32) (harg6 : arg6.IsWhole)
    (arg7 : Memref sig .tc .vmem S512x1 .f32) (harg7 : arg7.IsWhole)
    (h0 : ¬cond1_0 i) (h1 : cond1_1 i) (h2 : cond1_2 i)
    (xk xq : Vec F S1x512x1024 .bf16) (xo : Vec F S1x1x512 .f32) (ms ls : Vec F S512x1 .f32)
    (E : Set ℕ) (K : PUnit → sProp 𝕄) :
    iprop(owns (c : Thread nD τ) arg3 fullShare xk ∗ owns (c : Thread nD τ) arg4 fullShare xq ∗ owns (c : Thread nD τ) arg5 fullShare xo
        ∗ owns (c : Thread nD τ) arg6 fullShare ms ∗ owns (c : Thread nD τ) arg7 fullShare ls
        ∗ (iprop(owns (c : Thread nD τ) arg3 fullShare xk ∗ owns (c : Thread nD τ) arg4 fullShare xq
            ∗ owns (c : Thread nD τ) arg5 fullShare
                (if cond1_2 i then k1_pay4 (scStep1 i xk xq (ms, ls)).1 (scStep1 i xk xq (ms, ls)).2 else xo)
            ∗ owns (c : Thread nD τ) arg6 fullShare (scStep1 i xk xq (ms, ls)).1
            ∗ owns (c : Thread nD τ) arg7 fullShare (scStep1 i xk xq (ms, ls)).2) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    unfold scStep1
    simp only [if_neg h0, if_pos h1, if_pos h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  isplitl [H6]
  · iexists _; isplitr
    swap; · iexact H6
    ipureintro
    sl_unfold_words
    unfold scStep1
    simp only [if_neg h0, if_pos h1, if_pos h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  · iexists _; isplitr
    swap; · iexact H7
    ipureintro
    sl_unfold_words
    unfold scStep1
    simp only [if_neg h0, if_pos h1, if_pos h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]

set_option maxHeartbeats 4000000 in
theorem kernel1_ftf (c : Dev nD) (i : grid1.Coords)
    (arg3 : Memref sig .tc .vmem S1x512x1024 .bf16) (harg3 : arg3.IsWhole)
    (arg4 : Memref sig .tc .vmem S1x512x1024 .bf16) (harg4 : arg4.IsWhole)
    (arg5 : Memref sig .tc .vmem S1x1x512 .f32) (harg5 : arg5.IsWhole)
    (arg6 : Memref sig .tc .vmem S512x1 .f32) (harg6 : arg6.IsWhole)
    (arg7 : Memref sig .tc .vmem S512x1 .f32) (harg7 : arg7.IsWhole)
    (h0 : ¬cond1_0 i) (h1 : cond1_1 i) (h2 : ¬cond1_2 i)
    (xk xq : Vec F S1x512x1024 .bf16) (xo : Vec F S1x1x512 .f32) (ms ls : Vec F S512x1 .f32)
    (E : Set ℕ) (K : PUnit → sProp 𝕄) :
    iprop(owns (c : Thread nD τ) arg3 fullShare xk ∗ owns (c : Thread nD τ) arg4 fullShare xq ∗ owns (c : Thread nD τ) arg5 fullShare xo
        ∗ owns (c : Thread nD τ) arg6 fullShare ms ∗ owns (c : Thread nD τ) arg7 fullShare ls
        ∗ (iprop(owns (c : Thread nD τ) arg3 fullShare xk ∗ owns (c : Thread nD τ) arg4 fullShare xq
            ∗ owns (c : Thread nD τ) arg5 fullShare
                (if cond1_2 i then k1_pay4 (scStep1 i xk xq (ms, ls)).1 (scStep1 i xk xq (ms, ls)).2 else xo)
            ∗ owns (c : Thread nD τ) arg6 fullShare (scStep1 i xk xq (ms, ls)).1
            ∗ owns (c : Thread nD τ) arg7 fullShare (scStep1 i xk xq (ms, ls)).2) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    unfold scStep1
    simp only [if_neg h0, if_pos h1, if_neg h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  isplitl [H6]
  · iexists _; isplitr
    swap; · iexact H6
    ipureintro
    sl_unfold_words
    unfold scStep1
    simp only [if_neg h0, if_pos h1, if_neg h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  · iexists _; isplitr
    swap; · iexact H7
    ipureintro
    sl_unfold_words
    unfold scStep1
    simp only [if_neg h0, if_pos h1, if_neg h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]

set_option maxHeartbeats 4000000 in
theorem kernel1_fft (c : Dev nD) (i : grid1.Coords)
    (arg3 : Memref sig .tc .vmem S1x512x1024 .bf16) (harg3 : arg3.IsWhole)
    (arg4 : Memref sig .tc .vmem S1x512x1024 .bf16) (harg4 : arg4.IsWhole)
    (arg5 : Memref sig .tc .vmem S1x1x512 .f32) (harg5 : arg5.IsWhole)
    (arg6 : Memref sig .tc .vmem S512x1 .f32) (harg6 : arg6.IsWhole)
    (arg7 : Memref sig .tc .vmem S512x1 .f32) (harg7 : arg7.IsWhole)
    (h0 : ¬cond1_0 i) (h1 : ¬cond1_1 i) (h2 : cond1_2 i)
    (xk xq : Vec F S1x512x1024 .bf16) (xo : Vec F S1x1x512 .f32) (ms ls : Vec F S512x1 .f32)
    (E : Set ℕ) (K : PUnit → sProp 𝕄) :
    iprop(owns (c : Thread nD τ) arg3 fullShare xk ∗ owns (c : Thread nD τ) arg4 fullShare xq ∗ owns (c : Thread nD τ) arg5 fullShare xo
        ∗ owns (c : Thread nD τ) arg6 fullShare ms ∗ owns (c : Thread nD τ) arg7 fullShare ls
        ∗ (iprop(owns (c : Thread nD τ) arg3 fullShare xk ∗ owns (c : Thread nD τ) arg4 fullShare xq
            ∗ owns (c : Thread nD τ) arg5 fullShare
                (if cond1_2 i then k1_pay4 (scStep1 i xk xq (ms, ls)).1 (scStep1 i xk xq (ms, ls)).2 else xo)
            ∗ owns (c : Thread nD τ) arg6 fullShare (scStep1 i xk xq (ms, ls)).1
            ∗ owns (c : Thread nD τ) arg7 fullShare (scStep1 i xk xq (ms, ls)).2) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    unfold scStep1
    simp only [if_neg h0, if_neg h1, if_pos h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  isplitl [H6]
  · iexists _; isplitr
    swap; · iexact H6
    ipureintro
    sl_unfold_words
    unfold scStep1
    simp only [if_neg h0, if_neg h1, if_pos h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  · iexists _; isplitr
    swap; · iexact H7
    ipureintro
    sl_unfold_words
    unfold scStep1
    simp only [if_neg h0, if_neg h1, if_pos h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]

set_option maxHeartbeats 4000000 in
theorem kernel1_fff (c : Dev nD) (i : grid1.Coords)
    (arg3 : Memref sig .tc .vmem S1x512x1024 .bf16) (harg3 : arg3.IsWhole)
    (arg4 : Memref sig .tc .vmem S1x512x1024 .bf16) (harg4 : arg4.IsWhole)
    (arg5 : Memref sig .tc .vmem S1x1x512 .f32) (harg5 : arg5.IsWhole)
    (arg6 : Memref sig .tc .vmem S512x1 .f32) (harg6 : arg6.IsWhole)
    (arg7 : Memref sig .tc .vmem S512x1 .f32) (harg7 : arg7.IsWhole)
    (h0 : ¬cond1_0 i) (h1 : ¬cond1_1 i) (h2 : ¬cond1_2 i)
    (xk xq : Vec F S1x512x1024 .bf16) (xo : Vec F S1x1x512 .f32) (ms ls : Vec F S512x1 .f32)
    (E : Set ℕ) (K : PUnit → sProp 𝕄) :
    iprop(owns (c : Thread nD τ) arg3 fullShare xk ∗ owns (c : Thread nD τ) arg4 fullShare xq ∗ owns (c : Thread nD τ) arg5 fullShare xo
        ∗ owns (c : Thread nD τ) arg6 fullShare ms ∗ owns (c : Thread nD τ) arg7 fullShare ls
        ∗ (iprop(owns (c : Thread nD τ) arg3 fullShare xk ∗ owns (c : Thread nD τ) arg4 fullShare xq
            ∗ owns (c : Thread nD τ) arg5 fullShare
                (if cond1_2 i then k1_pay4 (scStep1 i xk xq (ms, ls)).1 (scStep1 i xk xq (ms, ls)).2 else xo)
            ∗ owns (c : Thread nD τ) arg6 fullShare (scStep1 i xk xq (ms, ls)).1
            ∗ owns (c : Thread nD τ) arg7 fullShare (scStep1 i xk xq (ms, ls)).2) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec (disch := first | exact h0 | exact h1 | exact h2)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    unfold scStep1
    simp only [if_neg h0, if_neg h1, if_neg h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  isplitl [H6]
  · iexists _; isplitr
    swap; · iexact H6
    ipureintro
    sl_unfold_words
    unfold scStep1
    simp only [if_neg h0, if_neg h1, if_neg h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]
  · iexists _; isplitr
    swap; · iexact H7
    ipureintro
    sl_unfold_words
    unfold scStep1
    simp only [if_neg h0, if_neg h1, if_neg h2, read_writes_cons_unit_zero (S := S512x1) _ _ hz2, read_writes_cons_unit_zero (S := S1x1x512) _ _ hz3,
      readCov_cons_unit_zero (S := S512x1) _ hz2, View.readAt_eq_ld, View.ld_unit_zero (S := S512x1) hz2,
      View.ld_unit_zero (S := S1x512x1024) hz3, View.ld_unit_zero (S := S1x1x512) hz3, View.writes_nil]

/-- The statistics kernel on whole buffers, at any grid coordinate: the two input blocks are left as found; the two
    scratch columns, found at `(ms, ls)`, are left at the pair one step on; the output block is left at the row
    log-sum-exp of that pair where the query block is the last, and as found elsewhere. -/
theorem kernel1 (c : Dev nD) (i : grid1.Coords)
    (arg3 : Memref sig .tc .vmem S1x512x1024 .bf16) (harg3 : arg3.IsWhole)
    (arg4 : Memref sig .tc .vmem S1x512x1024 .bf16) (harg4 : arg4.IsWhole)
    (arg5 : Memref sig .tc .vmem S1x1x512 .f32) (harg5 : arg5.IsWhole)
    (arg6 : Memref sig .tc .vmem S512x1 .f32) (harg6 : arg6.IsWhole)
    (arg7 : Memref sig .tc .vmem S512x1 .f32) (harg7 : arg7.IsWhole)
    (xk xq : Vec F S1x512x1024 .bf16) (xo : Vec F S1x1x512 .f32) (ms ls : Vec F S512x1 .f32)
    (E : Set ℕ) (K : PUnit → sProp 𝕄) :
    iprop(owns (c : Thread nD τ) arg3 fullShare xk ∗ owns (c : Thread nD τ) arg4 fullShare xq ∗ owns (c : Thread nD τ) arg5 fullShare xo
        ∗ owns (c : Thread nD τ) arg6 fullShare ms ∗ owns (c : Thread nD τ) arg7 fullShare ls
        ∗ (iprop(owns (c : Thread nD τ) arg3 fullShare xk ∗ owns (c : Thread nD τ) arg4 fullShare xq
            ∗ owns (c : Thread nD τ) arg5 fullShare
                (if cond1_2 i then k1_pay4 (scStep1 i xk xq (ms, ls)).1 (scStep1 i xk xq (ms, ls)).2 else xo)
            ∗ owns (c : Thread nD τ) arg6 fullShare (scStep1 i xk xq (ms, ls)).1
            ∗ owns (c : Thread nD τ) arg7 fullShare (scStep1 i xk xq (ms, ls)).2) -∗ K ⟨⟩))
      ⊢ wp frame (wpE (defs₀ (F := F)) Variants.none c none) E (cc1_kernel i arg3 harg3 arg4 harg4 arg5 harg5 arg6 harg6 arg7 harg7) K := by
  by_cases h0 : cond1_0 i <;> by_cases h1 : cond1_1 i <;> by_cases h2 : cond1_2 i
  · exact kernel1_ttt c i arg3 harg3 arg4 harg4 arg5 harg5 arg6 harg6 arg7 harg7 h0 h1 h2 xk xq xo ms ls E K
  · exact kernel1_ttf c i arg3 harg3 arg4 harg4 arg5 harg5 arg6 harg6 arg7 harg7 h0 h1 h2 xk xq xo ms ls E K
  · exact kernel1_tft c i arg3 harg3 arg4 harg4 arg5 harg5 arg6 harg6 arg7 harg7 h0 h1 h2 xk xq xo ms ls E K
  · exact kernel1_tff c i arg3 harg3 arg4 harg4 arg5 harg5 arg6 harg6 arg7 harg7 h0 h1 h2 xk xq xo ms ls E K
  · exact kernel1_ftt c i arg3 harg3 arg4 harg4 arg5 harg5 arg6 harg6 arg7 harg7 h0 h1 h2 xk xq xo ms ls E K
  · exact kernel1_ftf c i arg3 harg3 arg4 harg4 arg5 harg5 arg6 harg6 arg7 harg7 h0 h1 h2 xk xq xo ms ls E K
  · exact kernel1_fft c i arg3 harg3 arg4 harg4 arg5 harg5 arg6 harg6 arg7 harg7 h0 h1 h2 xk xq xo ms ls E K
  · exact kernel1_fff c i arg3 harg3 arg4 harg4 arg5 harg5 arg6 harg6 arg7 harg7 h0 h1 h2 xk xq xo ms ls E K

/-- Where the query block is the last the kernel leaves the row log-sum-exp of the new pair in the output block; -/
theorem kernel1_live (c : Dev nD) (i : grid1.Coords)
    (arg3 : Memref sig .tc .vmem S1x512x1024 .bf16) (harg3 : arg3.IsWhole)
    (arg4 : Memref sig .tc .vmem S1x512x1024 .bf16) (harg4 : arg4.IsWhole)
    (arg5 : Memref sig .tc .vmem S1x1x512 .f32) (harg5 : arg5.IsWhole)
    (arg6 : Memref sig .tc .vmem S512x1 .f32) (harg6 : arg6.IsWhole)
    (arg7 : Memref sig .tc .vmem S512x1 .f32) (harg7 : arg7.IsWhole) (h2 : cond1_2 i)
    (xk xq : Vec F S1x512x1024 .bf16) (xo : Vec F S1x1x512 .f32) (ms ls : Vec F S512x1 .f32)
    (E : Set ℕ) (K : PUnit → sProp 𝕄) :
    iprop(owns (c : Thread nD τ) arg3 fullShare xk ∗ owns (c : Thread nD τ) arg4 fullShare xq ∗ owns (c : Thread nD τ) arg5 fullShare xo
        ∗ owns (c : Thread nD τ) arg6 fullShare ms ∗ owns (c : Thread nD τ) arg7 fullShare ls
        ∗ (iprop(owns (c : Thread nD τ) arg3 fullShare xk ∗ owns (c : Thread nD τ) arg4 fullShare xq
            ∗ owns (c : Thread nD τ) arg5 fullShare (k1_pay4 (scStep1 i xk xq (ms, ls)).1 (scStep1 i xk xq (ms, ls)).2)
            ∗ owns (c : Thread nD τ) arg6 fullShare (scStep1 i xk xq (ms, ls)).1
            ∗ owns (c : Thread nD τ) arg7 fullShare (scStep1 i xk xq (ms, ls)).2) -∗ K ⟨⟩))
      ⊢ wp frame (wpE (defs₀ (F := F)) Variants.none c none) E (cc1_kernel i arg3 harg3 arg4 harg4 arg5 harg5 arg6 harg6 arg7 harg7) K := by
  have h := kernel1 c i arg3 harg3 arg4 harg4 arg5 harg5 arg6 harg6 arg7 harg7 xk xq xo ms ls E K
  rw [if_pos h2] at h
  exact h

/-- elsewhere it leaves the output block as it found it. -/
theorem kernel1_idle (c : Dev nD) (i : grid1.Coords)
    (arg3 : Memref sig .tc .vmem S1x512x1024 .bf16) (harg3 : arg3.IsWhole)
    (arg4 : Memref sig .tc .vmem S1x512x1024 .bf16) (harg4 : arg4.IsWhole)
    (arg5 : Memref sig .tc .vmem S1x1x512 .f32) (harg5 : arg5.IsWhole)
    (arg6 : Memref sig .tc .vmem S512x1 .f32) (harg6 : arg6.IsWhole)
    (arg7 : Memref sig .tc .vmem S512x1 .f32) (harg7 : arg7.IsWhole) (h2 : ¬cond1_2 i)
    (xk xq : Vec F S1x512x1024 .bf16) (xo : Vec F S1x1x512 .f32) (ms ls : Vec F S512x1 .f32)
    (E : Set ℕ) (K : PUnit → sProp 𝕄) :
    iprop(owns (c : Thread nD τ) arg3 fullShare xk ∗ owns (c : Thread nD τ) arg4 fullShare xq ∗ owns (c : Thread nD τ) arg5 fullShare xo
        ∗ owns (c : Thread nD τ) arg6 fullShare ms ∗ owns (c : Thread nD τ) arg7 fullShare ls
        ∗ (iprop(owns (c : Thread nD τ) arg3 fullShare xk ∗ owns (c : Thread nD τ) arg4 fullShare xq
            ∗ owns (c : Thread nD τ) arg5 fullShare xo
            ∗ owns (c : Thread nD τ) arg6 fullShare (scStep1 i xk xq (ms, ls)).1
            ∗ owns (c : Thread nD τ) arg7 fullShare (scStep1 i xk xq (ms, ls)).2) -∗ K ⟨⟩))
      ⊢ wp frame (wpE (defs₀ (F := F)) Variants.none c none) E (cc1_kernel i arg3 harg3 arg4 harg4 arg5 harg5 arg6 harg6 arg7 harg7) K := by
  have h := kernel1 c i arg3 harg3 arg4 harg4 arg5 harg5 arg6 harg6 arg7 harg7 xk xq xo ms ls E K
  rw [if_neg h2] at h
  exact h

/-! ## The grid's facts -/

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
/-- The output window is live exactly where the query block is the last, -/
theorem liveAt1_2 : ∀ t : Fin cfg1.N, cond1_2 (grid1.coords t) → cfg1.idle 2 (grid1.coords t) = false := by decide +kernel
/-- idle elsewhere, -/
theorem idleAt1_2 : ∀ t : Fin cfg1.N, ¬cond1_2 (grid1.coords t) → cfg1.idle 2 (grid1.coords t) = true := by decide +kernel
/-- and not written back there. -/
theorem noFlush1_2 : ∀ t : Fin cfg1.N, ¬cond1_2 (grid1.coords t) → (cfg1.win 2).flush t = false := by decide +kernel
/-- The first point is at the first query block. -/
theorem cond1_0_first : ∀ t : Fin cfg1.N, t.val = 0 → cond1_0 (grid1.coords t) := by decide +kernel

/-- At the first query block the step resets both columns before anything reads them: what it found does not matter. -/
theorem scStep1_reset (i : grid1.Coords) (xk xq : Vec F S1x512x1024 .bf16) (s s' : Vec F S512x1 .f32 × Vec F S512x1 .f32)
    (h : cond1_0 i) : scStep1 i xk xq s = scStep1 i xk xq s' := by
  unfold scStep1; simp only [if_pos h]

/-! ## The pair point by point, and the invariant -/

theorem scAt1_zero (c : Dev nD) (t : Fin cfg1.N) (hz : t.val = 0) :
    scAt1 V c t.val t.isLt = scStep1 (grid1.coords t) (iblk1 V c 0 t) (iblk1 V c 1 t) (k1_pay1, k1_pay2) := by
  obtain ⟨n, hn⟩ := t
  cases n with
  | zero => rfl
  | succ n => exact absurd hz (Nat.succ_ne_zero n)

theorem scAt1_pos (c : Dev nD) (t : Fin cfg1.N) (hz : t.val ≠ 0) :
    scAt1 V c t.val t.isLt = scStep1 (grid1.coords t) (iblk1 V c 0 t) (iblk1 V c 1 t)
      ((scAt1 V c (t.val - 1) (Nat.lt_of_le_of_lt (Nat.sub_le _ _) t.isLt)).1, (scAt1 V c (t.val - 1) (Nat.lt_of_le_of_lt (Nat.sub_le _ _) t.isLt)).2) := by
  obtain ⟨n, hn⟩ := t
  cases n with
  | zero => exact absurd rfl hz
  | succ n => rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare (scAt1 V c n hn).1 ∗ owns (c : Thread nD τ) scM1_1 fullShare (scAt1 V c n hn).2)
      ∗ Pipeline.scopedRestBut (Ix := Unit) (Name := ℕ) (U := UR sig nD τ) (Lvl := ℕ) (Val := Elt F) spec1 c [cc1_scratch0, cc1_scratch1]
      ∗ (∃ r, prngReg c r)) := rfl

theorem PhiS1_pos (c : Dev nD) (n : ℕ) (h : n ≤ cfg1.N) (hz : n ≠ 0) :
    PhiS1 V c n h = iprop((owns (c : Thread nD τ) scM1_0 fullShare (scAt1 V c (n - 1) (by omega)).1 ∗ owns (c : Thread nD τ) scM1_1 fullShare (scAt1 V c (n - 1) (by omega)).2)
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- The class's invariant with the two scratch columns named: each at some contents, every other scoped buffer at
    anything, the generator register at some state. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA
  rw [Pipeline.scopedRest_split_of_list spec1 c [cc1_scratch0, cc1_scratch1] (by decide) (by decide)]
  simp only [scM1_0, scM1_1, owns_whole, bigSepL_cons_cons, bigSepL_singleton]
  try rfl

/-! ## The input windows' buffers -/

/-- Each input's current buffer holds its block at every point, fetched there or not: unfetched, the block index
    has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The input buffers hold their blocks; the invariant hands over the scratch columns at the
    pair the point before left (at anything before the first point, where the step resets them) and takes them back
    at this point's pair; the output buffer is stored where the query block is the last and handed back untouched
    elsewhere; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [PhiS1_castSucc]
  by_cases h2 : cond1_2 (grid1.coords t)
  · rw [show (dat1 V c).leavesExact 2 t = owns (c : Thread nD τ) (st1_2 t) fullShare ((dat1 V c).after 2 t) from by
      unfold Dat.leavesExact; rw [liveAt1_2 t h2], after1_2]
    unfold lseAt1
    by_cases hz : t.val = 0
    · rw [PhiS1_zero V c _ _ hz, PhiA1_eq, scAt1_zero V c t hz]
      iintro ⟨⟨⟨⟨⟨%a, HA⟩, ⟨%b, HB⟩⟩, HR⟩, Hg⟩, Ho, ⟨%d0, H0⟩, ⟨%d1, H1⟩, ⟨%d2, H2⟩⟩
      rw [scStep1_reset (grid1.coords t) (iblk1 V c 0 t) (iblk1 V c 1 t) (k1_pay1, k1_pay2) (a, b) (cond1_0_first t hz)]
      iapply (kernel1_live c (grid1.coords t) (st1_0 t) (hstage1_0 ((cfg1.slots t 0).cast nbuf1_0)) (st1_1 t) (hstage1_1 ((cfg1.slots t 1).cast nbuf1_1))
        (st1_2 t) (hstage1_2 ((cfg1.slots t 2).cast nbuf1_2)) scM1_0 (Memref.isWhole_whole _) scM1_1 (Memref.isWhole_whole _) h2
        (iblk1 V c 0 t) (iblk1 V c 1 t) ((dat1 V c).before 2 t d2) a b Set.univ _)
      isplitl [H0]; · iexact H0
      isplitl [H1]; · iexact H1
      isplitl [H2]; · iexact H2
      isplitl [HA]; · iexact HA
      isplitl [HB]; · iexact HB
      iintro ⟨H0, H1, H2, HA, HB⟩
      isplitl [HA HB HR Hg]
      · isplitl [HA HB]
        · isplitl [HA]; · iexact HA
          iexact HB
        isplitl [HR]; · iexact HR
        iexact Hg
      isplitl [Ho]; · iexact Ho
      isplitl [H0]; · iexact H0
      isplitl [H1]; · iexact H1
      iexact H2
    · rw [PhiS1_pos V c _ _ hz, scAt1_pos V c t hz]
      iintro ⟨⟨⟨HA, HB⟩, HR, Hg⟩, Ho, ⟨%d0, H0⟩, ⟨%d1, H1⟩, ⟨%d2, H2⟩⟩
      iapply (kernel1_live c (grid1.coords t) (st1_0 t) (hstage1_0 ((cfg1.slots t 0).cast nbuf1_0)) (st1_1 t) (hstage1_1 ((cfg1.slots t 1).cast nbuf1_1))
        (st1_2 t) (hstage1_2 ((cfg1.slots t 2).cast nbuf1_2)) scM1_0 (Memref.isWhole_whole _) scM1_1 (Memref.isWhole_whole _) h2
        (iblk1 V c 0 t) (iblk1 V c 1 t) ((dat1 V c).before 2 t d2)
        (scAt1 V c (t.val - 1) (Nat.lt_of_le_of_lt (Nat.sub_le _ _) t.isLt)).1 (scAt1 V c (t.val - 1) (Nat.lt_of_le_of_lt (Nat.sub_le _ _) t.isLt)).2 Set.univ _)
      isplitl [H0]; · iexact H0
      isplitl [H1]; · iexact H1
      isplitl [H2]; · iexact H2
      isplitl [HA]; · iexact HA
      isplitl [HB]; · iexact HB
      iintro ⟨H0, H1, H2, HA, HB⟩
      isplitl [HA HB HR Hg]
      · isplitl [HA HB]
        · isplitl [HA]; · iexact HA
          iexact HB
        isplitl [HR]; · iexact HR
        iexact Hg
      isplitl [Ho]; · iexact Ho
      isplitl [H0]; · iexact H0
      isplitl [H1]; · iexact H1
      iexact H2
  · rw [Dat.leavesExact_idle (dat1 V c) 2 t (idleAt1_2 t h2) (noFlush1_2 t h2)]
    by_cases hz : t.val = 0
    · rw [PhiS1_zero V c _ _ hz, PhiA1_eq, scAt1_zero V c t hz]
      iintro ⟨⟨⟨⟨⟨%a, HA⟩, ⟨%b, HB⟩⟩, HR⟩, Hg⟩, Ho, ⟨%d0, H0⟩, ⟨%d1, H1⟩, ⟨%d2, H2⟩⟩
      rw [scStep1_reset (grid1.coords t) (iblk1 V c 0 t) (iblk1 V c 1 t) (k1_pay1, k1_pay2) (a, b) (cond1_0_first t hz)]
      iapply (kernel1_idle c (grid1.coords t) (st1_0 t) (hstage1_0 ((cfg1.slots t 0).cast nbuf1_0)) (st1_1 t) (hstage1_1 ((cfg1.slots t 1).cast nbuf1_1))
        (st1_2 t) (hstage1_2 ((cfg1.slots t 2).cast nbuf1_2)) scM1_0 (Memref.isWhole_whole _) scM1_1 (Memref.isWhole_whole _) h2
        (iblk1 V c 0 t) (iblk1 V c 1 t) ((dat1 V c).before 2 t d2) a b Set.univ _)
      isplitl [H0]; · iexact H0
      isplitl [H1]; · iexact H1
      isplitl [H2]; · iexact H2
      isplitl [HA]; · iexact HA
      isplitl [HB]; · iexact HB
      iintro ⟨H0, H1, H2, HA, HB⟩
      isplitl [HA HB HR Hg]
      · isplitl [HA HB]
        · isplitl [HA]; · iexact HA
          iexact HB
        isplitl [HR]; · iexact HR
        iexact Hg
      isplitl [Ho]; · iexact Ho
      isplitl [H0]; · iexact H0
      isplitl [H1]; · iexact H1
      iexists d2; iexact H2
    · rw [PhiS1_pos V c _ _ hz, scAt1_pos V c t hz]
      iintro ⟨⟨⟨HA, HB⟩, HR, Hg⟩, Ho, ⟨%d0, H0⟩, ⟨%d1, H1⟩, ⟨%d2, H2⟩⟩
      iapply (kernel1_idle c (grid1.coords t) (st1_0 t) (hstage1_0 ((cfg1.slots t 0).cast nbuf1_0)) (st1_1 t) (hstage1_1 ((cfg1.slots t 1).cast nbuf1_1))
        (st1_2 t) (hstage1_2 ((cfg1.slots t 2).cast nbuf1_2)) scM1_0 (Memref.isWhole_whole _) scM1_1 (Memref.isWhole_whole _) h2
        (iblk1 V c 0 t) (iblk1 V c 1 t) ((dat1 V c).before 2 t d2)
        (scAt1 V c (t.val - 1) (Nat.lt_of_le_of_lt (Nat.sub_le _ _) t.isLt)).1 (scAt1 V c (t.val - 1) (Nat.lt_of_le_of_lt (Nat.sub_le _ _) t.isLt)).2 Set.univ _)
      isplitl [H0]; · iexact H0
      isplitl [H1]; · iexact H1
      isplitl [H2]; · iexact H2
      isplitl [HA]; · iexact HA
      isplitl [HB]; · iexact HB
      iintro ⟨H0, H1, H2, HA, HB⟩
      isplitl [HA HB HR Hg]
      · isplitl [HA HB]
        · isplitl [HA]; · iexact HA
          iexact HB
        isplitl [HR]; · iexact HR
        iexact Hg
      isplitl [Ho]; · iexact Ho
      isplitl [H0]; · iexact H0
      isplitl [H1]; · iexact H1
      iexists d2; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the class's back: the scratch contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HA, HB⟩, HR, Hg⟩
  isplitl [HA HB HR]
  · isplitl [HA HB]
    · isplitl [HA]
      · iexists _; iexact HA
      iexists _; iexact HB
    iexact HR
  iexact Hg

end Cert.KernelIdeal.Hand

end
-- ==== Proof.KI.R2.lean ====
/-
  The output call's body, run on its staging buffers and accumulator, and its body obligation.
-/
import proofs.«416763_j40561671143865_3_alg».proof.Proof.KI.R2Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The kernel on whole buffers, by its three conditions

Every store and every load is of a whole buffer: a buffer read after the run holds the payload of the last store into it,
and a load reads what the last store before it left (the buffer's contents when none came before). -/

theorem hzA2 : (![0, 0] : Fin 2 → Nat) = fun _ => 0 := funext fun a => by fin_cases a <;> rfl
theorem hzB2 : (![0, 0, 0] : Fin 3 → Nat) = fun _ => 0 := funext fun a => by fin_cases a <;> rfl

/-- A whole buffer read after stores of which the last is of the whole buffer holds that store's payload. -/
theorem read_writes_cons_unit_zero2 {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

theorem run2_TTT (c : Dev nD) (i : grid2.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1x512 .f32) (harg6 : arg6.IsWhole)
    (arg7 : Memref sig .tc .vmem S1x512x1024 .f32) (harg7 : arg7.IsWhole) (arg8 : Memref sig .tc .vmem S512x1024 .f32) (harg8 : arg8.IsWhole)
    (h0 : cond2_0 i) (h1 : cond2_1 i) (h2 : cond2_2 i)
    (xq xk xv : Vec F S1x512x1024 .bf16) (xl : Vec F S1x1x512 .f32) (xo : Vec F S1x512x1024 .f32) (a : Vec F S512x1024 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xl ∗ owns (c : Thread nD τ) arg7 fullShare xo ∗ owns (c : Thread nD τ) arg8 fullShare a
        ∗ (iprop(owns (c : Thread nD τ) arg3 fullShare xq ∗ owns (c : Thread nD τ) arg4 fullShare xk ∗ owns (c : Thread nD τ) arg5 fullShare xv
            ∗ owns (c : Thread nD τ) arg6 fullShare xl
            ∗ owns (c : Thread nD τ) arg7 fullShare (k2_pay3 (k2_pay2 i xq xk xl k2_pay1 xv))
            ∗ owns (c : Thread nD τ) arg8 fullShare (k2_pay2 i xq xk xl k2_pay1 xv)) -∗ K ⟨⟩))
      ⊢ wp frame (wpE (defs₀ (F := F)) Variants.none c none) E (cc2_kernel i arg3 harg3 arg4 harg4 arg5 harg5 arg6 harg6 arg7 harg7 arg8 harg8) K := by
  simp only [cc2_kernel_eq_skeleton]; unfold cc2_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h0 | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    sl_unfold_run_names
    rw [read_writes_cons_unit_zero2 _ _ hzB2]
    try simp only [View.readCov_cons_toLoadRect, View.readAt_eq_ld, harg3.read_unread, harg4.read_unread, harg5.read_unread,
      harg6.read_unread, harg7.read_unread, harg8.read_unread, View.ld_unit_zero (S := S1x512x1024) hzB2,
      View.ld_unit_zero (S := S1x1x512) hzB2, View.ld_unit_zero (S := S512x1024) hzA2]
  · iexists _; isplitr
    swap; · iexact H8
    ipureintro
    sl_unfold_run_names
    rw [read_writes_cons_unit_zero2 _ _ hzA2]
    try simp only [View.readCov_cons_toLoadRect, View.readAt_eq_ld, harg3.read_unread, harg4.read_unread, harg5.read_unread,
      harg6.read_unread, harg7.read_unread, harg8.read_unread, View.ld_unit_zero (S := S1x512x1024) hzB2,
      View.ld_unit_zero (S := S1x1x512) hzB2, View.ld_unit_zero (S := S512x1024) hzA2]

theorem run2_TTF (c : Dev nD) (i : grid2.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1x512 .f32) (harg6 : arg6.IsWhole)
    (arg7 : Memref sig .tc .vmem S1x512x1024 .f32) (harg7 : arg7.IsWhole) (arg8 : Memref sig .tc .vmem S512x1024 .f32) (harg8 : arg8.IsWhole)
    (h0 : cond2_0 i) (h1 : cond2_1 i) (h2 : ¬cond2_2 i)
    (xq xk xv : Vec F S1x512x1024 .bf16) (xl : Vec F S1x1x512 .f32) (xo : Vec F S1x512x1024 .f32) (a : Vec F S512x1024 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xl ∗ owns (c : Thread nD τ) arg7 fullShare xo ∗ owns (c : Thread nD τ) arg8 fullShare a
        ∗ (iprop(owns (c : Thread nD τ) arg3 fullShare xq ∗ owns (c : Thread nD τ) arg4 fullShare xk ∗ owns (c : Thread nD τ) arg5 fullShare xv
            ∗ owns (c : Thread nD τ) arg6 fullShare xl
            ∗ owns (c : Thread nD τ) arg7 fullShare (xo)
            ∗ owns (c : Thread nD τ) arg8 fullShare (k2_pay2 i xq xk xl k2_pay1 xv)) -∗ K ⟨⟩))
      ⊢ wp frame (wpE (defs₀ (F := F)) Variants.none c none) E (cc2_kernel i arg3 harg3 arg4 harg4 arg5 harg5 arg6 harg6 arg7 harg7 arg8 harg8) K := by
  simp only [cc2_kernel_eq_skeleton]; unfold cc2_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h0 | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr; · ipureintro; exact harg7.read_unread _
    iexact H7
  · iexists _; isplitr
    swap; · iexact H8
    ipureintro
    sl_unfold_run_names
    rw [read_writes_cons_unit_zero2 _ _ hzA2]
    try simp only [View.readCov_cons_toLoadRect, View.readAt_eq_ld, harg3.read_unread, harg4.read_unread, harg5.read_unread,
      harg6.read_unread, harg7.read_unread, harg8.read_unread, View.ld_unit_zero (S := S1x512x1024) hzB2,
      View.ld_unit_zero (S := S1x1x512) hzB2, View.ld_unit_zero (S := S512x1024) hzA2]

theorem run2_TFT (c : Dev nD) (i : grid2.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1x512 .f32) (harg6 : arg6.IsWhole)
    (arg7 : Memref sig .tc .vmem S1x512x1024 .f32) (harg7 : arg7.IsWhole) (arg8 : Memref sig .tc .vmem S512x1024 .f32) (harg8 : arg8.IsWhole)
    (h0 : cond2_0 i) (h1 : ¬cond2_1 i) (h2 : cond2_2 i)
    (xq xk xv : Vec F S1x512x1024 .bf16) (xl : Vec F S1x1x512 .f32) (xo : Vec F S1x512x1024 .f32) (a : Vec F S512x1024 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xl ∗ owns (c : Thread nD τ) arg7 fullShare xo ∗ owns (c : Thread nD τ) arg8 fullShare a
        ∗ (iprop(owns (c : Thread nD τ) arg3 fullShare xq ∗ owns (c : Thread nD τ) arg4 fullShare xk ∗ owns (c : Thread nD τ) arg5 fullShare xv
            ∗ owns (c : Thread nD τ) arg6 fullShare xl
            ∗ owns (c : Thread nD τ) arg7 fullShare (k2_pay3 (k2_pay1))
            ∗ owns (c : Thread nD τ) arg8 fullShare (k2_pay1)) -∗ K ⟨⟩))
      ⊢ wp frame (wpE (defs₀ (F := F)) Variants.none c none) E (cc2_kernel i arg3 harg3 arg4 harg4 arg5 harg5 arg6 harg6 arg7 harg7 arg8 harg8) K := by
  simp only [cc2_kernel_eq_skeleton]; unfold cc2_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h0 | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    sl_unfold_run_names
    rw [read_writes_cons_unit_zero2 _ _ hzB2]
    try simp only [View.readCov_cons_toLoadRect, View.readAt_eq_ld, harg3.read_unread, harg4.read_unread, harg5.read_unread,
      harg6.read_unread, harg7.read_unread, harg8.read_unread, View.ld_unit_zero (S := S1x512x1024) hzB2,
      View.ld_unit_zero (S := S1x1x512) hzB2, View.ld_unit_zero (S := S512x1024) hzA2]
  · iexists _; isplitr
    swap; · iexact H8
    ipureintro
    sl_unfold_run_names
    rw [read_writes_cons_unit_zero2 _ _ hzA2]
    try simp only [View.readCov_cons_toLoadRect, View.readAt_eq_ld, harg3.read_unread, harg4.read_unread, harg5.read_unread,
      harg6.read_unread, harg7.read_unread, harg8.read_unread, View.ld_unit_zero (S := S1x512x1024) hzB2,
      View.ld_unit_zero (S := S1x1x512) hzB2, View.ld_unit_zero (S := S512x1024) hzA2]

theorem run2_TFF (c : Dev nD) (i : grid2.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1x512 .f32) (harg6 : arg6.IsWhole)
    (arg7 : Memref sig .tc .vmem S1x512x1024 .f32) (harg7 : arg7.IsWhole) (arg8 : Memref sig .tc .vmem S512x1024 .f32) (harg8 : arg8.IsWhole)
    (h0 : cond2_0 i) (h1 : ¬cond2_1 i) (h2 : ¬cond2_2 i)
    (xq xk xv : Vec F S1x512x1024 .bf16) (xl : Vec F S1x1x512 .f32) (xo : Vec F S1x512x1024 .f32) (a : Vec F S512x1024 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xl ∗ owns (c : Thread nD τ) arg7 fullShare xo ∗ owns (c : Thread nD τ) arg8 fullShare a
        ∗ (iprop(owns (c : Thread nD τ) arg3 fullShare xq ∗ owns (c : Thread nD τ) arg4 fullShare xk ∗ owns (c : Thread nD τ) arg5 fullShare xv
            ∗ owns (c : Thread nD τ) arg6 fullShare xl
            ∗ owns (c : Thread nD τ) arg7 fullShare (xo)
            ∗ owns (c : Thread nD τ) arg8 fullShare (k2_pay1)) -∗ K ⟨⟩))
      ⊢ wp frame (wpE (defs₀ (F := F)) Variants.none c none) E (cc2_kernel i arg3 harg3 arg4 harg4 arg5 harg5 arg6 harg6 arg7 harg7 arg8 harg8) K := by
  simp only [cc2_kernel_eq_skeleton]; unfold cc2_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h0 | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr; · ipureintro; exact harg7.read_unread _
    iexact H7
  · iexists _; isplitr
    swap; · iexact H8
    ipureintro
    sl_unfold_run_names
    rw [read_writes_cons_unit_zero2 _ _ hzA2]
    try simp only [View.readCov_cons_toLoadRect, View.readAt_eq_ld, harg3.read_unread, harg4.read_unread, harg5.read_unread,
      harg6.read_unread, harg7.read_unread, harg8.read_unread, View.ld_unit_zero (S := S1x512x1024) hzB2,
      View.ld_unit_zero (S := S1x1x512) hzB2, View.ld_unit_zero (S := S512x1024) hzA2]

theorem run2_FTT (c : Dev nD) (i : grid2.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1x512 .f32) (harg6 : arg6.IsWhole)
    (arg7 : Memref sig .tc .vmem S1x512x1024 .f32) (harg7 : arg7.IsWhole) (arg8 : Memref sig .tc .vmem S512x1024 .f32) (harg8 : arg8.IsWhole)
    (h0 : ¬cond2_0 i) (h1 : cond2_1 i) (h2 : cond2_2 i)
    (xq xk xv : Vec F S1x512x1024 .bf16) (xl : Vec F S1x1x512 .f32) (xo : Vec F S1x512x1024 .f32) (a : Vec F S512x1024 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xl ∗ owns (c : Thread nD τ) arg7 fullShare xo ∗ owns (c : Thread nD τ) arg8 fullShare a
        ∗ (iprop(owns (c : Thread nD τ) arg3 fullShare xq ∗ owns (c : Thread nD τ) arg4 fullShare xk ∗ owns (c : Thread nD τ) arg5 fullShare xv
            ∗ owns (c : Thread nD τ) arg6 fullShare xl
            ∗ owns (c : Thread nD τ) arg7 fullShare (k2_pay3 (k2_pay2 i xq xk xl a xv))
            ∗ owns (c : Thread nD τ) arg8 fullShare (k2_pay2 i xq xk xl a xv)) -∗ K ⟨⟩))
      ⊢ wp frame (wpE (defs₀ (F := F)) Variants.none c none) E (cc2_kernel i arg3 harg3 arg4 harg4 arg5 harg5 arg6 harg6 arg7 harg7 arg8 harg8) K := by
  simp only [cc2_kernel_eq_skeleton]; unfold cc2_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h0 | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    sl_unfold_run_names
    rw [read_writes_cons_unit_zero2 _ _ hzB2]
    try simp only [View.readCov_cons_toLoadRect, View.readAt_eq_ld, harg3.read_unread, harg4.read_unread, harg5.read_unread,
      harg6.read_unread, harg7.read_unread, harg8.read_unread, View.ld_unit_zero (S := S1x512x1024) hzB2,
      View.ld_unit_zero (S := S1x1x512) hzB2, View.ld_unit_zero (S := S512x1024) hzA2]
  · iexists _; isplitr
    swap; · iexact H8
    ipureintro
    sl_unfold_run_names
    rw [read_writes_cons_unit_zero2 _ _ hzA2]
    try simp only [View.readCov_cons_toLoadRect, View.readAt_eq_ld, harg3.read_unread, harg4.read_unread, harg5.read_unread,
      harg6.read_unread, harg7.read_unread, harg8.read_unread, View.ld_unit_zero (S := S1x512x1024) hzB2,
      View.ld_unit_zero (S := S1x1x512) hzB2, View.ld_unit_zero (S := S512x1024) hzA2]

theorem run2_FTF (c : Dev nD) (i : grid2.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1x512 .f32) (harg6 : arg6.IsWhole)
    (arg7 : Memref sig .tc .vmem S1x512x1024 .f32) (harg7 : arg7.IsWhole) (arg8 : Memref sig .tc .vmem S512x1024 .f32) (harg8 : arg8.IsWhole)
    (h0 : ¬cond2_0 i) (h1 : cond2_1 i) (h2 : ¬cond2_2 i)
    (xq xk xv : Vec F S1x512x1024 .bf16) (xl : Vec F S1x1x512 .f32) (xo : Vec F S1x512x1024 .f32) (a : Vec F S512x1024 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xl ∗ owns (c : Thread nD τ) arg7 fullShare xo ∗ owns (c : Thread nD τ) arg8 fullShare a
        ∗ (iprop(owns (c : Thread nD τ) arg3 fullShare xq ∗ owns (c : Thread nD τ) arg4 fullShare xk ∗ owns (c : Thread nD τ) arg5 fullShare xv
            ∗ owns (c : Thread nD τ) arg6 fullShare xl
            ∗ owns (c : Thread nD τ) arg7 fullShare (xo)
            ∗ owns (c : Thread nD τ) arg8 fullShare (k2_pay2 i xq xk xl a xv)) -∗ K ⟨⟩))
      ⊢ wp frame (wpE (defs₀ (F := F)) Variants.none c none) E (cc2_kernel i arg3 harg3 arg4 harg4 arg5 harg5 arg6 harg6 arg7 harg7 arg8 harg8) K := by
  simp only [cc2_kernel_eq_skeleton]; unfold cc2_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h0 | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr; · ipureintro; exact harg7.read_unread _
    iexact H7
  · iexists _; isplitr
    swap; · iexact H8
    ipureintro
    sl_unfold_run_names
    rw [read_writes_cons_unit_zero2 _ _ hzA2]
    try simp only [View.readCov_cons_toLoadRect, View.readAt_eq_ld, harg3.read_unread, harg4.read_unread, harg5.read_unread,
      harg6.read_unread, harg7.read_unread, harg8.read_unread, View.ld_unit_zero (S := S1x512x1024) hzB2,
      View.ld_unit_zero (S := S1x1x512) hzB2, View.ld_unit_zero (S := S512x1024) hzA2]

theorem run2_FFT (c : Dev nD) (i : grid2.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1x512 .f32) (harg6 : arg6.IsWhole)
    (arg7 : Memref sig .tc .vmem S1x512x1024 .f32) (harg7 : arg7.IsWhole) (arg8 : Memref sig .tc .vmem S512x1024 .f32) (harg8 : arg8.IsWhole)
    (h0 : ¬cond2_0 i) (h1 : ¬cond2_1 i) (h2 : cond2_2 i)
    (xq xk xv : Vec F S1x512x1024 .bf16) (xl : Vec F S1x1x512 .f32) (xo : Vec F S1x512x1024 .f32) (a : Vec F S512x1024 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xl ∗ owns (c : Thread nD τ) arg7 fullShare xo ∗ owns (c : Thread nD τ) arg8 fullShare a
        ∗ (iprop(owns (c : Thread nD τ) arg3 fullShare xq ∗ owns (c : Thread nD τ) arg4 fullShare xk ∗ owns (c : Thread nD τ) arg5 fullShare xv
            ∗ owns (c : Thread nD τ) arg6 fullShare xl
            ∗ owns (c : Thread nD τ) arg7 fullShare (k2_pay3 (a))
            ∗ owns (c : Thread nD τ) arg8 fullShare (a)) -∗ K ⟨⟩))
      ⊢ wp frame (wpE (defs₀ (F := F)) Variants.none c none) E (cc2_kernel i arg3 harg3 arg4 harg4 arg5 harg5 arg6 harg6 arg7 harg7 arg8 harg8) K := by
  simp only [cc2_kernel_eq_skeleton]; unfold cc2_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h0 | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    sl_unfold_run_names
    rw [read_writes_cons_unit_zero2 _ _ hzB2]
    try simp only [View.readCov_cons_toLoadRect, View.readAt_eq_ld, harg3.read_unread, harg4.read_unread, harg5.read_unread,
      harg6.read_unread, harg7.read_unread, harg8.read_unread, View.ld_unit_zero (S := S1x512x1024) hzB2,
      View.ld_unit_zero (S := S1x1x512) hzB2, View.ld_unit_zero (S := S512x1024) hzA2]
  · iexists _; isplitr; · ipureintro; exact harg8.read_unread _
    iexact H8

theorem run2_FFF (c : Dev nD) (i : grid2.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1x512 .f32) (harg6 : arg6.IsWhole)
    (arg7 : Memref sig .tc .vmem S1x512x1024 .f32) (harg7 : arg7.IsWhole) (arg8 : Memref sig .tc .vmem S512x1024 .f32) (harg8 : arg8.IsWhole)
    (h0 : ¬cond2_0 i) (h1 : ¬cond2_1 i) (h2 : ¬cond2_2 i)
    (xq xk xv : Vec F S1x512x1024 .bf16) (xl : Vec F S1x1x512 .f32) (xo : Vec F S1x512x1024 .f32) (a : Vec F S512x1024 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xl ∗ owns (c : Thread nD τ) arg7 fullShare xo ∗ owns (c : Thread nD τ) arg8 fullShare a
        ∗ (iprop(owns (c : Thread nD τ) arg3 fullShare xq ∗ owns (c : Thread nD τ) arg4 fullShare xk ∗ owns (c : Thread nD τ) arg5 fullShare xv
            ∗ owns (c : Thread nD τ) arg6 fullShare xl
            ∗ owns (c : Thread nD τ) arg7 fullShare (xo)
            ∗ owns (c : Thread nD τ) arg8 fullShare (a)) -∗ K ⟨⟩))
      ⊢ wp frame (wpE (defs₀ (F := F)) Variants.none c none) E (cc2_kernel i arg3 harg3 arg4 harg4 arg5 harg5 arg6 harg6 arg7 harg7 arg8 harg8) K := by
  simp only [cc2_kernel_eq_skeleton]; unfold cc2_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h0 | exact h1 | exact h2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr; · ipureintro; exact harg7.read_unread _
    iexact H7
  · iexists _; isplitr; · ipureintro; exact harg8.read_unread _
    iexact H8

/-- The kernel on whole buffers at any coordinate: the inputs are left as found, the accumulator holds one step from what
    it held, and the output block holds the accumulator's cast where the key block is the last, else what it held. -/
theorem kernel_run2 (c : Dev nD) (i : grid2.Coords)
    (arg3 : Memref sig .tc .vmem S1x512x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1x512 .f32) (harg6 : arg6.IsWhole)
    (arg7 : Memref sig .tc .vmem S1x512x1024 .f32) (harg7 : arg7.IsWhole) (arg8 : Memref sig .tc .vmem S512x1024 .f32) (harg8 : arg8.IsWhole)
    (xq xk xv : Vec F S1x512x1024 .bf16) (xl : Vec F S1x1x512 .f32) (xo : Vec F S1x512x1024 .f32) (a : Vec F S512x1024 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xl ∗ owns (c : Thread nD τ) arg7 fullShare xo ∗ owns (c : Thread nD τ) arg8 fullShare a
        ∗ (iprop(owns (c : Thread nD τ) arg3 fullShare xq ∗ owns (c : Thread nD τ) arg4 fullShare xk ∗ owns (c : Thread nD τ) arg5 fullShare xv
            ∗ owns (c : Thread nD τ) arg6 fullShare xl
            ∗ owns (c : Thread nD τ) arg7 fullShare (if cond2_2 i then k2_pay3 (accStep2 i xq xk xv xl a) else xo)
            ∗ owns (c : Thread nD τ) arg8 fullShare (accStep2 i xq xk xv xl a)) -∗ K ⟨⟩))
      ⊢ wp frame (wpE (defs₀ (F := F)) Variants.none c none) E (cc2_kernel i arg3 harg3 arg4 harg4 arg5 harg5 arg6 harg6 arg7 harg7 arg8 harg8) K := by
  by_cases h0 : cond2_0 i <;> by_cases h1 : cond2_1 i <;> by_cases h2 : cond2_2 i
  · simp only [accStep2, if_pos h0, if_pos h1, if_pos h2]
    exact run2_TTT c i arg3 harg3 arg4 harg4 arg5 harg5 arg6 harg6 arg7 harg7 arg8 harg8 h0 h1 h2 xq xk xv xl xo a E K
  · simp only [accStep2, if_pos h0, if_pos h1, if_neg h2]
    exact run2_TTF c i arg3 harg3 arg4 harg4 arg5 harg5 arg6 harg6 arg7 harg7 arg8 harg8 h0 h1 h2 xq xk xv xl xo a E K
  · simp only [accStep2, if_pos h0, if_neg h1, if_pos h2]
    exact run2_TFT c i arg3 harg3 arg4 harg4 arg5 harg5 arg6 harg6 arg7 harg7 arg8 harg8 h0 h1 h2 xq xk xv xl xo a E K
  · simp only [accStep2, if_pos h0, if_neg h1, if_neg h2]
    exact run2_TFF c i arg3 harg3 arg4 harg4 arg5 harg5 arg6 harg6 arg7 harg7 arg8 harg8 h0 h1 h2 xq xk xv xl xo a E K
  · simp only [accStep2, if_neg h0, if_pos h1, if_pos h2]
    exact run2_FTT c i arg3 harg3 arg4 harg4 arg5 harg5 arg6 harg6 arg7 harg7 arg8 harg8 h0 h1 h2 xq xk xv xl xo a E K
  · simp only [accStep2, if_neg h0, if_pos h1, if_neg h2]
    exact run2_FTF c i arg3 harg3 arg4 harg4 arg5 harg5 arg6 harg6 arg7 harg7 arg8 harg8 h0 h1 h2 xq xk xv xl xo a E K
  · simp only [accStep2, if_neg h0, if_neg h1, if_pos h2]
    exact run2_FFT c i arg3 harg3 arg4 harg4 arg5 harg5 arg6 harg6 arg7 harg7 arg8 harg8 h0 h1 h2 xq xk xv xl xo a E K
  · simp only [accStep2, if_neg h0, if_neg h1, if_neg h2]
    exact run2_FFF c i arg3 harg3 arg4 harg4 arg5 harg5 arg6 harg6 arg7 harg7 arg8 harg8 h0 h1 h2 xq xk xv xl xo a E K

/-! ## The grid's facts -/

/-- At the first point the key block is the first. -/
theorem cond2_0_first : ∀ t : Fin cfg2.N, t.val = 0 → cond2_0 (grid2.coords t) :=
  (by decide +kernel : ∀ t : Fin grid2.N, t.val = 0 → cond2_0 (grid2.coords t))
/-- Where the key block is the last the output block is live; -/
theorem liveAt2_4 : ∀ t : Fin cfg2.N, cond2_2 (grid2.coords t) → cfg2.idle 4 (grid2.coords t) = false := by decide +kernel
/-- elsewhere it is idle -/
theorem idleAt2_4 : ∀ t : Fin cfg2.N, ¬cond2_2 (grid2.coords t) → cfg2.idle 4 (grid2.coords t) = true := by decide +kernel
/-- and not written back. -/
theorem noFlush2_4 : ∀ t : Fin cfg2.N, ¬cond2_2 (grid2.coords t) → (cfg2.win 4).flush t = false := by decide +kernel

/-! ## The inputs' blocks -/

/-- Each input's current buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The accumulator point by point, and the invariant -/

theorem accAt2_first (c : Dev nD) (t : Fin cfg2.N) (hz : t.val = 0) :
    accAt2 V c t.val t.isLt
      = accStep2 (grid2.coords t) (iblk2 V c 0 t) (iblk2 V c 1 t) (iblk2 V c 2 t) (iblk2 V c 3 t) k2_pay1 := by
  obtain ⟨n, hn⟩ := t
  cases n with
  | zero => rfl
  | succ n => exact absurd hz (Nat.succ_ne_zero _)

theorem accAt2_pos (c : Dev nD) (t : Fin cfg2.N) (hz : t.val ≠ 0) :
    accAt2 V c t.val t.isLt
      = accStep2 (grid2.coords t) (iblk2 V c 0 t) (iblk2 V c 1 t) (iblk2 V c 2 t) (iblk2 V c 3 t)
          (accAt2 V c (t.val - 1) (Nat.lt_of_le_of_lt (Nat.sub_le _ _) t.isLt)) := by
  obtain ⟨n, hn⟩ := t
  cases n with
  | zero => exact absurd rfl hz
  | succ n => rfl

/-- Where the key block is the first, a step does not depend on what the accumulator held. -/
theorem accStep2_reset (i : grid2.Coords) (h : cond2_0 i) (xq xk xv : Vec F S1x512x1024 .bf16) (xl : Vec F S1x1x512 .f32)
    (a a' : Vec F S512x1024 .f32) : accStep2 i xq xk xv xl a = accStep2 i xq xk xv xl a' := by
  simp only [accStep2, if_pos h]

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare (accAt2 V c n hn)
      ∗ Pipeline.scopedRestBut (Ix := Unit) (Name := ℕ) (U := UR sig nD τ) (Lvl := ℕ) (Val := Elt F) spec2 c [cc2_scratch0]
      ∗ (∃ r, prngReg c r)) := rfl

theorem PhiS2_pos (c : Dev nD) (n : ℕ) (h : n ≤ cfg2.N) (hz : n ≠ 0) :
    PhiS2 V c n h = iprop(owns (c : Thread nD τ) scM2_0 fullShare (accAt2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-- The class's invariant with the accumulator apart: owned at some contents, beside every other scoped buffer at anything
    and the generator register at some state. -/
theorem PhiA2_eq (c : Dev nD) :
    (Pipeline.ΦA spec2 c : sProp 𝕄)
      = iprop((iprop(∃ d, owns (c : Thread nD τ) scM2_0 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA
  rw [Pipeline.scopedRest_split_of_list spec2 c [cc2_scratch0] (by decide) (by decide)]
  simp only [scM2_0, owns_whole, bigSepL_singleton]
  try rfl

/-! ## The body at a generic point -/

/-- Each window's current buffer at a point, and its wholeness. -/
abbrev ms2_0 (t : Fin cfg2.N) : Memref sig .tc .vmem S1x512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x512x1024 .f32 := win2_4.stage (cfg2.slots t 4)
abbrev hs2_4 (t : Fin cfg2.N) : (ms2_4 t).IsWhole := hstage2_4 ((cfg2.slots t 4).cast nbuf2_4)

/-- What the body is given at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

/-- An input's buffer is left at its block. -/
theorem leaves2_0 (c : Dev nD) (t : Fin cfg2.N) :
    (dat2 V c).leavesExact 0 t = owns (c : Thread nD τ) (ms2_0 t) fullShare (iblk2 V c 0 t) := by
  unfold Dat.leavesExact; rw [after2_0]
theorem leaves2_1 (c : Dev nD) (t : Fin cfg2.N) :
    (dat2 V c).leavesExact 1 t = owns (c : Thread nD τ) (ms2_1 t) fullShare (iblk2 V c 1 t) := by
  unfold Dat.leavesExact; rw [after2_1]
theorem leaves2_2 (c : Dev nD) (t : Fin cfg2.N) :
    (dat2 V c).leavesExact 2 t = owns (c : Thread nD τ) (ms2_2 t) fullShare (iblk2 V c 2 t) := by
  unfold Dat.leavesExact; rw [after2_2]
theorem leaves2_3 (c : Dev nD) (t : Fin cfg2.N) :
    (dat2 V c).leavesExact 3 t = owns (c : Thread nD τ) (ms2_3 t) fullShare (iblk2 V c 3 t) := by
  unfold Dat.leavesExact; rw [after2_3]
/-- Where the key block is the last, the output's buffer is left at the accumulator's cast. -/
theorem leaves2_4_live (c : Dev nD) (t : Fin cfg2.N) (h2 : cond2_2 (grid2.coords t)) :
    (dat2 V c).leavesExact 4 t = owns (c : Thread nD τ) (ms2_4 t) fullShare (k2_pay3 (accAt2 V c t.val t.isLt)) := by
  unfold Dat.leavesExact; rw [liveAt2_4 t h2, after2_4]; rfl

/-- The body at any point. The inputs' buffers hold their blocks; the invariant hands the accumulator at what the point
    before left (at anything at the first point, where the key block is the first and the step does not read it); the
    kernel leaves the accumulator one step on, and the output block at the accumulator's cast where the key block is the
    last, untouched elsewhere. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3]
  by_cases h2 : cond2_2 (grid2.coords t)
  · rw [leaves2_4_live V c t h2]
    by_cases hz : t.val = 0
    · rw [PhiS2_castSucc V c t, PhiS2_zero V c _ _ hz, PhiA2_eq, accAt2_first V c t hz]
      iintro ⟨⟨⟨⟨%a, HS⟩, HR⟩, Hg⟩, Ho, ⟨%d0, H0⟩, ⟨%d1, H1⟩, ⟨%d2, H2⟩, ⟨%d3, H3⟩, ⟨%d4, H4⟩⟩
      rw [accStep2_reset (grid2.coords t) (cond2_0_first t hz) (iblk2 V c 0 t) (iblk2 V c 1 t) (iblk2 V c 2 t) (iblk2 V c 3 t) k2_pay1 a]
      iapply (kernel_run2 c (grid2.coords t) (ms2_0 t) (hs2_0 t) (ms2_1 t) (hs2_1 t) (ms2_2 t) (hs2_2 t) (ms2_3 t) (hs2_3 t) (ms2_4 t) (hs2_4 t)
        scM2_0 (Memref.isWhole_whole _) (iblk2 V c 0 t) (iblk2 V c 1 t) (iblk2 V c 2 t) (iblk2 V c 3 t) ((dat2 V c).before 4 t d4) a Set.univ _)
      isplitl [H0]; · iexact H0
      isplitl [H1]; · iexact H1
      isplitl [H2]; · iexact H2
      isplitl [H3]; · iexact H3
      isplitl [H4]; · iexact H4
      isplitl [HS]; · iexact HS
      rw [if_pos h2]
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [PhiS2_castSucc V c t, PhiS2_pos V c _ _ hz, accAt2_pos V c t hz]
      iintro ⟨⟨HS, HR, Hg⟩, Ho, ⟨%d0, H0⟩, ⟨%d1, H1⟩, ⟨%d2, H2⟩, ⟨%d3, H3⟩, ⟨%d4, H4⟩⟩
      iapply (kernel_run2 c (grid2.coords t) (ms2_0 t) (hs2_0 t) (ms2_1 t) (hs2_1 t) (ms2_2 t) (hs2_2 t) (ms2_3 t) (hs2_3 t) (ms2_4 t) (hs2_4 t)
        scM2_0 (Memref.isWhole_whole _) (iblk2 V c 0 t) (iblk2 V c 1 t) (iblk2 V c 2 t) (iblk2 V c 3 t) ((dat2 V c).before 4 t d4)
        (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      rw [if_pos h2]
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
  · rw [Dat.leavesExact_idle (dat2 V c) 4 t (idleAt2_4 t h2) (noFlush2_4 t h2)]
    by_cases hz : t.val = 0
    · rw [PhiS2_castSucc V c t, PhiS2_zero V c _ _ hz, PhiA2_eq, accAt2_first V c t hz]
      iintro ⟨⟨⟨⟨%a, HS⟩, HR⟩, Hg⟩, Ho, ⟨%d0, H0⟩, ⟨%d1, H1⟩, ⟨%d2, H2⟩, ⟨%d3, H3⟩, ⟨%d4, H4⟩⟩
      rw [accStep2_reset (grid2.coords t) (cond2_0_first t hz) (iblk2 V c 0 t) (iblk2 V c 1 t) (iblk2 V c 2 t) (iblk2 V c 3 t) k2_pay1 a]
      iapply (kernel_run2 c (grid2.coords t) (ms2_0 t) (hs2_0 t) (ms2_1 t) (hs2_1 t) (ms2_2 t) (hs2_2 t) (ms2_3 t) (hs2_3 t) (ms2_4 t) (hs2_4 t)
        scM2_0 (Memref.isWhole_whole _) (iblk2 V c 0 t) (iblk2 V c 1 t) (iblk2 V c 2 t) (iblk2 V c 3 t) ((dat2 V c).before 4 t d4) a Set.univ _)
      isplitl [H0]; · iexact H0
      isplitl [H1]; · iexact H1
      isplitl [H2]; · iexact H2
      isplitl [H3]; · iexact H3
      isplitl [H4]; · iexact H4
      isplitl [HS]; · iexact HS
      rw [if_neg h2]
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists d4; iexact H4
    · rw [PhiS2_castSucc V c t, PhiS2_pos V c _ _ hz, accAt2_pos V c t hz]
      iintro ⟨⟨HS, HR, Hg⟩, Ho, ⟨%d0, H0⟩, ⟨%d1, H1⟩, ⟨%d2, H2⟩, ⟨%d3, H3⟩, ⟨%d4, H4⟩⟩
      iapply (kernel_run2 c (grid2.coords t) (ms2_0 t) (hs2_0 t) (ms2_1 t) (hs2_1 t) (ms2_2 t) (hs2_2 t) (ms2_3 t) (hs2_3 t) (ms2_4 t) (hs2_4 t)
        scM2_0 (Memref.isWhole_whole _) (iblk2 V c 0 t) (iblk2 V c 1 t) (iblk2 V c 2 t) (iblk2 V c 3 t) ((dat2 V c).before 4 t d4)
        (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      rw [if_neg h2]
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch contents are forgotten. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega), PhiA2_eq]
  iintro ⟨HS, HR, Hg⟩
  isplitl [HS HR]
  · isplitl [HS]
    · iexists _; iexact HS
    iexact HR
  iexact Hg

end Cert.KernelIdeal.Hand

end
-- ==== Proof.KI.Run.lean ====
/-
  The program's run: its five items as segments, the three kernel calls entered from and left at the boundary
  contents, and what every unscoped buffer holds at the end.
-/
import proofs.«416763_j40561671143865_3_alg».proof.Proof.KI.RunDefs
import proofs.«416763_j40561671143865_3_alg».proof.Proof.KI.R0
import proofs.«416763_j40561671143865_3_alg».proof.Proof.KI.R1
import proofs.«416763_j40561671143865_3_alg».proof.Proof.KI.R2
import proofs.«416763_j40561671143865_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## A call's exit contents: its arrays at what the call leaves, every other buffer as entered -/

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The arguments end as launched

No host operation writes an argument and no call has one as a window's array (the first call stages the casts and
the reshape, not the arguments themselves), so the fold at an argument's buffer walks back to the launch memory. -/

/-- A buffer that no host operation writes and that is no window's array of any call holds its launch contents at
    the end. -/
theorem W5_bypass (c : Dev nD) (b : Ref sig .tc) (h0 : b ∉ hostOps0_W) (h1 : b ∉ hostOps1_W)
    (a0 : ∀ w, Pipeline.arrRef spec0 w ≠ b) (a1 : ∀ w, Pipeline.arrRef spec1 w ≠ b) (a2 : ∀ w, Pipeline.arrRef spec2 w ≠ b) :
    W5 m ρ c (Proc.devRef .tc b) = m ((c : Thread nD τ).loc b) :=
  calc W5 m ρ c (Proc.devRef .tc b)
    _ = W4 m ρ c (Proc.devRef .tc b) := W5_of_ne m ρ c b a2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

theorem W5_main_arg0 (c : Dev nD) : W5 m ρ c (Proc.devRef .tc main_arg0) = m ((c : Thread nD τ).loc main_arg0) :=
  W5_bypass m ρ c main_arg0 (by decide) (by decide) (by decide) (by decide) (by decide)
theorem W5_main_arg1 (c : Dev nD) : W5 m ρ c (Proc.devRef .tc main_arg1) = m ((c : Thread nD τ).loc main_arg1) :=
  W5_bypass m ρ c main_arg1 (by decide) (by decide) (by decide) (by decide) (by decide)
theorem W5_main_arg2 (c : Dev nD) : W5 m ρ c (Proc.devRef .tc main_arg2) = m ((c : Thread nD τ).loc main_arg2) :=
  W5_bypass m ρ c main_arg2 (by decide) (by decide) (by decide) (by decide) (by decide)
theorem W5_main_arg3 (c : Dev nD) : W5 m ρ c (Proc.devRef .tc main_arg3) = m ((c : Thread nD τ).loc main_arg3) :=
  W5_bypass m ρ c main_arg3 (by decide) (by decide) (by decide) (by decide) (by decide)

/-! ## The thread state between two items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues,
    at nothing. -/
abbrev R (c : Dev nD) : sProp 𝕄 := iprop((∃ r, prngReg c r) ∗ ∃ W, owes (c : Thread nD τ) (0 : CellTallies nD τ sig Unit) W)
/-- A stretch of host operations as a segment over the unscoped buffers from the contents `W`, `R` riding along:
    it leaves them at the contents after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The kernel calls as segments -/

set_option backward.isDefEq.respectTransparency.types false in
/-- Kernel call 0 over the thread state: entered from every unscoped buffer at `W1`, left at `W2`. Its
    arrays are split out of the unscoped buffers and put back at the exit contents; the generator register goes into
    the invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 1 over the thread state: entered from every unscoped buffer at `W3`, left at `W4`. Its
    arrays are split out of the unscoped buffers and put back at the exit contents; the generator register goes into
    the invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine BIBase.Entails.trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 2 over the thread state: entered from every unscoped buffer at `W4`, left at `W5`. Its
    arrays are split out of the unscoped buffers and put back at the exit contents; the generator register goes into
    the invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V4 m ρ) c).Φ 0 from rfl]
    refine BIBase.Entails.trans ?_ (hin2 (V4 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V4 m ρ) c).Φ (Fin.last cfg2.N) from rfl]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's five segments in order: a host segment per stretch from its boundary's contents, a region per
    kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
/-- The program is the run of the segments. -/
theorem main_run (c : Dev nD) : main (F := F) c = Pipeline.Seg.run (segs m ρ) := (main_chain c).trans (by chain_rfl)

/-- Each call is entered once. -/
theorem segs_nodup : (Pipeline.Seg.pipes (segs m ρ)).Nodup := by
  simp only [segs, Pipeline.Seg.pipes_host, Pipeline.Seg.pipes_region, Pipeline.Seg.pipes_nil]; decide

set_option backward.isDefEq.respectTransparency.types false in
/-- Every weakly fair execution of the program terminates, nothing faulting, with the result buffer at the last
    boundary's contents and every argument as launched. -/
theorem run_main : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (segs_nodup m ρ)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Hand

end
-- ==== Proof.Spec.lean ====
/-
  The mathematics of the certificate, with no program in sight: the arrays the three kernel calls produce and the
  reference's result, as functions of the argument arrays index by index over the extended reals, and the law that
  joins them.

  Single-head causal attention whose softmax runs over the QUERY axis. With `Q = x·Wq`, `K = x·Wk`, `V = x·Wv` and
  `s b q k = ∑ e, Q (b,q,e) · K (b,k,e)`, key `k` is visible to query `q` when `k ≤ q`; for a fixed key the weights are
  normalised over the queries that see it:  `out (b,q,e) = ∑ k ≤ q, exp (s b q k) / (∑ q' ≥ k, exp (s b q' k)) · V (b,k,e)`.
  The kernel stores per key the logarithm of that denominator and forms `exp (s − log-sum-exp)`; the reference
  subtracts a column maximum before exponentiating and divides by the shifted sum. For real scores the two agree:
  `exp (s − log Σ exp s') = exp (s − M) / Σ exp (s' − M)` for every real shift `M`.
-/
import Idealize.ShloMosaic.PureOps.Ideal
import Idealize.ShloMosaic.PureOps.Ideal.Laws
import Idealize.ShloMosaic.Lib.ValueIdx

noncomputable section

namespace Cert.Proof.Spec

open Idealize.ShloMosaic Idealize.ShloMosaic.ValueIdx

/-- Arrays over the extended reals, by literal shape. -/
abbrev A3 : Type := (⟨3, ![8, 2048, 1024]⟩ : Shape).Idx → EReal
abbrev A2w : Type := (⟨2, ![1024, 1024]⟩ : Shape).Idx → EReal
abbrev A2x : Type := (⟨2, ![16384, 1024]⟩ : Shape).Idx → EReal
abbrev A3l : Type := (⟨3, ![8, 1, 2048]⟩ : Shape).Idx → EReal

/-- Every entry is a real number. -/
def IsReal {ι : Type} (a : ι → EReal) : Prop := ∀ i, ∃ r : ℝ, a i = (r : EReal)

/-- A projection of the row-major `x` (row `2048 b + s`): row times weight matrix. -/
def proj (x : A2x) (w : A2w) : A2x := fun j => ∑ d : Fin 1024, x (ix2 (j 0) d) * w (ix2 d (j 1))

/-- The same projection on the three-axis `x`. -/
def qkv (x : A3) (w : A2w) : A3 := fun j => ∑ d : Fin 1024, x (ix3 (j 0) (j 1) d) * w (ix2 d (j 2))

/-- The score of row `r` of `A` against row `s` of `B`, in batch `b`. -/
def score (A B : A3) (b : Fin 8) (r s : Fin 2048) : EReal := ∑ e : Fin 1024, A (ix3 b r e) * B (ix3 b s e)

/-- Per key, the logarithm of the sum over the queries that see it of the exponentials of the scores (real scores). -/
def lseSpec (K Q : A3) : A3l := fun j =>
  ((Real.log (∑ q : Fin 2048, if (j 2) ≤ q then Real.exp (score K Q (j 0) (j 2) q).toReal else 0) : ℝ) : EReal)

/-- The output call's result from its four operands: over the visible keys, `exp (score − L)` times the value row. -/
def outSpec (Q K V : A3) (L : A3l) : A3 := fun j =>
  ∑ k : Fin 2048, Ideal.exp (if k ≤ (j 1) then score Q K (j 0) (j 1) k - L (ix3 (j 0) 0 k) else ⊥) * V (ix3 (j 0) k (j 2))

/-- The reference's masked score: `⊥` where the key is after the query. -/
def msk (Q K : A3) (b : Fin 8) (q k : Fin 2048) : EReal := if q < k then ⊥ else score Q K b q k

/-- The reference's result, over ANY column shift `M`: shifted exponentials divided by their sum over the queries. -/
def refSpec (M : Fin 8 → Fin 2048 → EReal) (Q K V : A3) : A3 := fun j =>
  ∑ k : Fin 2048,
    Ideal.div (Ideal.exp (msk Q K (j 0) (j 1) k - M (j 0) k)) (0 + ∑ q' : Fin 2048, Ideal.exp (msk Q K (j 0) q' k - M (j 0) k))
      * V (ix3 (j 0) k (j 2))

/-! ## Reals inside the extended reals, and the per-key identity over an arbitrary row count -/

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of products of reals is a real. -/
theorem sum_mul_coe {ι : Type} (s : Finset ι) (f g : ι → EReal) (a b : ι → ℝ)
    (hf : ∀ i, f i = (a i : EReal)) (hg : ∀ i, g i = (b i : EReal)) :
    ∑ i ∈ s, f i * g i = ((∑ i ∈ s, a i * b i : ℝ) : EReal) := by
  rw [coe_sum]
  refine Finset.sum_congr rfl (fun i _ => ?_)
  rw [hf, hg, EReal.coe_mul]

/-- The sum over the rows at or after `k` of the exponentials is positive: row `k` itself contributes. -/
theorem tail_pos {n : ℕ} (s : Fin n → ℝ) (k : Fin n) :
    0 < ∑ q' : Fin n, (if k ≤ q' then Real.exp (s q') else 0) := by
  have h0 : ∀ q' ∈ (Finset.univ : Finset (Fin n)), 0 ≤ (if k ≤ q' then Real.exp (s q') else 0) := by
    intro q' _
    split_ifs
    · exact (Real.exp_pos _).le
    · exact le_refl _
  have h1 := Finset.single_le_sum h0 (Finset.mem_univ k)
  rw [if_pos (le_refl k)] at h1
  exact lt_of_lt_of_le (Real.exp_pos _) h1

/-- Shifting every exponent by `m` divides the tail sum by `exp m`. -/
theorem tail_shift {n : ℕ} (s : Fin n → ℝ) (m : ℝ) (k : Fin n) :
    ∑ q' : Fin n, (if q' < k then 0 else Real.exp (s q' - m))
      = (∑ q' : Fin n, (if k ≤ q' then Real.exp (s q') else 0)) / Real.exp m := by
  rw [Finset.sum_div]
  refine Finset.sum_congr rfl (fun q' _ => ?_)
  by_cases h : q' < k
  · rw [if_pos h, if_neg (not_le.mpr h), zero_div]
  · rw [if_neg h, if_pos (not_lt.mp h), Real.exp_sub]

/-- The real heart: `exp (s − log Σ exp s') = exp (s − m) / Σ exp (s' − m)` for every real shift `m`. -/
theorem core {n : ℕ} (s : Fin n → ℝ) (m : ℝ) (k q : Fin n) :
    Real.exp (s q - Real.log (∑ q' : Fin n, (if k ≤ q' then Real.exp (s q') else 0)))
      = Real.exp (s q - m) * (1 / ∑ q' : Fin n, (if q' < k then 0 else Real.exp (s q' - m))) := by
  have hS := tail_pos s k
  rw [tail_shift, Real.exp_sub, Real.exp_log hS, Real.exp_sub]
  have hm : Real.exp m ≠ 0 := (Real.exp_pos m).ne'
  field_simp

/-- Each shifted, masked exponential is the coercion of a real. -/
theorem exp_msk_coe {n : ℕ} (s : Fin n → ℝ) (m : ℝ) (k q' : Fin n) :
    Ideal.exp ((if q' < k then (⊥ : EReal) else ((s q' : ℝ) : EReal)) - ((m : ℝ) : EReal))
      = (((if q' < k then 0 else Real.exp (s q' - m)) : ℝ) : EReal) := by
  by_cases h : q' < k
  · rw [if_pos h, if_pos h, EReal.bot_sub, Ideal.exp_bot, EReal.coe_zero]
  · rw [if_neg h, if_neg h, ← EReal.coe_sub, Ideal.exp_coe]

/-- The reference's denominator is the coercion of the real shifted tail sum. -/
theorem den_coe {n : ℕ} (s : Fin n → ℝ) (m : ℝ) (k : Fin n) :
    (0 : EReal) + ∑ q' : Fin n, Ideal.exp ((if q' < k then (⊥ : EReal) else ((s q' : ℝ) : EReal)) - ((m : ℝ) : EReal))
      = ((∑ q' : Fin n, (if q' < k then 0 else Real.exp (s q' - m)) : ℝ) : EReal) := by
  rw [zero_add, coe_sum]
  exact Finset.sum_congr rfl (fun q' _ => exp_msk_coe s m k q')

/-- The shifted tail sum is not zero. -/
theorem den_ne_zero {n : ℕ} (s : Fin n → ℝ) (m : ℝ) (k : Fin n) :
    (∑ q' : Fin n, (if q' < k then 0 else Real.exp (s q' - m))) ≠ 0 := by
  rw [tail_shift]
  exact (div_pos (tail_pos s k) (Real.exp_pos m)).ne'

/-- Per key: the kernel's weight `exp (s − log-sum-exp)` is the reference's shifted quotient, and both vanish on a
    key the query does not see. -/
theorem term_eq {n : ℕ} (s : Fin n → ℝ) (m : ℝ) (k q : Fin n) :
    Ideal.exp (if k ≤ q then ((s q : ℝ) : EReal)
        - ((Real.log (∑ q' : Fin n, if k ≤ q' then Real.exp (((s q' : ℝ) : EReal)).toReal else 0) : ℝ) : EReal)
        else ⊥)
      = Ideal.div (Ideal.exp ((if q < k then (⊥ : EReal) else ((s q : ℝ) : EReal)) - ((m : ℝ) : EReal)))
          (0 + ∑ q' : Fin n, Ideal.exp ((if q' < k then (⊥ : EReal) else ((s q' : ℝ) : EReal)) - ((m : ℝ) : EReal))) := by
  rw [den_coe, Ideal.div_coe (den_ne_zero s m k), exp_msk_coe]
  by_cases h : k ≤ q
  · rw [if_pos h, if_neg (not_lt.mpr h)]
    simp only [EReal.toReal_coe]
    rw [← EReal.coe_sub, Ideal.exp_coe, ← EReal.coe_mul, core s m k q]
  · rw [if_neg h, if_pos (not_le.mp h), Ideal.exp_bot, EReal.coe_zero, zero_mul]

/-- A score of real arrays is the coercion of the real sum of products. -/
theorem score_coe (A B : A3) (a c : (⟨3, ![8, 2048, 1024]⟩ : Shape).Idx → ℝ)
    (hA : ∀ i, A i = (a i : EReal)) (hB : ∀ i, B i = (c i : EReal)) (b : Fin 8) (r s : Fin 2048) :
    score A B b r s = ((∑ e : Fin 1024, a (ix3 b r e) * c (ix3 b s e) : ℝ) : EReal) :=
  sum_mul_coe Finset.univ (fun e => A (ix3 b r e)) (fun e => B (ix3 b s e)) (fun e => a (ix3 b r e))
    (fun e => c (ix3 b s e)) (fun e => hA _) (fun e => hB _)

/-- The score is symmetric in its two arrays, rows exchanged. -/
theorem score_comm (A B : A3) (b : Fin 8) (r s : Fin 2048) : score A B b r s = score B A b s r :=
  Finset.sum_congr rfl (fun e _ => mul_comm _ _)

/-- A projection of real arrays is real. -/
theorem qkv_real (x : A3) (w : A2w) (hx : IsReal x) (hw : IsReal w) : IsReal (qkv x w) := by
  choose a ha using hx
  choose c hc using hw
  intro j
  exact ⟨∑ d : Fin 1024, a (ix3 (j 0) (j 1) d) * c (ix2 d (j 2)),
    sum_mul_coe Finset.univ (fun d => x (ix3 (j 0) (j 1) d)) (fun d => w (ix2 d (j 2)))
      (fun d => a (ix3 (j 0) (j 1) d)) (fun d => c (ix2 d (j 2))) (fun d => ha _) (fun d => hc _)⟩

/-- The stored logarithm read at batch `b`, key `k`. -/
theorem lseSpec_apply (K Q : A3) (b : Fin 8) (k : Fin 2048) :
    lseSpec K Q (ix3 b 0 k)
      = ((Real.log (∑ q : Fin 2048, if k ≤ q then Real.exp (score K Q b k q).toReal else 0) : ℝ) : EReal) := rfl

/-- The output at batch `b`, query `q`, feature `e`. -/
theorem outSpec_apply (Q K V : A3) (L : A3l) (b : Fin 8) (q : Fin 2048) (e : Fin 1024) :
    outSpec Q K V L (ix3 b q e)
      = ∑ k : Fin 2048, Ideal.exp (if k ≤ q then score Q K b q k - L (ix3 b 0 k) else ⊥) * V (ix3 b k e) := rfl

/-- The reference at batch `b`, query `q`, feature `e`. -/
theorem refSpec_apply (M : Fin 8 → Fin 2048 → EReal) (Q K V : A3) (b : Fin 8) (q : Fin 2048) (e : Fin 1024) :
    refSpec M Q K V (ix3 b q e)
      = ∑ k : Fin 2048,
          Ideal.div (Ideal.exp (msk Q K b q k - M b k)) (0 + ∑ q' : Fin 2048, Ideal.exp (msk Q K b q' k - M b k))
            * V (ix3 b k e) := rfl

/-- The law at one point: the two sums over the keys agree term by term. -/
theorem attn_eq_at (M : Fin 8 → Fin 2048 → EReal) (mr : Fin 8 → Fin 2048 → ℝ) (hm : ∀ b k, M b k = (mr b k : EReal))
    (Q K V : A3) (qr kr : (⟨3, ![8, 2048, 1024]⟩ : Shape).Idx → ℝ)
    (hq : ∀ i, Q i = (qr i : EReal)) (hk : ∀ i, K i = (kr i : EReal))
    (b : Fin 8) (q : Fin 2048) (e : Fin 1024) :
    outSpec Q K V (lseSpec K Q) (ix3 b q e) = refSpec M Q K V (ix3 b q e) := by
  have hs1 : ∀ b q k, score Q K b q k = ((∑ e : Fin 1024, qr (ix3 b q e) * kr (ix3 b k e) : ℝ) : EReal) :=
    fun b q k => score_coe Q K qr kr hq hk b q k
  have hs2 : ∀ b k q, score K Q b k q = ((∑ e : Fin 1024, qr (ix3 b q e) * kr (ix3 b k e) : ℝ) : EReal) :=
    fun b k q => (score_comm K Q b k q).trans (hs1 b q k)
  rw [outSpec_apply, refSpec_apply]
  refine Finset.sum_congr rfl (fun k _ => ?_)
  refine congrArg (· * V (ix3 b k e)) ?_
  rw [lseSpec_apply]
  simp only [msk, hs1, hs2, hm]
  exact term_eq (fun q' => ∑ e : Fin 1024, qr (ix3 b q' e) * kr (ix3 b k e)) (mr b k) k q

/-- THE LAW: for real `Q`, `K`, `V` and any real column shift, the kernel's arrangement is the reference's. -/
theorem attn_eq (M : Fin 8 → Fin 2048 → EReal) (hM : ∀ b k, ∃ r : ℝ, M b k = (r : EReal)) (Q K V : A3)
    (hQ : IsReal Q) (hK : IsReal K) (hV : IsReal V) :
    outSpec Q K V (lseSpec K Q) = refSpec M Q K V := by
  choose qr hq using hQ
  choose kr hk using hK
  choose mr hm using hM
  funext j
  rw [eq_ix3 j]
  exact attn_eq_at M mr hm Q K V qr kr hq hk (j 0) (j 1) (j 2)

end Cert.Proof.Spec

end
-- ==== Proof.Ref.lean ====
/-
  The reference's result, read index by index off its run: with `Q = x·Wq`, `K = x·Wk`, `V = x·Wv`, the scores
  masked to `⊥` where the key is after the query, the column maximum over the queries subtracted, exponentials
  divided by their column sum, and the weights contracted with `V` over the keys. For real arguments the column
  maximum is a real number: every key is seen by at least one query.
-/
import proofs.«416763_j40561671143865_3_alg».proof.Proof.Gen.ReferenceIdeal.Read
import proofs.«416763_j40561671143865_3_alg».proof.Proof.Spec
import Idealize.ShloMosaic.Lib.ValueIdx
import Idealize.ShloMosaic.Lib.StableHlo.Predicate
import Idealize.ShloMosaic.PureOps.Ideal.Laws
import Mathlib.Data.Finset.Fold

noncomputable section

namespace Cert.Proof.RefValue

open Cert.ReferenceIdeal Idealize.ShloMosaic Idealize.ShloMosaic.TcCoe Idealize.SL.Sem
open Cert.Proof

section Stages

open Cert.ReferenceIdeal.Gen Idealize.ShloMosaic.StableHlo Idealize.ShloMosaic.ValueIdx

/-- A natural below 2048 is the value of its 32-bit word. -/
theorem toNat_ofNat_small (n : ℕ) (h : n < 2048) : (BitVec.ofNat 32 n).toNat = n := by
  rw [BitVec.toNat_ofNat]; exact Nat.mod_eq_of_lt (by omega)

/-- The strict upper triangle as a bit: set exactly where the row is before the column. -/
theorem tri_bit (q k : ℕ) (hq : q < 2048) (hk : k < 2048) :
    Scalar.select (IntOp.cmpi .sge (IntOp.addi (BitVec.ofNat 32 q) 0#32) (BitVec.ofNat 32 k)) (0#1) (1#1)
      = if q < k then 1#1 else 0#1 := by
  have ha : IntOp.addi (BitVec.ofNat 32 q) 0#32 = BitVec.ofNat 32 q := BitVec.add_zero _
  rw [ha]
  have hqa := toNat_ofNat_small q hq
  have hkb := toNat_ofNat_small k hk
  have hiff := Predicate.sge_iff_toNat (a := BitVec.ofNat 32 q) (b := BitVec.ofNat 32 k) (by omega) (by omega)
  rw [hqa, hkb] at hiff
  unfold Scalar.select
  by_cases h : q < k
  · rw [if_pos h]; exact if_neg (fun hc => by have := hiff.mp hc; omega)
  · rw [if_neg h]; exact if_pos (hiff.mpr (by omega))

/-- The pattern of minus infinity denotes the bottom of the extended reals. -/
theorem ofBits_ninf : Ideal.ofBits .f32 0xFF800000#32 = ⊥ := by simp [Ideal.ofBits, Ideal.ieee]

/-- The mask at (b, q, k): set exactly where the key is after the query. -/
theorem mask_apply {F : FTy → Type} [FloatOps F] (i : S8x2048x2048.Idx) :
    Read.val_main_call1_v1 (F := F) i = if (i 1).val < (i 2).val then 1#1 else 0#1 := by
  rw [Read.val_main_call1_v1_apply, Read.val_main_v6_apply, Read.val_main_v5_apply, Read.val_main_call0_v4_apply,
    Read.val_main_call0_v2_apply, Read.val_main_call0_v0_apply, Read.val_main_call0_v1_apply, Read.val_main_call0_c_apply,
    Read.val_main_call0_v3_apply, Read.val_main_call0_v5_apply, Read.val_main_call0_c_0_apply, Read.val_main_v4_apply,
    Read.val_main_c_apply]
  exact tri_bit (i 1).val (i 2).val (i 1).isLt (i 2).isLt

variable (x0 : (⟨S8x2048x1024, .f32⟩ : BufTy).Contents (Elt Ideal)) (x1 x2 x3 : (⟨S1024x1024, .f32⟩ : BufTy).Contents (Elt Ideal))

/-- A projection stage is `Spec.qkv`, index by index. -/
theorem v0_eq : Read.val_main_v0 (F := Ideal) x0 x1 = Spec.qkv x0 x1 := by
  funext i
  rw [Read.val_main_v0_apply]
  unfold Spec.qkv
  refine Finset.sum_congr rfl (fun d _ => ?_)
  have el : Read.lidx_main_v0 i d = ix3 (i 0) (i 1) d :=
    funext fun a => Fin.ext (by match a with | ⟨0, _⟩ => rfl | ⟨1, _⟩ => rfl | ⟨2, _⟩ => rfl)
  have er : Read.ridx_main_v0 i d = ix2 d (i 2) :=
    funext fun a => Fin.ext (by match a with | ⟨0, _⟩ => rfl | ⟨1, _⟩ => rfl)
  rw [el, er] <;> rfl

theorem v1_eq : Read.val_main_v1 (F := Ideal) x0 x2 = Spec.qkv x0 x2 := v0_eq x0 x2

theorem v2_eq : Read.val_main_v2 (F := Ideal) x0 x3 = Spec.qkv x0 x3 := v0_eq x0 x3

/-- The score stage at (b, q, k). -/
theorem v3_apply3 (b : Fin 8) (q k : Fin 2048) :
    Read.val_main_v3 (F := Ideal) x0 x1 x2 (ix3 b q k) = Spec.score (Spec.qkv x0 x1) (Spec.qkv x0 x2) b q k := by
  rw [Read.val_main_v3_apply, v0_eq, v1_eq]
  unfold Spec.score
  refine Finset.sum_congr rfl (fun e _ => ?_)
  have el : Read.lidx_main_v3 (ix3 b q k) e = ix3 b q e :=
    funext fun a => Fin.ext (by match a with | ⟨0, _⟩ => rfl | ⟨1, _⟩ => rfl | ⟨2, _⟩ => rfl)
  have er : Read.ridx_main_v3 (ix3 b q k) e = ix3 b k e :=
    funext fun a => Fin.ext (by match a with | ⟨0, _⟩ => rfl | ⟨1, _⟩ => rfl | ⟨2, _⟩ => rfl)
  rw [el, er] <;> rfl

/-- The masked score stage at (b, q, k). -/
theorem v7_apply3 (b : Fin 8) (q k : Fin 2048) :
    Read.val_main_v7 (F := Ideal) x0 x1 x2 (ix3 b q k) = Spec.msk (Spec.qkv x0 x1) (Spec.qkv x0 x2) b q k := by
  rw [Read.val_main_v7_apply, mask_apply, Read.val_main_call1_v2_apply, Read.val_main_call1_v0_apply,
    Read.val_main_cst_apply, v3_apply3]
  unfold Spec.msk
  show Scalar.select (if q.val < k.val then 1#1 else 0#1) (Ideal.ofBits .f32 0xFF800000#32) _ = _
  rw [ofBits_ninf]
  by_cases h : q < k
  · rw [if_pos h, if_pos (Fin.lt_def.mp h), select_one]
  · rw [if_neg h, if_neg (fun hc => h (Fin.lt_def.mpr hc)), select_zero]

/-- The column maximum of the masked scores: the fold of `max` from `⊥` over the queries. -/
def colMax (Q K : Spec.A3) (b : Fin 8) (k : Fin 2048) : EReal :=
  (Finset.univ : Finset (Fin 2048)).fold max ⊥ (fun q => Spec.msk Q K b q k)

/-- The max-reduce over the query axis at (b, k): the fold of `max` from the initial value `⊥` over the queries. -/
theorem v8_apply2 (b : Fin 8) (k : Fin 2048) :
    Read.val_main_v8 (F := Ideal) x0 x1 x2 (ix2 b k) = colMax (Spec.qkv x0 x1) (Spec.qkv x0 x2) b k := by
  unfold Read.val_main_v8
  rw [Host.reduce_eq_fold_single FloatOps.maximumf _ _ reducesTo_S8x2048x2048_S8x2048_d1 (by decide) h_S_]
  have hinit : Read.val_main_cst_0 (F := Ideal) (Shape.Idx.first h_S_) = ⊥ := by
    rw [Read.val_main_cst_0_apply, Ideal.ofBits_def, ofBits_ninf]
  rw [hinit]
  unfold colMax
  show (Finset.univ : Finset (Fin 2048)).fold max ⊥ _ = _
  refine Finset.fold_congr (fun q _ => ?_)
  show Read.val_main_v7 (F := Ideal) x0 x1 x2 _ = _
  rw [← v7_apply3]
  exact congrArg _ (funext fun a => Fin.ext (by match a with | ⟨0, _⟩ => rfl | ⟨1, _⟩ => rfl | ⟨2, _⟩ => rfl))

/-- The maximum with the `⊥` splat changes nothing. -/
theorem v10_apply2 (b : Fin 8) (k : Fin 2048) :
    Read.val_main_v10 (F := Ideal) x0 x1 x2 (ix2 b k) = colMax (Spec.qkv x0 x1) (Spec.qkv x0 x2) b k := by
  rw [Read.val_main_v10_apply, Read.val_main_v9_apply, Read.val_main_cst_1_apply, v8_apply2, Ideal.maximumf_def,
    Ideal.ofBits_def, ofBits_ninf]
  exact max_eq_right bot_le

/-- The column maximum broadcast back over the queries. -/
theorem v12_apply3 (b : Fin 8) (q k : Fin 2048) :
    Read.val_main_v12 (F := Ideal) x0 x1 x2 (ix3 b q k) = colMax (Spec.qkv x0 x1) (Spec.qkv x0 x2) b k := by
  rw [Read.val_main_v12_apply, Read.val_main_v11_apply, ← v10_apply2]
  exact congrArg _ (funext fun a => Fin.ext (by match a with | ⟨0, _⟩ => rfl | ⟨1, _⟩ => rfl))

/-- The shifted exponential at (b, q, k). -/
theorem v14_apply3 (b : Fin 8) (q k : Fin 2048) :
    Read.val_main_v14 (F := Ideal) x0 x1 x2 (ix3 b q k)
      = Ideal.exp (Spec.msk (Spec.qkv x0 x1) (Spec.qkv x0 x2) b q k - colMax (Spec.qkv x0 x1) (Spec.qkv x0 x2) b k) := by
  rw [Read.val_main_v14_apply, Read.val_main_v13_apply, v7_apply3, v12_apply3, Ideal.hostUnary_exp_def, Ideal.subf_def]

/-- The column sum of the shifted exponentials at (b, k). -/
theorem v15_apply2 (b : Fin 8) (k : Fin 2048) :
    Read.val_main_v15 (F := Ideal) x0 x1 x2 (ix2 b k)
      = 0 + ∑ q : Fin 2048, Ideal.exp (Spec.msk (Spec.qkv x0 x1) (Spec.qkv x0 x2) b q k
          - colMax (Spec.qkv x0 x1) (Spec.qkv x0 x2) b k) := by
  rw [Read.val_main_v15_apply, Read.val_main_cst_2_apply, Ideal.ofBits_def, Ideal.ofBits_zero_f32]
  refine congrArg (0 + ·) (Finset.sum_congr rfl (fun q _ => ?_))
  rw [← v14_apply3]
  exact congrArg _ (funext fun a => Fin.ext (by match a with | ⟨0, _⟩ => rfl | ⟨1, _⟩ => rfl | ⟨2, _⟩ => rfl))

/-- The column sum broadcast back over the queries. -/
theorem v17_apply3 (b : Fin 8) (q k : Fin 2048) :
    Read.val_main_v17 (F := Ideal) x0 x1 x2 (ix3 b q k)
      = 0 + ∑ q' : Fin 2048, Ideal.exp (Spec.msk (Spec.qkv x0 x1) (Spec.qkv x0 x2) b q' k
          - colMax (Spec.qkv x0 x1) (Spec.qkv x0 x2) b k) := by
  rw [Read.val_main_v17_apply, Read.val_main_v16_apply, ← v15_apply2]
  exact congrArg _ (funext fun a => Fin.ext (by match a with | ⟨0, _⟩ => rfl | ⟨1, _⟩ => rfl))

/-- The weight at (b, q, k). -/
theorem v18_apply3 (b : Fin 8) (q k : Fin 2048) :
    Read.val_main_v18 (F := Ideal) x0 x1 x2 (ix3 b q k)
      = Ideal.div (Ideal.exp (Spec.msk (Spec.qkv x0 x1) (Spec.qkv x0 x2) b q k - colMax (Spec.qkv x0 x1) (Spec.qkv x0 x2) b k))
          (0 + ∑ q' : Fin 2048, Ideal.exp (Spec.msk (Spec.qkv x0 x1) (Spec.qkv x0 x2) b q' k
            - colMax (Spec.qkv x0 x1) (Spec.qkv x0 x2) b k)) := by
  rw [Read.val_main_v18_apply, v14_apply3, v17_apply3, Ideal.hostDivf_def]

/-- The reference's last stage is `refSpec` over the column maximum. -/
theorem v19_eq :
    Read.val_main_v19 (F := Ideal) x0 x1 x2 x3
      = Spec.refSpec (colMax (Spec.qkv x0 x1) (Spec.qkv x0 x2)) (Spec.qkv x0 x1) (Spec.qkv x0 x2) (Spec.qkv x0 x3) := by
  funext i
  obtain ⟨b, q, e, rfl⟩ : ∃ b q e, i = ix3 b q e := ⟨i 0, i 1, i 2, eq_ix3 i⟩
  rw [Spec.refSpec_apply, Read.val_main_v19_apply, v2_eq]
  refine Finset.sum_congr rfl (fun k _ => ?_)
  have el : Read.lidx_main_v19 (ix3 b q e) k = ix3 b q k :=
    funext fun a => Fin.ext (by match a with | ⟨0, _⟩ => rfl | ⟨1, _⟩ => rfl | ⟨2, _⟩ => rfl)
  have er : Read.ridx_main_v19 (ix3 b q e) k = ix3 b k e :=
    funext fun a => Fin.ext (by match a with | ⟨0, _⟩ => rfl | ⟨1, _⟩ => rfl | ⟨2, _⟩ => rfl)
  rw [el, er, v18_apply3] <;> rfl

/-- For real arrays the column maximum is a real number: every masked score is `⊥` or a real, and the query at the key
    itself sees the key. -/
theorem colMax_real (Q K : Spec.A3) (hQ : Spec.IsReal Q) (hK : Spec.IsReal K) (b : Fin 8) (k : Fin 2048) :
    ∃ r : ℝ, colMax Q K b k = (r : EReal) := by
  choose qr hq using hQ
  choose kr hk using hK
  have hs : ∀ q, Spec.score Q K b q k = ((∑ e : Fin 1024, qr (ix3 b q e) * kr (ix3 b k e) : ℝ) : EReal) :=
    fun q => Spec.score_coe Q K qr kr hq hk b q k
  have hne_top : colMax Q K b k ≠ ⊤ := by
    refine ne_of_lt ?_
    unfold colMax
    rw [Finset.fold_max_lt]
    refine ⟨bot_lt_top, fun q _ => ?_⟩
    unfold Spec.msk
    split_ifs
    · exact bot_lt_top
    · rw [hs]; exact EReal.coe_lt_top _
  have hne_bot : colMax Q K b k ≠ ⊥ := by
    refine ne_of_gt ?_
    have hle : Spec.msk Q K b k k ≤ colMax Q K b k := by
      unfold colMax
      rw [Finset.le_fold_max]
      exact Or.inr ⟨k, Finset.mem_univ _, le_refl _⟩
    refine lt_of_lt_of_le ?_ hle
    unfold Spec.msk
    rw [if_neg (lt_irrefl k), hs]
    exact EReal.bot_lt_coe _
  exact ⟨(colMax Q K b k).toReal, (EReal.coe_toReal hne_top hne_bot).symm⟩

end Stages

/-- The reference's run ends with its result at `refSpec` of the three projections, over a real column shift, and
    its arguments unchanged. -/
theorem ref_run (m' : (ℓ : Loc nD τ sig) → Buf (Elt Ideal) ℓ) (ρ' : Dev nD → PrngReg)
    (h0 : ∀ c : Dev nD, Spec.IsReal (m' ((c.tc : Thread nD τ).loc main_arg0) : Spec.A3))
    (h1 : ∀ c : Dev nD, Spec.IsReal (m' ((c.tc : Thread nD τ).loc main_arg1) : Spec.A2w))
    (h2 : ∀ c : Dev nD, Spec.IsReal (m' ((c.tc : Thread nD τ).loc main_arg2) : Spec.A2w))
    (h3 : ∀ c : Dev nD, Spec.IsReal (m' ((c.tc : Thread nD τ).loc main_arg3) : Spec.A2w)) :
    ∃ M : Dev nD → Fin 8 → Fin 2048 → EReal, (∀ c b k, ∃ r : ℝ, M c b k = (r : EReal)) ∧
      θ_run (defs (F := Ideal)) (onTc (τ := τ) (main (F := Ideal))) ⟨m', fun _ => 0, ρ'⟩ (fun r => ∀ c : Dev nD,
        r.2.mem ((c.tc : Thread nD τ).loc main_v19)
            = Spec.refSpec (M c) (Spec.qkv (m' ((c.tc : Thread nD τ).loc main_arg0)) (m' ((c.tc : Thread nD τ).loc main_arg1)))
                (Spec.qkv (m' ((c.tc : Thread nD τ).loc main_arg0)) (m' ((c.tc : Thread nD τ).loc main_arg2)))
                (Spec.qkv (m' ((c.tc : Thread nD τ).loc main_arg0)) (m' ((c.tc : Thread nD τ).loc main_arg3)))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)) := by
  refine ⟨fun c => colMax (Spec.qkv (m' ((c.tc : Thread nD τ).loc main_arg0)) (m' ((c.tc : Thread nD τ).loc main_arg1)))
      (Spec.qkv (m' ((c.tc : Thread nD τ).loc main_arg0)) (m' ((c.tc : Thread nD τ).loc main_arg2))), ?_, ?_⟩
  · intro c b k
    exact colMax_real _ _ (Spec.qkv_real _ _ (h0 c) (h1 c)) (Spec.qkv_real _ _ (h0 c) (h2 c)) b k
  · refine (θ_run (defs (F := Ideal)) _ _).mono (fun _ h c => ⟨(h c).1.trans ?_, (h c).2⟩)
      (Cert.ReferenceIdeal.Value.run (F := Ideal) m' ρ')
    rw [Read.val_main_v19_eq]
    exact v19_eq _ _ _ _

end Cert.Proof.RefValue

end
-- ==== Proof.V0.lean ====
/-
  What the projection call leaves in its three result arrays, at the ideal instance: each is the row-major `x`
  times one weight matrix, entry by entry — block `t` of a result holds rows `512 t … 512 t + 511`, the 32 blocks tile it.

  At a point the result block is the matrix product of the staged rows of `x` with the whole weight: over the extended
  reals a change of float format is the identity and a product into a zero accumulator is the plain sum of products, so
  entry `(r, e)` of block `t` is `∑ d, x (512 t + r, d) · w (d, e)`, which is entry `(512 t + r, e)` of the projection.
  Row `i` lies in the block of point `i / 512`, so the blocks written back cover the array and it ends at the projection.
-/
import proofs.«416763_j40561671143865_3_alg».proof.Proof.KI.R0Defs
import proofs.«416763_j40561671143865_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.Proof.Value

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Proof

variable (V : (c : Dev nD) → (b : Ref sig .tc) → Buf (Elt Ideal) ((c : Thread nD τ).loc b))

namespace Proj

/-! ## The row-by-matrix product at an entry -/

theorem lhs_mm_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_mm_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_mm_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_mm_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Into a zero accumulator the product's entry `(r, e)` is row `r` of the left factor against column `e` of the right. -/
theorem mm_apply (x : FVec Ideal S512x1024 .bf16) (w : FVec Ideal S1024x1024 .bf16) (r : Fin 512) (e : Fin 1024) :
    matmul dot_S512x1024_S1024x1024_S512x1024_1_0_0_1_n_n none x w (constant (F := Ideal) S512x1024 .f32 0x00000000#32) (ix2 r e)
      = ∑ d : Fin 1024, x (ix2 r d) * w (ix2 d e) := by
  refine (Ideal.matmul_constant_zero_apply dot_S512x1024_S1024x1024_S512x1024_1_0_0_1_n_n none x w (ix2 r e)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r e) ((ValueIdx.contrEquiv1 dot_S512x1024_S1024x1024_S512x1024_1_0_0_1_n_n 1024 rfl rfl).symm k) = ix2 r k := funext fun a => Fin.ext (by
    match a with
    | ⟨0, _⟩ => exact lhs_mm_0 _ _
    | ⟨1, _⟩ => exact (lhs_mm_1 _ _).trans hk)
  have er : dot_S512x1024_S1024x1024_S512x1024_1_0_0_1_n_n.rhsIdx (ix2 r e) ((ValueIdx.contrEquiv1 dot_S512x1024_S1024x1024_S512x1024_1_0_0_1_n_n 1024 rfl rfl).symm k) = ix2 k e := funext fun a => Fin.ext (by
    match a with
    | ⟨0, _⟩ => exact (rhs_mm_0 _ _).trans hk
    | ⟨1, _⟩ => exact rhs_mm_1 _ _)
  rw [el, er]

/-- The first result block's entry: a format change is the identity on extended reals, so it is the product's. -/
theorem pay2_apply (x : Vec Ideal S512x1024 .f32) (w : Vec Ideal S1024x1024 .bf16) (r : Fin 512) (e : Fin 1024) :
    k0_pay2 (F := Ideal) x w (ix2 r e) = ∑ d : Fin 1024, x (ix2 r d) * w (ix2 d e) := by
  unfold k0_pay2 k0_pay1
  refine (mm_apply _ _ r e).trans ?_
  rw [shapeCast_self, shapeCast_self]
  rfl
theorem pay3_apply (x : Vec Ideal S512x1024 .f32) (w : Vec Ideal S1024x1024 .bf16) (r : Fin 512) (e : Fin 1024) :
    k0_pay3 (F := Ideal) x w (ix2 r e) = ∑ d : Fin 1024, x (ix2 r d) * w (ix2 d e) := by
  unfold k0_pay3 k0_pay1
  refine (mm_apply _ _ r e).trans ?_
  rw [shapeCast_self, shapeCast_self]
  rfl
theorem pay4_apply (x : Vec Ideal S512x1024 .f32) (w : Vec Ideal S1024x1024 .bf16) (r : Fin 512) (e : Fin 1024) :
    k0_pay4 (F := Ideal) x w (ix2 r e) = ∑ d : Fin 1024, x (ix2 r d) * w (ix2 d e) := by
  unfold k0_pay4 k0_pay1
  refine (mm_apply _ _ r e).trans ?_
  rw [shapeCast_self, shapeCast_self]
  rfl

/-! ## Where the blocks sit -/

/-- The index maps, decided over the 32 points: the row block of `x` and of each result is block `t`, every weight is whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The rows of `x` staged at point `t`. -/
abbrev xblk (c : Dev nD) (t : Fin cfg0.N) : Vec Ideal S512x1024 .f32 := iblk0 V c 0 t
/-- The three weights as staged at point `t`. -/
abbrev wblk1 (c : Dev nD) (t : Fin cfg0.N) : Vec Ideal S1024x1024 .bf16 := iblk0 V c 1 t
abbrev wblk2 (c : Dev nD) (t : Fin cfg0.N) : Vec Ideal S1024x1024 .bf16 := iblk0 V c 2 t
abbrev wblk3 (c : Dev nD) (t : Fin cfg0.N) : Vec Ideal S1024x1024 .bf16 := iblk0 V c 3 t

/-- Entry `(r, d)` of the staged rows is entry `(512 t + r, d)` of `x`. -/
theorem xblk_apply (c : Dev nD) (t : Fin cfg0.N) (r : Fin 512) (d : Fin 1024) (k : S16384x1024.Idx)
    (hk0 : (k 0).val = 512 * t.val + r.val) (hk1 : (k 1).val = d.val) :
    xblk V c t (ix2 r d) = (V c main_v3 : S16384x1024.Idx → EReal) k := by
  obtain ⟨h0, h1, -⟩ := idx_facts0 t
  unfold xblk iblk0
  rw [View.read_apply]
  show V c main_v3 _ = V c main_v3 _
  congr 1
  funext a
  apply Fin.ext
  match a with
  | ⟨0, _⟩ => show win0_0.index t 0 * 512 + 1 * r.val = (k 0).val; rw [h0, hk0]; omega
  | ⟨1, _⟩ => show win0_0.index t 1 * 1024 + 1 * d.val = (k 1).val; rw [h1, hk1]; omega

/-- Every staged weight is the whole weight matrix. -/
theorem wblk1_apply (c : Dev nD) (t : Fin cfg0.N) (d e : Fin 1024) :
    wblk1 V c t (ix2 d e) = (V c main_v0 : S1024x1024.Idx → EReal) (ix2 d e) := by
  have h0 : win0_1.index t (0 : Fin 2) = 0 := by have h := idx_facts0 t; simp only [h]
  have h1 : win0_1.index t (1 : Fin 2) = 0 := by have h := idx_facts0 t; simp only [h]
  unfold wblk1 iblk0
  rw [View.read_apply]
  show V c main_v0 _ = V c main_v0 _
  congr 1
  funext a
  apply Fin.ext
  match a with
  | ⟨0, _⟩ => show win0_1.index t 0 * 1024 + 1 * d.val = d.val; rw [h0]; omega
  | ⟨1, _⟩ => show win0_1.index t 1 * 1024 + 1 * e.val = e.val; rw [h1]; omega

theorem wblk2_apply (c : Dev nD) (t : Fin cfg0.N) (d e : Fin 1024) :
    wblk2 V c t (ix2 d e) = (V c main_v1 : S1024x1024.Idx → EReal) (ix2 d e) := by
  have h0 : win0_2.index t (0 : Fin 2) = 0 := by have h := idx_facts0 t; simp only [h]
  have h1 : win0_2.index t (1 : Fin 2) = 0 := by have h := idx_facts0 t; simp only [h]
  unfold wblk2 iblk0
  rw [View.read_apply]
  show V c main_v1 _ = V c main_v1 _
  congr 1
  funext a
  apply Fin.ext
  match a with
  | ⟨0, _⟩ => show win0_2.index t 0 * 1024 + 1 * d.val = d.val; rw [h0]; omega
  | ⟨1, _⟩ => show win0_2.index t 1 * 1024 + 1 * e.val = e.val; rw [h1]; omega

theorem wblk3_apply (c : Dev nD) (t : Fin cfg0.N) (d e : Fin 1024) :
    wblk3 V c t (ix2 d e) = (V c main_v2 : S1024x1024.Idx → EReal) (ix2 d e) := by
  have h0 : win0_3.index t (0 : Fin 2) = 0 := by have h := idx_facts0 t; simp only [h]
  have h1 : win0_3.index t (1 : Fin 2) = 0 := by have h := idx_facts0 t; simp only [h]
  unfold wblk3 iblk0
  rw [View.read_apply]
  show V c main_v2 _ = V c main_v2 _
  congr 1
  funext a
  apply Fin.ext
  match a with
  | ⟨0, _⟩ => show win0_3.index t 0 * 1024 + 1 * d.val = d.val; rw [h0]; omega
  | ⟨1, _⟩ => show win0_3.index t 1 * 1024 + 1 * e.val = e.val; rw [h1]; omega

/-- Row `r` of the staged rows against column `e` of a weight is entry `(512 t + r, e)` of the projection of `x`. -/
theorem rows_proj (c : Dev nD) (t : Fin cfg0.N) (W : Vec Ideal S1024x1024 .bf16) (A : Spec.A2w)
    (hW : ∀ d e : Fin 1024, W (ix2 d e) = A (ix2 d e)) (r : Fin 512) (e : Fin 1024) (i : S16384x1024.Idx)
    (hi0 : (i 0).val = 512 * t.val + r.val) (hi1 : (i 1).val = e.val) :
    ∑ d : Fin 1024, xblk V c t (ix2 r d) * W (ix2 d e) = Spec.proj (V c main_v3) A i := by
  obtain ⟨p, q, rfl⟩ : ∃ (p : Fin 16384) (q : Fin 1024), i = ix2 p q := ⟨i 0, i 1, eq_ix2 i⟩
  obtain rfl : q = e := Fin.ext hi1
  unfold Spec.proj
  refine Finset.sum_congr rfl fun d _ => ?_
  rw [xblk_apply V c t r d (ix2 p d) hi0 rfl, hW d q]

/-! ## What each point writes back, and the arrays after the run -/

/-- Point `t` writes back rows `512 t …` of the projection. -/
theorem flushed4_eq (c : Dev nD) (t : Fin cfg0.N) :
    (dat0 (F := Ideal) V c).flushed 4 t
      = ((cfg0.win 4).blk t).view.read (Elt Ideal) (Spec.proj (V c main_v3) (V c main_v0)) := by
  show (cfg0.win 4).cut (grid0.coords t) ((dat0 V c).after 4 t) = _
  rw [after0_4]
  funext j
  rw [View.read_apply]
  have hj0 : (j 0).val < 512 := (j 0).isLt
  have hj1 : (j 1).val < 1024 := (j 1).isLt
  have h0 : win0_4.index t (0 : Fin 2) = t.val := by have h := idx_facts0 t; simp only [h]
  have h1 : win0_4.index t (1 : Fin 2) = 0 := by have h := idx_facts0 t; simp only [h]
  show k0_pay2 (F := Ideal) (xblk V c t) (wblk1 V c t) ((cfg0.win 4).xinj (grid0.coords t) j)
    = Spec.proj (V c main_v3) (V c main_v0) (((cfg0.win 4).blk t).view.emb j)
  have hx : (cfg0.win 4).xinj (grid0.coords t) j = ix2 (⟨(j 0).val, hj0⟩ : Fin 512) (⟨(j 1).val, hj1⟩ : Fin 1024) :=
    funext fun a => Fin.ext (by
      match a with
      | ⟨0, _⟩ => rfl
      | ⟨1, _⟩ => rfl)
  refine (congrArg (k0_pay2 (F := Ideal) (xblk V c t) (wblk1 V c t)) hx).trans ?_
  refine (pay2_apply (xblk V c t) (wblk1 V c t) _ _).trans ?_
  refine rows_proj V c t (wblk1 V c t) (V c main_v0) (wblk1_apply V c t) _ _ _ ?_ ?_
  · show win0_4.index t 0 * 512 + 1 * (j 0).val = 512 * t.val + (j 0).val
    rw [h0]; omega
  · show win0_4.index t 1 * 1024 + 1 * (j 1).val = (j 1).val
    rw [h1]; omega

/-- Row `i` lies in the block of point `i / 512`: the 32 blocks tile the array. -/
theorem cover4 (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have ht : (i 0).val / 512 < cfg0.N := Nat.lt_of_lt_of_eq (by omega : (i 0).val / 512 < 32) N_0.symm
  refine ⟨⟨(i 0).val / 512, ht⟩, flush0_4 _, ?_⟩
  have h0 : win0_4.index ⟨(i 0).val / 512, ht⟩ (0 : Fin 2) = (i 0).val / 512 := by
    have h := idx_facts0 ⟨(i 0).val / 512, ht⟩; simp only [h]
  have h1 : win0_4.index ⟨(i 0).val / 512, ht⟩ (1 : Fin 2) = 0 := by
    have h := idx_facts0 ⟨(i 0).val / 512, ht⟩; simp only [h]
  show i ∈ ((View.whole main_v4_0).slice (win0_4.rect ⟨(i 0).val / 512, ht⟩)).set
  rw [View.set_slice_whole, Rect.mem_set_unit]
  intro a
  match a with
  | ⟨0, _⟩ =>
    show win0_4.index ⟨(i 0).val / 512, ht⟩ 0 * 512 ≤ (i 0).val ∧ (i 0).val < win0_4.index ⟨(i 0).val / 512, ht⟩ 0 * 512 + 512
    rw [h0]; omega
  | ⟨1, _⟩ =>
    show win0_4.index ⟨(i 0).val / 512, ht⟩ 1 * 1024 ≤ (i 1).val ∧ (i 1).val < win0_4.index ⟨(i 0).val / 512, ht⟩ 1 * 1024 + 1024
    rw [h1]; omega

/-- Point `t` writes back rows `512 t …` of the projection. -/
theorem flushed5_eq (c : Dev nD) (t : Fin cfg0.N) :
    (dat0 (F := Ideal) V c).flushed 5 t
      = ((cfg0.win 5).blk t).view.read (Elt Ideal) (Spec.proj (V c main_v3) (V c main_v1)) := by
  show (cfg0.win 5).cut (grid0.coords t) ((dat0 V c).after 5 t) = _
  rw [after0_5]
  funext j
  rw [View.read_apply]
  have hj0 : (j 0).val < 512 := (j 0).isLt
  have hj1 : (j 1).val < 1024 := (j 1).isLt
  have h0 : win0_5.index t (0 : Fin 2) = t.val := by have h := idx_facts0 t; simp only [h]
  have h1 : win0_5.index t (1 : Fin 2) = 0 := by have h := idx_facts0 t; simp only [h]
  show k0_pay3 (F := Ideal) (xblk V c t) (wblk2 V c t) ((cfg0.win 5).xinj (grid0.coords t) j)
    = Spec.proj (V c main_v3) (V c main_v1) (((cfg0.win 5).blk t).view.emb j)
  have hx : (cfg0.win 5).xinj (grid0.coords t) j = ix2 (⟨(j 0).val, hj0⟩ : Fin 512) (⟨(j 1).val, hj1⟩ : Fin 1024) :=
    funext fun a => Fin.ext (by
      match a with
      | ⟨0, _⟩ => rfl
      | ⟨1, _⟩ => rfl)
  refine (congrArg (k0_pay3 (F := Ideal) (xblk V c t) (wblk2 V c t)) hx).trans ?_
  refine (pay3_apply (xblk V c t) (wblk2 V c t) _ _).trans ?_
  refine rows_proj V c t (wblk2 V c t) (V c main_v1) (wblk2_apply V c t) _ _ _ ?_ ?_
  · show win0_5.index t 0 * 512 + 1 * (j 0).val = 512 * t.val + (j 0).val
    rw [h0]; omega
  · show win0_5.index t 1 * 1024 + 1 * (j 1).val = (j 1).val
    rw [h1]; omega

/-- Row `i` lies in the block of point `i / 512`: the 32 blocks tile the array. -/
theorem cover5 (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  have ht : (i 0).val / 512 < cfg0.N := Nat.lt_of_lt_of_eq (by omega : (i 0).val / 512 < 32) N_0.symm
  refine ⟨⟨(i 0).val / 512, ht⟩, flush0_5 _, ?_⟩
  have h0 : win0_5.index ⟨(i 0).val / 512, ht⟩ (0 : Fin 2) = (i 0).val / 512 := by
    have h := idx_facts0 ⟨(i 0).val / 512, ht⟩; simp only [h]
  have h1 : win0_5.index ⟨(i 0).val / 512, ht⟩ (1 : Fin 2) = 0 := by
    have h := idx_facts0 ⟨(i 0).val / 512, ht⟩; simp only [h]
  show i ∈ ((View.whole main_v4_1).slice (win0_5.rect ⟨(i 0).val / 512, ht⟩)).set
  rw [View.set_slice_whole, Rect.mem_set_unit]
  intro a
  match a with
  | ⟨0, _⟩ =>
    show win0_5.index ⟨(i 0).val / 512, ht⟩ 0 * 512 ≤ (i 0).val ∧ (i 0).val < win0_5.index ⟨(i 0).val / 512, ht⟩ 0 * 512 + 512
    rw [h0]; omega
  | ⟨1, _⟩ =>
    show win0_5.index ⟨(i 0).val / 512, ht⟩ 1 * 1024 ≤ (i 1).val ∧ (i 1).val < win0_5.index ⟨(i 0).val / 512, ht⟩ 1 * 1024 + 1024
    rw [h1]; omega

/-- Point `t` writes back rows `512 t …` of the projection. -/
theorem flushed6_eq (c : Dev nD) (t : Fin cfg0.N) :
    (dat0 (F := Ideal) V c).flushed 6 t
      = ((cfg0.win 6).blk t).view.read (Elt Ideal) (Spec.proj (V c main_v3) (V c main_v2)) := by
  show (cfg0.win 6).cut (grid0.coords t) ((dat0 V c).after 6 t) = _
  rw [after0_6]
  funext j
  rw [View.read_apply]
  have hj0 : (j 0).val < 512 := (j 0).isLt
  have hj1 : (j 1).val < 1024 := (j 1).isLt
  have h0 : win0_6.index t (0 : Fin 2) = t.val := by have h := idx_facts0 t; simp only [h]
  have h1 : win0_6.index t (1 : Fin 2) = 0 := by have h := idx_facts0 t; simp only [h]
  show k0_pay4 (F := Ideal) (xblk V c t) (wblk3 V c t) ((cfg0.win 6).xinj (grid0.coords t) j)
    = Spec.proj (V c main_v3) (V c main_v2) (((cfg0.win 6).blk t).view.emb j)
  have hx : (cfg0.win 6).xinj (grid0.coords t) j = ix2 (⟨(j 0).val, hj0⟩ : Fin 512) (⟨(j 1).val, hj1⟩ : Fin 1024) :=
    funext fun a => Fin.ext (by
      match a with
      | ⟨0, _⟩ => rfl
      | ⟨1, _⟩ => rfl)
  refine (congrArg (k0_pay4 (F := Ideal) (xblk V c t) (wblk3 V c t)) hx).trans ?_
  refine (pay4_apply (xblk V c t) (wblk3 V c t) _ _).trans ?_
  refine rows_proj V c t (wblk3 V c t) (V c main_v2) (wblk3_apply V c t) _ _ _ ?_ ?_
  · show win0_6.index t 0 * 512 + 1 * (j 0).val = 512 * t.val + (j 0).val
    rw [h0]; omega
  · show win0_6.index t 1 * 1024 + 1 * (j 1).val = (j 1).val
    rw [h1]; omega

/-- Row `i` lies in the block of point `i / 512`: the 32 blocks tile the array. -/
theorem cover6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have ht : (i 0).val / 512 < cfg0.N := Nat.lt_of_lt_of_eq (by omega : (i 0).val / 512 < 32) N_0.symm
  refine ⟨⟨(i 0).val / 512, ht⟩, flush0_6 _, ?_⟩
  have h0 : win0_6.index ⟨(i 0).val / 512, ht⟩ (0 : Fin 2) = (i 0).val / 512 := by
    have h := idx_facts0 ⟨(i 0).val / 512, ht⟩; simp only [h]
  have h1 : win0_6.index ⟨(i 0).val / 512, ht⟩ (1 : Fin 2) = 0 := by
    have h := idx_facts0 ⟨(i 0).val / 512, ht⟩; simp only [h]
  show i ∈ ((View.whole main_v4_2).slice (win0_6.rect ⟨(i 0).val / 512, ht⟩)).set
  rw [View.set_slice_whole, Rect.mem_set_unit]
  intro a
  match a with
  | ⟨0, _⟩ =>
    show win0_6.index ⟨(i 0).val / 512, ht⟩ 0 * 512 ≤ (i 0).val ∧ (i 0).val < win0_6.index ⟨(i 0).val / 512, ht⟩ 0 * 512 + 512
    rw [h0]; omega
  | ⟨1, _⟩ =>
    show win0_6.index ⟨(i 0).val / 512, ht⟩ 1 * 1024 ≤ (i 1).val ∧ (i 1).val < win0_6.index ⟨(i 0).val / 512, ht⟩ 1 * 1024 + 1024
    rw [h1]; omega

end Proj

/-! ## The three result arrays after the run -/

theorem arr0_4 (c : Dev nD) : (dat0 (F := Ideal) V c).arrAt 4 cfg0.N = Spec.proj (V c main_v3) (V c main_v0) := by
  exact (dat0 (F := Ideal) V c).arrAt_eq_of_cover 4 (Spec.proj (V c main_v3) (V c main_v0))
    (fun t _ => Proj.flushed4_eq V c t) Proj.cover4

theorem arr0_5 (c : Dev nD) : (dat0 (F := Ideal) V c).arrAt 5 cfg0.N = Spec.proj (V c main_v3) (V c main_v1) := by
  exact (dat0 (F := Ideal) V c).arrAt_eq_of_cover 5 (Spec.proj (V c main_v3) (V c main_v1))
    (fun t _ => Proj.flushed5_eq V c t) Proj.cover5

theorem arr0_6 (c : Dev nD) : (dat0 (F := Ideal) V c).arrAt 6 cfg0.N = Spec.proj (V c main_v3) (V c main_v2) := by
  exact (dat0 (F := Ideal) V c).arrAt_eq_of_cover 6 (Spec.proj (V c main_v3) (V c main_v2))
    (fun t _ => Proj.flushed6_eq V c t) Proj.cover6

end Cert.Proof.Value

end
-- ==== Proof.OnlineLse.lean ====
/-
  The running log-sum-exp of one row, folded in block by block. A state `(m, l)` over the columns `S` folded in so
  far is either the start `(⊥, 0)`, while no column of `S` is visible, or `m` is the largest visible score and
  `l = ∑ exp (score − m)` over the visible columns of `S`. Folding in a further block `T` with
  `m' = max m (block maximum)` and `l' = exp (m − m') · l + ∑_T exp (masked score − m')` keeps that shape; and at
  the end `m + log l` is the logarithm of the plain sum of exponentials, whatever the maxima were on the way.
-/
import Idealize.ShloMosaic.PureOps.Ideal
import Idealize.ShloMosaic.PureOps.Ideal.Laws

noncomputable section

namespace Cert.Proof.OnlineLse

open Idealize.ShloMosaic

variable {ι : Type} [DecidableEq ι]

/-- The masked score of a column: the real score where the column is visible, `⊥` elsewhere. -/
def mskd (f : ι → ℝ) (vis : ι → Prop) [DecidablePred vis] (q : ι) : EReal := if vis q then (f q : EReal) else ⊥

/-- The state `(m, l)` after the columns `S`. -/
def Inv (f : ι → ℝ) (vis : ι → Prop) [DecidablePred vis] (S : Finset ι) (m l : EReal) : Prop :=
  ((∀ q ∈ S, ¬ vis q) ∧ m = ⊥ ∧ l = 0)
  ∨ ∃ mr : ℝ, m = (mr : EReal) ∧ (∃ q ∈ S, vis q ∧ f q = mr) ∧ (∀ q ∈ S, vis q → f q ≤ mr)
      ∧ l = ((∑ q ∈ S.filter vis, Real.exp (f q - mr) : ℝ) : EReal)

theorem inv_empty (f : ι → ℝ) (vis : ι → Prop) [DecidablePred vis] : Inv f vis ∅ ⊥ 0 :=
  Or.inl ⟨fun _ hq => absurd hq (Finset.notMem_empty _), rfl, rfl⟩

/-- The extended real of a finite real sum is the sum of the extended reals. -/
theorem coe_sum {α : Type} (s : Finset α) (g : α → ℝ) :
    ((∑ q ∈ s, g q : ℝ) : EReal) = ∑ q ∈ s, (g q : EReal) := by
  classical
  induction s using Finset.induction_on with
  | empty => rw [Finset.sum_empty, Finset.sum_empty, EReal.coe_zero]
  | insert a s ha ih => rw [Finset.sum_insert ha, Finset.sum_insert ha, EReal.coe_add, ih]

section
variable (f : ι → ℝ) (vis : ι → Prop) [DecidablePred vis]

theorem mskd_vis {q : ι} (h : vis q) : mskd f vis q = (f q : EReal) := if_pos h

theorem mskd_not_vis {q : ι} (h : ¬ vis q) : mskd f vis q = ⊥ := if_neg h

/-- A set with no visible column has an empty visible part. -/
theorem filter_invis {S : Finset ι} (h : ∀ q ∈ S, ¬ vis q) : S.filter vis = ∅ :=
  Finset.filter_eq_empty_iff.mpr h

/-- Against a real shift `c`, the block's sum of `exp (masked score − c)` is the real sum over its visible columns:
    an invisible column contributes `exp ⊥ = 0`. -/
theorem sum_exp_mskd (T : Finset ι) (c : ℝ) :
    ∑ q ∈ T, Ideal.exp (mskd f vis q - (c : EReal))
      = ((∑ q ∈ T.filter vis, Real.exp (f q - c) : ℝ) : EReal) := by
  rw [coe_sum, Finset.sum_filter]
  refine Finset.sum_congr rfl fun q _ => ?_
  by_cases hq : vis q
  · rw [mskd_vis f vis hq, if_pos hq, ← EReal.coe_sub, Ideal.exp_coe]
  · rw [mskd_not_vis f vis hq, if_neg hq, EReal.bot_sub, Ideal.exp_bot]

/-- A block with no visible column sums to `0` against any shift (`⊥ − c = ⊥`, at `c = ⊥` too). -/
theorem sum_exp_mskd_invis {T : Finset ι} (c : EReal) (h : ∀ q ∈ T, ¬ vis q) :
    ∑ q ∈ T, Ideal.exp (mskd f vis q - c) = 0 := by
  refine Finset.sum_eq_zero fun q hq => ?_
  rw [mskd_not_vis f vis (h q hq), EReal.bot_sub, Ideal.exp_bot]

/-- Rescaling a state to a real reference `c`: `exp (m − c) · l = ∑ exp (score − c)` over the visible columns. -/
theorem shift_state {S : Finset ι} {m l : EReal} (h : Inv f vis S m l) (c : ℝ) :
    Ideal.exp (m - (c : EReal)) * l = ((∑ q ∈ S.filter vis, Real.exp (f q - c) : ℝ) : EReal) := by
  rcases h with ⟨hS, rfl, rfl⟩ | ⟨mr, rfl, _, _, rfl⟩
  · rw [mul_zero, filter_invis vis hS, Finset.sum_empty, EReal.coe_zero]
  · rw [← EReal.coe_sub, Ideal.exp_coe, ← EReal.coe_mul, Finset.mul_sum]
    refine congrArg _ (Finset.sum_congr rfl fun q _ => ?_)
    rw [← Real.exp_add]
    exact congrArg _ (by ring)

/-- The visible part of a disjoint union splits the sum. -/
theorem sum_filter_union {S T : Finset ι} (hd : Disjoint S T) (g : ι → ℝ) :
    ∑ q ∈ (S ∪ T).filter vis, g q = ∑ q ∈ S.filter vis, g q + ∑ q ∈ T.filter vis, g q := by
  rw [Finset.filter_union, Finset.sum_union (Finset.disjoint_filter_filter hd)]

end

/-- One block: `rowmax` is the block's largest masked score (an upper bound that is attained), `rowsum` the block's
    sum of `exp (masked score − new maximum)`. -/
theorem inv_step (f : ι → ℝ) (vis : ι → Prop) [DecidablePred vis] (S T : Finset ι) (hd : Disjoint S T) (hT : T.Nonempty)
    (m l rowmax rowsum : EReal) (h : Inv f vis S m l)
    (hub : ∀ q ∈ T, mskd f vis q ≤ rowmax) (hatt : ∃ q ∈ T, mskd f vis q = rowmax)
    (hsum : rowsum = ∑ q ∈ T, Ideal.exp (mskd f vis q - max m rowmax)) :
    Inv f vis (S ∪ T) (max m rowmax) (Ideal.exp (m - max m rowmax) * l + rowsum) := by
  obtain ⟨q₀, hq₀T, hq₀⟩ := hatt
  by_cases hv : vis q₀
  · -- the block's maximum is the real score of a visible column
    rw [mskd_vis f vis hv] at hq₀
    subst hq₀
    have hubT : ∀ q ∈ T, vis q → f q ≤ f q₀ := fun q hq hvq => by
      have := hub q hq
      rw [mskd_vis f vis hvq] at this
      exact EReal.coe_le_coe_iff.mp this
    -- the new maximum is a real, attained at a visible column of the union and an upper bound there
    obtain ⟨c, hc, hcw, hcub⟩ : ∃ c : ℝ, max m (f q₀ : EReal) = (c : EReal)
        ∧ (∃ q ∈ S ∪ T, vis q ∧ f q = c) ∧ (∀ q ∈ S ∪ T, vis q → f q ≤ c) := by
      rcases h with ⟨hS, rfl, _⟩ | ⟨mr, rfl, ⟨q₁, hq₁S, hq₁v, hq₁⟩, hubS, _⟩
      · refine ⟨f q₀, max_eq_right bot_le, ⟨q₀, Finset.mem_union_right _ hq₀T, hv, rfl⟩, ?_⟩
        intro q hq hvq
        rcases Finset.mem_union.mp hq with hqS | hqT
        · exact absurd hvq (hS q hqS)
        · exact hubT q hqT hvq
      · rcases le_total mr (f q₀) with hle | hle
        · refine ⟨f q₀, max_eq_right (EReal.coe_le_coe_iff.mpr hle),
            ⟨q₀, Finset.mem_union_right _ hq₀T, hv, rfl⟩, ?_⟩
          intro q hq hvq
          rcases Finset.mem_union.mp hq with hqS | hqT
          · exact (hubS q hqS hvq).trans hle
          · exact hubT q hqT hvq
        · refine ⟨mr, max_eq_left (EReal.coe_le_coe_iff.mpr hle),
            ⟨q₁, Finset.mem_union_left _ hq₁S, hq₁v, hq₁⟩, ?_⟩
          intro q hq hvq
          rcases Finset.mem_union.mp hq with hqS | hqT
          · exact hubS q hqS hvq
          · exact (hubT q hqT hvq).trans hle
    rw [hc] at hsum ⊢
    refine Or.inr ⟨c, rfl, hcw, hcub, ?_⟩
    rw [hsum, shift_state f vis h c, sum_exp_mskd, ← EReal.coe_add, sum_filter_union vis hd]
  · -- the block has no visible column: its maximum is `⊥` and the state does not move
    rw [mskd_not_vis f vis hv] at hq₀
    subst hq₀
    have hTi : ∀ q ∈ T, ¬ vis q := fun q hq hvq => by
      have := hub q hq
      rw [mskd_vis f vis hvq] at this
      exact absurd (le_bot_iff.mp this) (EReal.coe_ne_bot _)
    rw [max_eq_left bot_le] at hsum ⊢
    rw [hsum, sum_exp_mskd_invis f vis m hTi, add_zero]
    rcases h with ⟨hS, rfl, rfl⟩ | ⟨mr, rfl, ⟨q₁, hq₁S, hq₁v, hq₁⟩, hubS, rfl⟩
    · refine Or.inl ⟨?_, rfl, mul_zero _⟩
      intro q hq
      rcases Finset.mem_union.mp hq with hqS | hqT
      · exact hS q hqS
      · exact hTi q hqT
    · refine Or.inr ⟨mr, rfl, ⟨q₁, Finset.mem_union_left _ hq₁S, hq₁v, hq₁⟩, ?_, ?_⟩
      · intro q hq hvq
        rcases Finset.mem_union.mp hq with hqS | hqT
        · exact hubS q hqS hvq
        · exact absurd hvq (hTi q hqT)
      · rw [← EReal.coe_sub, sub_self, Ideal.exp_coe, Real.exp_zero, EReal.coe_one, one_mul,
          sum_filter_union vis hd, filter_invis vis hTi, Finset.sum_empty, add_zero]

/-- The end: with a visible column folded in, `m + log l` is the logarithm of the sum of exponentials. -/
theorem inv_final (f : ι → ℝ) (vis : ι → Prop) [DecidablePred vis] (S : Finset ι) (m l : EReal) (h : Inv f vis S m l)
    (hne : ∃ q ∈ S, vis q) :
    m + Ideal.log l = ((Real.log (∑ q ∈ S.filter vis, Real.exp (f q)) : ℝ) : EReal) := by
  rcases h with ⟨hS, _, _⟩ | ⟨mr, rfl, ⟨q₁, hq₁S, hq₁v, _⟩, _, rfl⟩
  · obtain ⟨q, hq, hvq⟩ := hne
    exact absurd hvq (hS q hq)
  · have hpos : 0 < ∑ q ∈ S.filter vis, Real.exp (f q - mr) :=
      Finset.sum_pos (fun q _ => Real.exp_pos _) ⟨q₁, Finset.mem_filter.mpr ⟨hq₁S, hq₁v⟩⟩
    have hfac : ∑ q ∈ S.filter vis, Real.exp (f q)
        = Real.exp mr * ∑ q ∈ S.filter vis, Real.exp (f q - mr) := by
      rw [Finset.mul_sum]
      refine Finset.sum_congr rfl fun q _ => ?_
      rw [← Real.exp_add]
      exact congrArg _ (by ring)
    rw [Ideal.log_coe, if_neg (not_le.mpr hpos), ← EReal.coe_add, hfac,
      Real.log_mul (Real.exp_pos _).ne' hpos.ne', Real.log_exp]

end Cert.Proof.OnlineLse

end
-- ==== Proof.V1.lean ====
/-
  What the statistics call leaves in its result array, at the ideal instance, for real key and query arrays: per
  batch and key the logarithm of the sum, over the queries that see the key, of the exponentials of the scores.

  The call walks (batch, key block, query block) with the query block innermost and carries, per row of the key
  block, a running maximum and a running sum of exponentials. Row by row this is the running log-sum-exp of the
  masked scores of one key against the query columns folded in so far: the reset values before the key's own block,
  one block of 512 columns folded in at each query block from the key's own onwards. At the last query block the
  columns folded in are all the queries from the key block's first column on, which hold every query that sees the
  key, and maximum plus logarithm of the sum is the logarithm of the plain sum of exponentials.
-/
import proofs.«416763_j40561671143865_3_alg».proof.Proof.KI.R1Defs
import proofs.«416763_j40561671143865_3_alg».proof.Proof.Spec
import proofs.«416763_j40561671143865_3_alg».proof.Proof.OnlineLse
import Idealize.ShloMosaic.Lib.Pipeline.Value
import Idealize.ShloMosaic.Lib.StableHlo.Predicate
import Idealize.ShloMosaic.Lib.ValueLayout
import Idealize.ShloMosaic.Lib.ValueIdx
import Idealize.ShloMosaic.PureOps.Ideal.Laws
import Idealize.ShloMosaic.PureOps.IdealRules
import Mathlib.Data.Finset.Fold
import Mathlib.Algebra.BigOperators.Group.Finset.Basic

set_option maxRecDepth 16384

noncomputable section

namespace Cert.Proof.Value.Lse

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Proof

/-! ## The grid in closed form -/

theorem coords1_val : ∀ t : Fin cfg1.N, (grid1.coords t 0).val = t.val / 16 ∧ (grid1.coords t 1).val = t.val / 4 % 4
    ∧ (grid1.coords t 2).val = t.val % 4 :=
  (by decide +kernel : ∀ t : Fin grid1.N, _)

theorem cond1_0_iff : ∀ t : Fin cfg1.N, cond1_0 (grid1.coords t) ↔ t.val % 4 = 0 :=
  (by decide +kernel : ∀ t : Fin grid1.N, _)

theorem cond1_1_iff : ∀ t : Fin cfg1.N, cond1_1 (grid1.coords t) ↔ t.val / 4 % 4 ≤ t.val % 4 :=
  (by decide +kernel : ∀ t : Fin grid1.N, _)

theorem cond1_2_iff : ∀ t : Fin cfg1.N, cond1_2 (grid1.coords t) ↔ t.val % 4 = 3 :=
  (by decide +kernel : ∀ t : Fin grid1.N, _)

theorem idx1_facts : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = max (t.val % 4) (t.val / 4 % 4) ∧ win1_1.index t (2 : Fin 3) = 0
    ∧ win1_2.index t (0 : Fin 3) = t.val / 16 ∧ win1_2.index t (1 : Fin 3) = 0 ∧ win1_2.index t (2 : Fin 3) = t.val / 4 % 4 :=
  (by decide +kernel : ∀ t : Fin grid1.N, _)

theorem N1 : cfg1.N = 128 := by decide +kernel

/-! ## Layout forms the payloads meet -/

section Layout
variable {α : Type}

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

end Layout

/-- The index a lane reduction of a square block inserts: row `r`, lane `k`. -/
theorem lift_row (h : S512x512.Reduces [1] S512) (r k : Fin 512) : h.lift (ix1 r) k = ix2 r k := by
  funext a
  apply Fin.ext
  match a with
  | ⟨0, _⟩ => rfl
  | ⟨1, _⟩ => rfl

/-! ## The payloads at an index -/

theorem bot_f32 : Ideal.ofBits .f32 0xFF800000#32 = ⊥ := by simp [Ideal.ofBits, Ideal.ieee]

theorem pay1_apply (j : S512x1.Idx) : (k1_pay1 (F := Ideal)) j = ⊥ := by
  unfold k1_pay1
  rw [shapeCast_self]
  exact bot_f32

theorem pay2_apply (j : S512x1.Idx) : (k1_pay2 (F := Ideal)) j = 0 := by
  unfold k1_pay2
  rw [shapeCast_self]
  exact Ideal.ofBits_zero_f32

theorem pay3_eq (v : FVec Ideal S512x1 .f32) : k1_pay3 v = v := by
  unfold k1_pay3
  rw [shapeCast_self]

theorem pay4_apply (m l : Vec Ideal S512x1 .f32) (r : Fin 512) :
    k1_pay4 m l (ix3 (0 : Fin 1) (0 : Fin 1) r) = m (ix2 r (0 : Fin 1)) + Ideal.log (l (ix2 r (0 : Fin 1))) := by
  unfold k1_pay4
  refine (shapeCast_ab_1ab_apply _ _ (0 : Fin 1) (0 : Fin 1) r).trans ?_
  refine (transpose_ix2_apply _ _ (0 : Fin 1) r).trans ?_
  rfl

/-! ### The score product -/

theorem lhs_kq_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_kq_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_kq_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_kq_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- Rows against rows: entry `(r, j)` of the product is the sum over the shared axis of row `r` times row `j`. -/
theorem matmul_kq_apply (a b : FVec Ideal S512x1024 .bf16) (r j : Fin 512) :
    matmul dot_S512x1024_S512x1024_S512x512_1_1_0_0_n_n none a b (constant (F := Ideal) S512x512 .f32 0x00000000#32) (ix2 r j)
      = ∑ e : Fin 1024, a (ix2 r e) * b (ix2 j e) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 r j) ((ValueIdx.contrEquiv1 dot_S512x1024_S512x1024_S512x512_1_1_0_0_n_n 1024 rfl rfl).symm k) = ix2 r k := funext fun a => Fin.ext (by
    match a with
    | ⟨0, _⟩ => exact lhs_kq_0 _ _
    | ⟨1, _⟩ => exact (lhs_kq_1 _ _).trans hk)
  have er : dot_S512x1024_S512x1024_S512x512_1_1_0_0_n_n.rhsIdx (ix2 r j) ((ValueIdx.contrEquiv1 dot_S512x1024_S512x1024_S512x512_1_1_0_0_n_n 1024 rfl rfl).symm k) = ix2 j k := funext fun a => Fin.ext (by
    match a with
    | ⟨0, _⟩ => exact rhs_kq_0 _ _
    | ⟨1, _⟩ => exact (rhs_kq_1 _ _).trans hk)
  rw [el, er]

/-! ### The visibility mask -/

theorem word_off (x c : ℕ) (hx : x < 512) (hc : c < 4) :
    IntOp.addi (BitVec.ofNat 32 x) (Scalar.muli (BitVec.ofNat 32 c) 512#32) = BitVec.ofNat 32 (c * 512 + x) := by
  apply BitVec.eq_of_toNat_eq
  simp only [IntOp.addi, Scalar.muli, IntOp.muli, BitVec.toNat_add, BitVec.toNat_mul, BitVec.toNat_ofNat]
  omega

theorem mask_bit (kb qb : ℕ) (hkb : kb < 4) (hqb : qb < 4) (r j : Fin 512)
    (h0 : S512x1.Iotas .tc 32 [0]) (h1 : S1x512.Iotas .tc 32 [1]) (hb1 : S1x512.Broadcasts S512x512) (hb0 : S512x1.Broadcasts S512x512) :
    cmpi .sge (broadcastTo S512x512 (addi (iota .tc S1x512 32 [1] h1) (broadcast S1x512 (Scalar.muli (BitVec.ofNat 32 qb) 512#32))) hb1)
        (broadcastTo S512x512 (addi (iota .tc S512x1 32 [0] h0) (broadcast S512x1 (Scalar.muli (BitVec.ofNat 32 kb) 512#32))) hb0) (ix2 r j) = 1#1
      ↔ kb * 512 + r.val ≤ qb * 512 + j.val := by
  show IntOp.cmpi .sge (broadcastTo S512x512 _ hb1 (ix2 r j)) (broadcastTo S512x512 _ hb0 (ix2 r j)) = 1#1 ↔ _
  rw [broadcastTo_1b_ab_apply, broadcastTo_a1_ab_apply]
  show IntOp.cmpi .sge (IntOp.addi (iota .tc S1x512 32 [1] h1 (ix2 (0 : Fin 1) j)) (Scalar.muli (BitVec.ofNat 32 qb) 512#32))
      (IntOp.addi (iota .tc S512x1 32 [0] h0 (ix2 r (0 : Fin 1))) (Scalar.muli (BitVec.ofNat 32 kb) 512#32)) = 1#1 ↔ _
  rw [iota_single_apply, iota_single_apply]
  show IntOp.cmpi .sge (IntOp.addi (BitVec.ofNat 32 j.val) _) (IntOp.addi (BitVec.ofNat 32 r.val) _) = 1#1 ↔ _
  rw [word_off j.val qb j.isLt hqb, word_off r.val kb r.isLt hkb]
  have hr := r.isLt
  have hj := j.isLt
  rw [StableHlo.Predicate.sge_iff_toNat (by rw [BitVec.toNat_ofNat]; omega) (by rw [BitVec.toNat_ofNat]; omega), BitVec.toNat_ofNat, BitVec.toNat_ofNat]
  omega

/-! ### The masked block, the new maximum, the new sum -/

theorem neg_big_bot : Named.named (F := Ideal) κ "neg_big" (φ := .f32) 0xF149F2CA#32 = ⊥ :=
  IdealRules.named_const.ideal_named_scalar _ _ _ _ rfl

/-- A lane sum of a square block, at row `r`. -/
theorem rowsum_apply (src : FVec Ideal S512x512 .f32) (h : S512x512.Reduces [1] S512) (hφ : FKind.Formats .f32)
    (hacc : (0x00000000#32 : BitVec 32) = FKind.add.neutral .f32 hφ) (r : Fin 512) :
    multiReduction .add [1] S512 src 0x00000000#32 h hφ hacc (ix1 r) = ∑ k : Fin 512, src (ix2 r k) := by
  refine (Ideal.multiReduction_add_single src _ h hφ hacc (ix1 r)).trans ?_
  exact Finset.sum_congr rfl fun k _ => congrArg src (lift_row h r k)

/-- A lane maximum of a square block, at row `r`. -/
theorem rowmax_apply (src : FVec Ideal S512x512 .f32) (h : S512x512.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = (Finset.univ : Finset (Fin 512)).fold max ⊥ (fun k => src (ix2 r k)) := by
  refine (Ideal.multiReduction_maximumf_single src _ h hφ hacc (ix1 r)).trans ?_
  have e : (src ∘ h.lift (ix1 r)) = fun k : Fin 512 => src (ix2 r k) := funext fun k => congrArg src (lift_row h r k)
  exact (congrArg (fun g => (Finset.univ : Finset (Fin 512)).fold max (FloatOps.ofBits (F := Ideal) .f32 0xFF800000#32) g) e).trans
    (congrArg (fun z => (Finset.univ : Finset (Fin 512)).fold max z (fun k => src (ix2 r k))) bot_f32)

theorem pay5_eq (a1 a2 : BitVec 32) (xk xq : Vec Ideal S1x512x1024 .bf16) :
    k1_pay5 a1 a2 xk xq
      = select (cmpi .sge (broadcastTo S512x512 (addi (iota .tc S1x512 32 [1] Facts₀.iota_S1x512_d1_w32) (broadcast S1x512 (Scalar.muli a2 512#32))) Facts₀.broadcasts_S1x512_S512x512)
          (broadcastTo S512x512 (addi (iota .tc S512x1 32 [0] Facts₀.iota_S512x1_d0_w32) (broadcast S512x1 (Scalar.muli a1 512#32))) Facts₀.broadcasts_S512x1_S512x512))
          (matmul dot_S512x1024_S512x1024_S512x512_1_1_0_0_n_n none (shapeCast S512x1024 xk Facts₀.shapeCasts_S1x512x1024_S512x1024 : FVec Ideal S512x1024 .bf16)
            (shapeCast S512x1024 xq Facts₀.shapeCasts_S1x512x1024_S512x1024 : FVec Ideal S512x1024 .bf16) (constant (F := Ideal) S512x512 .f32 0x00000000#32))
          (broadcast S512x512 (Named.named (F := Ideal) κ "neg_big" (φ := .f32) 0xF149F2CA#32)) := rfl

/-- The block of masked scores: key row `r` against query row `j` where the key is not after the query, `⊥` elsewhere. -/
theorem pay5_apply (kb qb : ℕ) (hkb : kb < 4) (hqb : qb < 4) (xk xq : Vec Ideal S1x512x1024 .bf16) (r j : Fin 512) :
    k1_pay5 (BitVec.ofNat 32 kb) (BitVec.ofNat 32 qb) xk xq (ix2 r j)
      = if kb * 512 + r.val ≤ qb * 512 + j.val then ∑ e : Fin 1024, xk (ix3 (0 : Fin 1) r e) * xq (ix3 (0 : Fin 1) j e) else ⊥ := by
  rw [pay5_eq, select_apply]
  by_cases hv : kb * 512 + r.val ≤ qb * 512 + j.val
  · rw [if_pos hv, (mask_bit kb qb hkb hqb r j _ _ _ _).mpr hv, select_one]
    refine (matmul_kq_apply _ _ r j).trans ?_
    refine Finset.sum_congr rfl fun e _ => ?_
    rw [shapeCast_1ab_ab_apply, shapeCast_1ab_ab_apply]
  · rw [if_neg hv, eq_zero_of_ne_one (fun h => hv ((mask_bit kb qb hkb hqb r j _ _ _ _).mp h)), select_zero]
    exact neg_big_bot

/-- The new maximum of row `r`: the larger of the old one and the row's largest masked score. -/
theorem pay6_apply (a1 a2 : BitVec 32) (xk xq : Vec Ideal S1x512x1024 .bf16) (m : Vec Ideal S512x1 .f32) (r : Fin 512) :
    k1_pay6 a1 a2 xk xq m (ix2 r (0 : Fin 1))
      = max (m (ix2 r (0 : Fin 1))) ((Finset.univ : Finset (Fin 512)).fold max ⊥ (fun j => k1_pay5 a1 a2 xk xq (ix2 r j))) := by
  unfold k1_pay6
  refine (maximumf_apply _ _ _).trans ?_
  refine congrArg (max (m (ix2 r (0 : Fin 1)))) ?_
  refine (shapeCast_a_a1_apply _ _ r (0 : Fin 1)).trans ?_
  exact rowmax_apply _ _ _ _ r

/-- The new sum of row `r`: the old sum rescaled to the new maximum, plus the row's exponentials against it. -/
theorem pay7_apply (a1 a2 : BitVec 32) (xk xq : Vec Ideal S1x512x1024 .bf16) (m m' l : Vec Ideal S512x1 .f32) (r : Fin 512) :
    k1_pay7 a1 a2 xk xq m m' l (ix2 r (0 : Fin 1))
      = Ideal.exp (m' (ix2 r (0 : Fin 1)) - k1_pay6 a1 a2 xk xq m (ix2 r (0 : Fin 1))) * l (ix2 r (0 : Fin 1))
        + ∑ j : Fin 512, Ideal.exp (k1_pay5 a1 a2 xk xq (ix2 r j) - k1_pay6 a1 a2 xk xq m (ix2 r (0 : Fin 1))) := by
  unfold k1_pay7
  rw [shapeCast_self]
  refine (addf_apply _ _ _).trans ?_
  refine congrArg₂ (· + ·) rfl ?_
  refine (shapeCast_a_a1_apply _ _ r (0 : Fin 1)).trans ?_
  refine (rowsum_apply _ _ _ _ r).trans ?_
  refine Finset.sum_congr rfl fun k _ => ?_
  show Ideal.exp (k1_pay5 a1 a2 xk xq (ix2 r k) - broadcastTo S512x512 (k1_pay6 a1 a2 xk xq m) _ (ix2 r k)) = _
  rw [broadcastTo_a1_ab_apply]

/-! ## What a point's two input blocks hold -/

section Blocks
variable (V : (c : Dev nD) → (b : Ref sig .tc) → Buf (Elt Ideal) ((c : Thread nD τ).loc b))

/-- The key and query arrays as the call finds them, and the key and query blocks a point reads. -/
abbrev karr (c : Dev nD) : Spec.A3 := V c main_v6
abbrev qarr (c : Dev nD) : Spec.A3 := V c main_v5
abbrev kblk (c : Dev nD) (t : Fin cfg1.N) : Vec Ideal S1x512x1024 .bf16 := iblk1 V c 0 t
abbrev qblk (c : Dev nD) (t : Fin cfg1.N) : Vec Ideal S1x512x1024 .bf16 := iblk1 V c 1 t

/-- Row `r` of the key block at point `t` is key `512 kb + r` of batch `b`. -/
theorem kblk_apply (c : Dev nD) (t : Fin cfg1.N) (r : Fin 512) (e : Fin 1024) (b : Fin 8) (k : Fin 2048)
    (hb : b.val = t.val / 16) (hk : k.val = t.val / 4 % 4 * 512 + r.val) :
    kblk V c t (ix3 (0 : Fin 1) r e) = karr V c (ix3 b k e) := by
  unfold kblk iblk1
  rw [View.read_apply]
  show V c main_v6 _ = V c main_v6 _
  refine congrArg (V c main_v6) (funext fun a => Fin.ext ?_)
  obtain ⟨e0, e1, e2, -⟩ := idx1_facts t
  match a with
  | ⟨0, _⟩ => show win1_0.index t (0 : Fin 3) * 1 + 1 * (0 : Fin 1).val = b.val; omega
  | ⟨1, _⟩ => show win1_0.index t (1 : Fin 3) * 512 + 1 * r.val = k.val; omega
  | ⟨2, _⟩ => show win1_0.index t (2 : Fin 3) * 1024 + 1 * e.val = e.val; omega

/-- Row `j` of the query block at point `t` is query `512 max(qb, kb) + j` of batch `b`. -/
theorem qblk_apply (c : Dev nD) (t : Fin cfg1.N) (j : Fin 512) (e : Fin 1024) (b : Fin 8) (q : Fin 2048)
    (hb : b.val = t.val / 16) (hq : q.val = max (t.val % 4) (t.val / 4 % 4) * 512 + j.val) :
    qblk V c t (ix3 (0 : Fin 1) j e) = qarr V c (ix3 b q e) := by
  unfold qblk iblk1
  rw [View.read_apply]
  show V c main_v5 _ = V c main_v5 _
  refine congrArg (V c main_v5) (funext fun a => Fin.ext ?_)
  obtain ⟨-, -, -, e0, e1, e2, -⟩ := idx1_facts t
  match a with
  | ⟨0, _⟩ => show win1_1.index t (0 : Fin 3) * 1 + 1 * (0 : Fin 1).val = b.val; omega
  | ⟨1, _⟩ => show win1_1.index t (1 : Fin 3) * 512 + 1 * j.val = q.val; omega
  | ⟨2, _⟩ => show win1_1.index t (2 : Fin 3) * 1024 + 1 * e.val = e.val; omega

end Blocks

/-! ## One row, one block -/

section Row

open Cert.Proof.OnlineLse

/-- The columns of the query blocks `kb ≤ · < qb`, and those of block `qb`. -/
def cols (kb qb : ℕ) : Finset (Fin 2048) := Finset.univ.filter fun q => kb * 512 ≤ q.val ∧ q.val < qb * 512
def blkCols (qb : ℕ) : Finset (Fin 2048) := Finset.univ.filter fun q => qb * 512 ≤ q.val ∧ q.val < (qb + 1) * 512

theorem mem_cols {kb qb : ℕ} {q : Fin 2048} : q ∈ cols kb qb ↔ kb * 512 ≤ q.val ∧ q.val < qb * 512 := by
  unfold cols; rw [Finset.mem_filter]; exact ⟨fun h => h.2, fun h => ⟨Finset.mem_univ _, h⟩⟩

theorem mem_blkCols {qb : ℕ} {q : Fin 2048} : q ∈ blkCols qb ↔ qb * 512 ≤ q.val ∧ q.val < (qb + 1) * 512 := by
  unfold blkCols; rw [Finset.mem_filter]; exact ⟨fun h => h.2, fun h => ⟨Finset.mem_univ _, h⟩⟩

theorem cols_empty {kb qb : ℕ} (h : qb ≤ kb) : cols kb qb = ∅ := by
  apply Finset.eq_empty_of_forall_notMem
  intro q hq
  rw [mem_cols] at hq
  have : qb * 512 ≤ kb * 512 := Nat.mul_le_mul_right _ h
  omega

theorem cols_succ {kb qb : ℕ} (h : kb ≤ qb) : cols kb (qb + 1) = cols kb qb ∪ blkCols qb := by
  ext q
  rw [Finset.mem_union, mem_cols, mem_cols, mem_blkCols]
  have : kb * 512 ≤ qb * 512 := Nat.mul_le_mul_right _ h
  omega

/-- A maximum folded from `⊥` over a nonempty set is attained. -/
theorem fold_max_attained {ι : Type} [DecidableEq ι] (s : Finset ι) (hs : s.Nonempty) (g : ι → EReal) :
    ∃ i ∈ s, s.fold max ⊥ g = g i := by
  induction s using Finset.induction_on with
  | empty => exact absurd hs Finset.not_nonempty_empty
  | insert a s ha ih =>
    rw [Finset.fold_insert ha]
    by_cases hs' : s.Nonempty
    · obtain ⟨i, hi, e⟩ := ih hs'
      rw [e]
      rcases max_choice (g a) (g i) with h | h
      · exact ⟨a, Finset.mem_insert_self _ _, h⟩
      · exact ⟨i, Finset.mem_insert_of_mem hi, h⟩
    · rw [Finset.not_nonempty_iff_eq_empty] at hs'
      subst hs'
      exact ⟨a, Finset.mem_insert_self _ _, by rw [Finset.fold_empty, max_eq_left bot_le]⟩

/-- The column of block `qb` at lane `j`. -/
def colAt (qb : ℕ) (hqb : qb < 4) (j : Fin 512) : Fin 2048 := ⟨qb * 512 + j.val, by have := j.isLt; omega⟩

/-- Folding block `qb` into a row's state over the blocks before it: `g` is the block's row of masked scores. -/
theorem row_step (f : Fin 2048 → ℝ) (vis : Fin 2048 → Prop) [DecidablePred vis] (kb qb : ℕ) (hkq : kb ≤ qb) (hqb : qb < 4)
    (g : Fin 512 → EReal) (hg : ∀ j : Fin 512, g j = mskd f vis (colAt qb hqb j))
    (m l : EReal) (h : Inv f vis (cols kb qb) m l) :
    Inv f vis (cols kb (qb + 1)) (max m ((Finset.univ : Finset (Fin 512)).fold max ⊥ g))
      (Ideal.exp (m - max m ((Finset.univ : Finset (Fin 512)).fold max ⊥ g)) * l
        + ∑ j : Fin 512, Ideal.exp (g j - max m ((Finset.univ : Finset (Fin 512)).fold max ⊥ g))) := by
  rw [cols_succ hkq]
  have hmemcol : ∀ j, colAt qb hqb j ∈ blkCols qb := fun j => by
    rw [mem_blkCols]
    show qb * 512 ≤ qb * 512 + j.val ∧ qb * 512 + j.val < (qb + 1) * 512
    have := j.isLt
    omega
  have hsurj : ∀ q ∈ blkCols qb, ∃ j, colAt qb hqb j = q := fun q hq => by
    rw [mem_blkCols] at hq
    exact ⟨⟨q.val - qb * 512, by omega⟩, Fin.ext (by show qb * 512 + (q.val - qb * 512) = q.val; omega)⟩
  refine inv_step f vis (cols kb qb) (blkCols qb) ?_ ⟨colAt qb hqb 0, hmemcol 0⟩ m l _ _ h ?_ ?_ ?_
  · rw [Finset.disjoint_left]
    intro q h1 h2
    rw [mem_cols] at h1
    rw [mem_blkCols] at h2
    omega
  · intro q hq
    obtain ⟨j, rfl⟩ := hsurj q hq
    rw [← hg j]
    exact (Finset.le_fold_max _).2 (Or.inr ⟨j, Finset.mem_univ _, le_refl _⟩)
  · obtain ⟨j, -, e⟩ := fold_max_attained Finset.univ Finset.univ_nonempty g
    exact ⟨colAt qb hqb j, hmemcol j, by rw [← hg j, e]⟩
  · refine Finset.sum_bij (fun j _ => colAt qb hqb j) (fun j _ => hmemcol j) ?_ ?_ ?_
    · intro j₁ _ j₂ _ e
      apply Fin.ext
      have := congrArg Fin.val e
      simp only [colAt] at this
      omega
    · intro q hq
      obtain ⟨j, e⟩ := hsurj q hq
      exact ⟨j, Finset.mem_univ _, e⟩
    · intro j _
      rw [hg j]

end Row

/-! ## The carried pair, point by point -/

section Carried
variable (V : (c : Dev nD) → (b : Ref sig .tc) → Buf (Elt Ideal) ((c : Thread nD τ).loc b))
open Cert.Proof.OnlineLse

/-- The real score of key `k` against query `q`, in batch `b`. -/
def fsc (c : Dev nD) (b : Fin 8) (k q : Fin 2048) : ℝ := (Spec.score (karr V c) (qarr V c) b k q).toReal

theorem score_real (c : Dev nD) (hK : Spec.IsReal (karr V c)) (hQ : Spec.IsReal (qarr V c)) (b : Fin 8) (k q : Fin 2048) :
    Spec.score (karr V c) (qarr V c) b k q = ((fsc V c b k q : ℝ) : EReal) := by
  choose a ha using hK
  choose d hd using hQ
  unfold fsc
  rw [Spec.score_coe (karr V c) (qarr V c) a d ha hd b k q, EReal.toReal_coe]

/-- Row `r` of the block of masked scores at a point that folds: the masked scores of key `512 kb + r` against the
    columns of query block `qb`. -/
theorem pay5_row (c : Dev nD) (hK : Spec.IsReal (karr V c)) (hQ : Spec.IsReal (qarr V c)) (t : Fin cfg1.N)
    (hkq : t.val / 4 % 4 ≤ t.val % 4) (b : Fin 8) (hb : b.val = t.val / 16)
    (r : Fin 512) (k : Fin 2048) (hk : k.val = t.val / 4 % 4 * 512 + r.val) (j : Fin 512) :
    k1_pay5 (BitVec.ofNat 32 (grid1.coords t 1).val) (BitVec.ofNat 32 (grid1.coords t 2).val) (kblk V c t) (qblk V c t) (ix2 r j)
      = mskd (fsc V c b k) (fun q => k ≤ q) (colAt (t.val % 4) (Nat.mod_lt _ (by decide)) j) := by
  obtain ⟨-, c1, c2⟩ := coords1_val t
  rw [c1, c2, pay5_apply (t.val / 4 % 4) (t.val % 4) (Nat.mod_lt _ (by decide)) (Nat.mod_lt _ (by decide))]
  unfold mskd
  have hvis : (t.val / 4 % 4 * 512 + r.val ≤ t.val % 4 * 512 + j.val) ↔ k ≤ colAt (t.val % 4) (Nat.mod_lt _ (by decide)) j := by
    rw [Fin.le_def]
    show _ ↔ k.val ≤ t.val % 4 * 512 + j.val
    rw [hk]
  by_cases hv : t.val / 4 % 4 * 512 + r.val ≤ t.val % 4 * 512 + j.val
  · rw [if_pos hv, if_pos (hvis.mp hv), ← score_real V c hK hQ]
    unfold Spec.score
    refine Finset.sum_congr rfl fun e _ => ?_
    rw [kblk_apply V c t r e b k hb hk,
      qblk_apply V c t j e b (colAt (t.val % 4) (Nat.mod_lt _ (by decide)) j) hb
        (by show t.val % 4 * 512 + j.val = max (t.val % 4) (t.val / 4 % 4) * 512 + j.val; rw [max_eq_left hkq])]
  · rw [if_neg hv, if_neg (fun h => hv (hvis.mpr h))]

/-- What a point starts from: the reset values at the first query block, else what it finds. -/
def start1 (i : grid1.Coords) (s : Vec Ideal S512x1 .f32 × Vec Ideal S512x1 .f32) : Vec Ideal S512x1 .f32 × Vec Ideal S512x1 .f32 :=
  if cond1_0 i then ((k1_pay1 (F := Ideal)), (k1_pay2 (F := Ideal))) else s

theorem scStep1_fold (i : grid1.Coords) (xk xq : Vec Ideal S1x512x1024 .bf16) (s : Vec Ideal S512x1 .f32 × Vec Ideal S512x1 .f32)
    (h1 : cond1_1 i) :
    scStep1 i xk xq s
      = (k1_pay3 (k1_pay6 (BitVec.ofNat 32 (i 1).val) (BitVec.ofNat 32 (i 2).val) xk xq (start1 i s).1),
         k1_pay7 (BitVec.ofNat 32 (i 1).val) (BitVec.ofNat 32 (i 2).val) xk xq (start1 i s).1 (start1 i s).1 (start1 i s).2) := by
  unfold scStep1 start1
  exact if_pos h1

theorem scStep1_skip (i : grid1.Coords) (xk xq : Vec Ideal S1x512x1024 .bf16) (s : Vec Ideal S512x1 .f32 × Vec Ideal S512x1 .f32)
    (h1 : ¬cond1_1 i) : scStep1 i xk xq s = start1 i s := by
  unfold scStep1 start1
  exact if_neg h1

theorem start_inv (c : Dev nD) (t : Fin cfg1.N) (s : Vec Ideal S512x1 .f32 × Vec Ideal S512x1 .f32) (b : Fin 8) (kb : ℕ)
    (r : Fin 512) (k : Fin 2048)
    (hprev : t.val % 4 ≠ 0 → Inv (fsc V c b k) (fun q => k ≤ q) (cols kb (t.val % 4)) (s.1 (ix2 r (0 : Fin 1))) (s.2 (ix2 r (0 : Fin 1)))) :
    Inv (fsc V c b k) (fun q => k ≤ q) (cols kb (t.val % 4)) ((start1 (grid1.coords t) s).1 (ix2 r (0 : Fin 1)))
      ((start1 (grid1.coords t) s).2 (ix2 r (0 : Fin 1))) := by
  unfold start1
  by_cases h0 : t.val % 4 = 0
  · rw [if_pos ((cond1_0_iff t).mpr h0)]
    show Inv _ _ _ ((k1_pay1 (F := Ideal)) (ix2 r (0 : Fin 1))) ((k1_pay2 (F := Ideal)) (ix2 r (0 : Fin 1)))
    rw [pay1_apply, pay2_apply, h0, cols_empty (Nat.zero_le kb)]
    exact inv_empty _ _
  · rw [if_neg (fun h => h0 ((cond1_0_iff t).mp h))]
    exact hprev h0

/-- One point: from the state over the blocks before the point's to the state over those and the point's. -/
theorem step_inv (c : Dev nD) (hK : Spec.IsReal (karr V c)) (hQ : Spec.IsReal (qarr V c)) (t : Fin cfg1.N)
    (s : Vec Ideal S512x1 .f32 × Vec Ideal S512x1 .f32) (b : Fin 8) (hb : b.val = t.val / 16)
    (r : Fin 512) (k : Fin 2048) (hk : k.val = t.val / 4 % 4 * 512 + r.val)
    (hprev : t.val % 4 ≠ 0 → Inv (fsc V c b k) (fun q => k ≤ q) (cols (t.val / 4 % 4) (t.val % 4)) (s.1 (ix2 r (0 : Fin 1))) (s.2 (ix2 r (0 : Fin 1)))) :
    Inv (fsc V c b k) (fun q => k ≤ q) (cols (t.val / 4 % 4) (t.val % 4 + 1))
      ((scStep1 (grid1.coords t) (kblk V c t) (qblk V c t) s).1 (ix2 r (0 : Fin 1)))
      ((scStep1 (grid1.coords t) (kblk V c t) (qblk V c t) s).2 (ix2 r (0 : Fin 1))) := by
  have hs := start_inv V c t s b (t.val / 4 % 4) r k hprev
  by_cases hkq : t.val / 4 % 4 ≤ t.val % 4
  · rw [scStep1_fold _ _ _ _ ((cond1_1_iff t).mpr hkq)]
    show Inv _ _ _ (k1_pay3 (F := Ideal) (k1_pay6 (F := Ideal) _ _ _ _ _) (ix2 r (0 : Fin 1))) (k1_pay7 (F := Ideal) _ _ _ _ _ _ _ (ix2 r (0 : Fin 1)))
    rw [pay3_eq, pay6_apply, pay7_apply, pay6_apply]
    exact row_step (fsc V c b k) (fun q => k ≤ q) (t.val / 4 % 4) (t.val % 4) hkq (Nat.mod_lt _ (by decide)) _
      (fun j => pay5_row V c hK hQ t hkq b hb r k hk j) _ _ hs
  · rw [scStep1_skip _ _ _ _ (fun h => hkq ((cond1_1_iff t).mp h))]
    rw [cols_empty (by omega : t.val % 4 + 1 ≤ t.val / 4 % 4)]
    rw [cols_empty (by omega : t.val % 4 ≤ t.val / 4 % 4)] at hs
    exact hs

/-- After the point at position `n`, row `r` of the pair is the state of key `512 kb + r` over the columns of the query
    blocks `kb … qb`. -/
theorem scAt_inv (c : Dev nD) (hK : Spec.IsReal (karr V c)) (hQ : Spec.IsReal (qarr V c)) :
    ∀ (n : ℕ) (hn : n < cfg1.N) (b : Fin 8) (hb : b.val = n / 16) (r : Fin 512) (k : Fin 2048) (hk : k.val = n / 4 % 4 * 512 + r.val),
      Inv (fsc V c b k) (fun q => k ≤ q) (cols (n / 4 % 4) (n % 4 + 1))
        ((scAt1 V c n hn).1 (ix2 r (0 : Fin 1))) ((scAt1 V c n hn).2 (ix2 r (0 : Fin 1)))
  | 0, hn, b, hb, r, k, hk => by
    have e : scAt1 V c 0 hn = scStep1 (grid1.coords ⟨0, hn⟩) (kblk V c ⟨0, hn⟩) (qblk V c ⟨0, hn⟩) ((k1_pay1 (F := Ideal)), (k1_pay2 (F := Ideal))) := rfl
    rw [e]
    exact step_inv V c hK hQ ⟨0, hn⟩ ((k1_pay1 (F := Ideal)), (k1_pay2 (F := Ideal))) b hb r k hk (fun h => absurd rfl h)
  | n + 1, hn, b, hb, r, k, hk => by
    have e : scAt1 V c (n + 1) hn
        = scStep1 (grid1.coords ⟨n + 1, hn⟩) (kblk V c ⟨n + 1, hn⟩) (qblk V c ⟨n + 1, hn⟩) (scAt1 V c n (Nat.lt_of_succ_lt hn)) := rfl
    rw [e]
    refine step_inv V c hK hQ ⟨n + 1, hn⟩ (scAt1 V c n (Nat.lt_of_succ_lt hn)) b hb r k hk (fun h4 => ?_)
    have h4' : (n + 1) % 4 ≠ 0 := h4
    have e1 : (n + 1) / 4 % 4 = n / 4 % 4 := by omega
    have e2 : (n + 1) % 4 = n % 4 + 1 := by omega
    have ih := scAt_inv c hK hQ n (Nat.lt_of_succ_lt hn) b (by omega) r k (by omega)
    show Inv _ _ (cols ((n + 1) / 4 % 4) ((n + 1) % 4)) _ _
    rw [e1, e2]
    exact ih

end Carried

/-! ## The stored block, and the array -/

section Final
variable (V : (c : Dev nD) → (b : Ref sig .tc) → Buf (Elt Ideal) ((c : Thread nD τ).loc b))
open Cert.Proof.OnlineLse

/-- At the last query block, entry `r` of the stored block is the logarithm of the sum, over the queries that see key
    `512 kb + r`, of the exponentials of its scores. -/
theorem lse_row (c : Dev nD) (hK : Spec.IsReal (karr V c)) (hQ : Spec.IsReal (qarr V c)) (t : Fin cfg1.N) (h3 : t.val % 4 = 3)
    (b : Fin 8) (hb : b.val = t.val / 16) (r : Fin 512) (k : Fin 2048) (hk : k.val = t.val / 4 % 4 * 512 + r.val) :
    lseAt1 V c t (ix3 (0 : Fin 1) (0 : Fin 1) r) = Spec.lseSpec (karr V c) (qarr V c) (ix3 b (0 : Fin 1) k) := by
  unfold lseAt1
  rw [pay4_apply, Spec.lseSpec_apply]
  have hinv := scAt_inv V c hK hQ t.val t.isLt b hb r k hk
  rw [h3] at hinv
  have hkk : k ∈ cols (t.val / 4 % 4) (3 + 1) := mem_cols.mpr ⟨by omega, by have := k.isLt; omega⟩
  rw [inv_final _ _ _ _ _ hinv ⟨k, hkk, le_refl k⟩]
  have hf : (cols (t.val / 4 % 4) (3 + 1)).filter (fun q => k ≤ q) = Finset.univ.filter (fun q : Fin 2048 => k ≤ q) := by
    ext q
    rw [Finset.mem_filter, Finset.mem_filter, mem_cols]
    constructor
    · exact fun h => ⟨Finset.mem_univ _, h.2⟩
    · intro h
      have h1 : k.val ≤ q.val := Fin.le_def.mp h.2
      have h2 := q.isLt
      exact ⟨⟨by omega, by omega⟩, h.2⟩
  rw [hf, Finset.sum_filter]
  rfl

/-- An index of the result array is in point `t`'s block iff each coordinate is in the block's range on its axis. -/
theorem mem_blk_lse (t : Fin cfg1.N) (i : S8x1x2048.Idx) :
    i ∈ ((cfg1.win 2).blk t).view.set ↔ ∀ a : Fin 3, win1_2.index t a * S1x1x512.size a ≤ (i a).val
      ∧ (i a).val < win1_2.index t a * S1x1x512.size a + S1x1x512.size a := by
  show i ∈ ((View.whole main_v8).slice (win1_2.rect t)).set ↔ _
  rw [View.set_slice_whole, Rect.mem_set_unit]
  exact Iff.rfl

/-- What a storing point writes back is its block of the logarithms. -/
theorem flushed_lse (c : Dev nD) (hK : Spec.IsReal (karr V c)) (hQ : Spec.IsReal (qarr V c)) (t : Fin cfg1.N)
    (hf : (cfg1.win 2).flush t = true) :
    (dat1 (F := Ideal) V c).flushed 2 t = ((cfg1.win 2).blk t).view.read (Elt Ideal) (Spec.lseSpec (karr V c) (qarr V c)) := by
  have h3 : t.val % 4 = 3 := (flush1_2 t).mp hf
  have hN : t.val < 128 := lt_of_lt_of_eq t.isLt N1
  show (cfg1.win 2).cut (grid1.coords t) ((dat1 (F := Ideal) V c).after 2 t) = _
  rw [after1_2]
  funext j
  obtain ⟨u0, u1, r, rfl⟩ : ∃ (u0 : Fin 1) (u1 : Fin 1) (r : Fin 512), j = ix3 u0 u1 r := ⟨j 0, j 1, j 2, eq_ix3 j⟩
  obtain rfl : u0 = 0 := Subsingleton.elim _ _
  obtain rfl : u1 = 0 := Subsingleton.elim _ _
  rw [View.read_apply]
  show lseAt1 V c t (ix3 (0 : Fin 1) (0 : Fin 1) r) = Spec.lseSpec (karr V c) (qarr V c) (((cfg1.win 2).blk t).view.emb (ix3 (0 : Fin 1) (0 : Fin 1) r))
  have hr := r.isLt
  have hemb : ((cfg1.win 2).blk t).view.emb (ix3 (0 : Fin 1) (0 : Fin 1) r)
      = ix3 (⟨t.val / 16, by omega⟩ : Fin 8) (0 : Fin 1) (⟨t.val / 4 % 4 * 512 + r.val, by omega⟩ : Fin 2048) := by
    obtain ⟨-, -, -, -, -, -, e0, e1, e2⟩ := idx1_facts t
    funext a
    apply Fin.ext
    match a with
    | ⟨0, _⟩ => show win1_2.index t (0 : Fin 3) * 1 + 1 * (0 : Fin 1).val = t.val / 16; omega
    | ⟨1, _⟩ => show win1_2.index t (1 : Fin 3) * 1 + 1 * (0 : Fin 1).val = 0; omega
    | ⟨2, _⟩ => show win1_2.index t (2 : Fin 3) * 512 + 1 * r.val = t.val / 4 % 4 * 512 + r.val; omega
  rw [hemb]
  exact lse_row V c hK hQ t h3 _ rfl r _ rfl

/-- Every entry of the result array is in the block of some storing point. -/
theorem cover_lse (i : S8x1x2048.Idx) :
    ∃ t : Fin cfg1.N, (cfg1.win 2).flush t = true ∧ i ∈ ((cfg1.win 2).blk t).view.set := by
  have h0 : (i 0).val < 8 := (i 0).isLt
  have h1 : (i 1).val < 1 := (i 1).isLt
  have h2 : (i 2).val < 2048 := (i 2).isLt
  have hlt : 16 * (i 0).val + 4 * ((i 2).val / 512) + 3 < cfg1.N := by rw [N1]; omega
  refine ⟨⟨16 * (i 0).val + 4 * ((i 2).val / 512) + 3, hlt⟩, (flush1_2 _).mpr (by show (16 * (i 0).val + 4 * ((i 2).val / 512) + 3) % 4 = 3; omega), ?_⟩
  rw [mem_blk_lse]
  obtain ⟨-, -, -, -, -, -, e0, e1, e2⟩ := idx1_facts ⟨16 * (i 0).val + 4 * ((i 2).val / 512) + 3, hlt⟩
  have v : (⟨16 * (i 0).val + 4 * ((i 2).val / 512) + 3, hlt⟩ : Fin cfg1.N).val = 16 * (i 0).val + 4 * ((i 2).val / 512) + 3 := rfl
  rw [v] at e0 e2
  intro a
  match a with
  | ⟨0, _⟩ =>
    show win1_2.index _ (0 : Fin 3) * 1 ≤ (i 0).val ∧ (i 0).val < win1_2.index _ (0 : Fin 3) * 1 + 1
    rw [e0]; omega
  | ⟨1, _⟩ =>
    show win1_2.index _ (1 : Fin 3) * 1 ≤ (i 1).val ∧ (i 1).val < win1_2.index _ (1 : Fin 3) * 1 + 1
    rw [e1]; omega
  | ⟨2, _⟩ =>
    show win1_2.index _ (2 : Fin 3) * 512 ≤ (i 2).val ∧ (i 2).val < win1_2.index _ (2 : Fin 3) * 512 + 512
    rw [e2]; omega

end Final

end Cert.Proof.Value.Lse

namespace Cert.Proof.Value

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Proof

variable (V : (c : Dev nD) → (b : Ref sig .tc) → Buf (Elt Ideal) ((c : Thread nD τ).loc b))

theorem arr1_2 (c : Dev nD) (hK : Spec.IsReal (V c main_v6 : Spec.A3)) (hQ : Spec.IsReal (V c main_v5 : Spec.A3)) :
    (dat1 (F := Ideal) V c).arrAt 2 cfg1.N = Spec.lseSpec (V c main_v6) (V c main_v5) :=
  (dat1 (F := Ideal) V c).arrAt_eq_of_cover 2 (Spec.lseSpec (V c main_v6) (V c main_v5))
    (fun t hf => Lse.flushed_lse V c hK hQ t hf) Lse.cover_lse

end Cert.Proof.Value

end
-- ==== Proof.V2.lean ====
/-
  What the output call leaves in its result array, at the ideal instance: per batch, query and feature the sum
  over the visible keys of `exp (score − the key's stored statistic)` times the value entry.

  The grid is (batch b, query block qb, key block kb), kb innermost. One 512 × 1024 accumulator is carried along kb:
  zero at kb = 0, increased at kb ≤ qb by the 512 × 512 block of weights times the 512 × 1024 value block, stored at
  kb = 3. A weight is the exponential of (query row · key row − the key's statistic), of the bottom of the extended
  reals where the key is after the query; the exponential of the bottom is zero and zero times anything is zero, so a
  masked key adds nothing whatever the arrays hold, and a key block after the query block, which the kernel skips,
  would have added nothing either. Hence after key block kb the accumulator's entry (r, e) is the sum over the keys
  below 512 (kb + 1) of the output's terms at query 512 qb + r, and at kb = 3 that is the whole sum.
-/
import proofs.«416763_j40561671143865_3_alg».proof.Proof.KI.R2Defs
import proofs.«416763_j40561671143865_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
import Idealize.ShloMosaic.Lib.StableHlo.Predicate
import Mathlib.Algebra.BigOperators.Group.Finset.Basic
import Mathlib.Data.Fintype.BigOperators
import Mathlib.Data.EReal.Operations

set_option maxRecDepth 16384

noncomputable section

namespace Cert.Proof.Value

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Proof

variable (V : (c : Dev nD) → (b : Ref sig .tc) → Buf (Elt Ideal) ((c : Thread nD τ).loc b))

namespace Out

/-! ## The two products of the output pass, read at an entry -/

theorem lhs_qk_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_qk_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_qk_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_qk_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- Query rows against key rows: entry (r, j) is the sum over the feature axis of the products. -/
theorem matmul_qk (a b : FVec Ideal S512x1024 .bf16) (r j : Fin 512) :
    matmul dot_S512x1024_S512x1024_S512x512_1_1_0_0_n_n none a b (constant S512x512 .f32 0x00000000#32) (ix2 r j)
      = ∑ d : Fin 1024, a (ix2 r d) * b (ix2 j d) := by
  show FloatOps.matmul dot_S512x1024_S512x1024_S512x512_1_1_0_0_n_n none a b (constant S512x512 .f32 0x00000000#32) (ix2 r j) = _
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 r j) ((ValueIdx.contrEquiv1 dot_S512x1024_S512x1024_S512x512_1_1_0_0_n_n 1024 rfl rfl).symm k) = ix2 r k := funext fun x => Fin.ext (by
    match x with
    | ⟨0, _⟩ => exact lhs_qk_0 _ _
    | ⟨1, _⟩ => exact (lhs_qk_1 _ _).trans hk)
  have er : dot_S512x1024_S512x1024_S512x512_1_1_0_0_n_n.rhsIdx (ix2 r j) ((ValueIdx.contrEquiv1 dot_S512x1024_S512x1024_S512x512_1_1_0_0_n_n 1024 rfl rfl).symm k) = ix2 j k := funext fun x => Fin.ext (by
    match x with
    | ⟨0, _⟩ => exact rhs_qk_0 _ _
    | ⟨1, _⟩ => exact (rhs_qk_1 _ _).trans hk)
  rw [el, er]

theorem lhs_pv_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_pv_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_pv_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_pv_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- Weights against value rows: entry (r, e) is the sum over the block's keys of weight times value. -/
theorem matmul_pv (p : FVec Ideal S512x512 .bf16) (v : FVec Ideal S512x1024 .bf16) (r : Fin 512) (e : Fin 1024) :
    matmul dot_S512x512_S512x1024_S512x1024_1_0_0_1_n_n none p v (constant S512x1024 .f32 0x00000000#32) (ix2 r e)
      = ∑ j : Fin 512, p (ix2 r j) * v (ix2 j e) := by
  show FloatOps.matmul dot_S512x512_S512x1024_S512x1024_1_0_0_1_n_n none p v (constant S512x1024 .f32 0x00000000#32) (ix2 r e) = _
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 r e) ((ValueIdx.contrEquiv1 dot_S512x512_S512x1024_S512x1024_1_0_0_1_n_n 512 rfl rfl).symm k) = ix2 r k := funext fun x => Fin.ext (by
    match x with
    | ⟨0, _⟩ => exact lhs_pv_0 _ _
    | ⟨1, _⟩ => exact (lhs_pv_1 _ _).trans hk)
  have er : dot_S512x512_S512x1024_S512x1024_1_0_0_1_n_n.rhsIdx (ix2 r e) ((ValueIdx.contrEquiv1 dot_S512x512_S512x1024_S512x1024_1_0_0_1_n_n 512 rfl rfl).symm k) = ix2 k e := funext fun x => Fin.ext (by
    match x with
    | ⟨0, _⟩ => exact (rhs_pv_0 _ _).trans hk
    | ⟨1, _⟩ => exact rhs_pv_1 _ _)
  rw [el, er]

/-! ## The mask of the output pass: key after query, on 32-bit words -/

/-- One column copied along every row: entry (r, j) is the column's entry r. -/
theorem bcast_col {α : Type} (v : S512x1.Idx → α) (r j : Fin 512) :
    broadcastTo S512x512 v broadcasts_S512x1_S512x512 (ix2 r j) = v (ix2 r (0 : Fin 1)) := by
  refine broadcastTo_apply v broadcasts_S512x1_S512x512 (ix2 r j) (ix2 r (0 : Fin 1)) fun ax => ?_
  match ax with
  | ⟨0, _⟩ => rfl
  | ⟨1, _⟩ => rfl

/-- The mask bit at (r, j): key position (block offset plus j) against query position (block offset plus r). -/
theorem mask_apply (a1 a2 : BitVec 32) (r j : Fin 512) :
    cmpi .sle (broadcastTo S512x512 (addi (iota .tc S1x512 32 [1] iota_S1x512_d1_w32) (broadcast S1x512 (Scalar.muli a2 512#32))) broadcasts_S1x512_S512x512)
        (broadcastTo S512x512 (addi (iota .tc S512x1 32 [0] iota_S512x1_d0_w32) (broadcast S512x1 (Scalar.muli a1 512#32))) broadcasts_S512x1_S512x512) (ix2 r j)
      = IntOp.cmpi .sle (BitVec.ofNat 32 j.val + a2 * 512#32) (BitVec.ofNat 32 r.val + a1 * 512#32) := by
  show IntOp.cmpi .sle (broadcastTo S512x512 _ broadcasts_S1x512_S512x512 (ix2 r j)) (broadcastTo S512x512 _ broadcasts_S512x1_S512x512 (ix2 r j)) = _
  rw [broadcastTo_1b_ab_apply, bcast_col]
  show IntOp.cmpi .sle (IntOp.addi (iota .tc S1x512 32 [1] iota_S1x512_d1_w32 (ix2 (0 : Fin 1) j)) _) (IntOp.addi (iota .tc S512x1 32 [0] iota_S512x1_d0_w32 (ix2 r (0 : Fin 1))) _) = _
  rw [iota_single_apply, iota_single_apply]
  rfl

/-- On block numbers below 4 the signed comparison of the two words is the comparison of the two positions. -/
theorem sle_words (qb kb : ℕ) (hq : qb < 4) (hk : kb < 4) (r j : Fin 512) :
    IntOp.cmpi .sle (BitVec.ofNat 32 j.val + BitVec.ofNat 32 kb * 512#32) (BitVec.ofNat 32 r.val + BitVec.ofNat 32 qb * 512#32) = 1#1
      ↔ 512 * kb + j.val ≤ 512 * qb + r.val := by
  have hj := j.isLt
  have hr := r.isLt
  have e1 : (BitVec.ofNat 32 j.val + BitVec.ofNat 32 kb * 512#32).toNat = 512 * kb + j.val := by
    simp only [BitVec.toNat_add, BitVec.toNat_mul, BitVec.toNat_ofNat]; omega
  have e2 : (BitVec.ofNat 32 r.val + BitVec.ofNat 32 qb * 512#32).toNat = 512 * qb + r.val := by
    simp only [BitVec.toNat_add, BitVec.toNat_mul, BitVec.toNat_ofNat]; omega
  rw [StableHlo.Predicate.sle_iff_toNat (by rw [e1]; omega) (by rw [e2]; omega), e1, e2]

/-- The masked entry: the value where the key is not after the query, the fill elsewhere. -/
theorem select_words {α : Type} (qb kb : ℕ) (hq : qb < 4) (hk : kb < 4) (r j : Fin 512) (A B : α) :
    Scalar.select (IntOp.cmpi .sle (BitVec.ofNat 32 j.val + BitVec.ofNat 32 kb * 512#32) (BitVec.ofNat 32 r.val + BitVec.ofNat 32 qb * 512#32)) A B
      = if 512 * kb + j.val ≤ 512 * qb + r.val then A else B := by
  unfold Scalar.select
  exact if_congr (sle_words qb kb hq hk r j) rfl rfl

/-- The fill of the mask is the bottom of the extended reals. -/
theorem neg_big_eq : Named.named (F := Ideal) Cert.KernelIdeal.κ "neg_big" (φ := .f32) 0xF149F2CA#32 = (⊥ : EReal) :=
  IdealRules.named_const.ideal_named_scalar _ _ _ _ rfl

/-! ## The increment of the accumulator at an entry -/

theorem exp_apply {s : Shape} {φ : FTy} (x : FVec Ideal s φ) (i : s.Idx) : exp x i = Ideal.exp (x i) := rfl

/-- The zero block. -/
theorem pay1_apply (r : Fin 512) (e : Fin 1024) : (k2_pay1 (F := Ideal)) (ix2 r e) = 0 := by
  unfold k2_pay1
  rw [shapeCast_self]
  show Ideal.ofBits .f32 0x00000000#32 = 0
  exact Ideal.ofBits_zero_f32

/-- One key block's contribution: to entry (r, e) of the accumulator the block adds, over its 512 keys, the exponential
    of (score minus the key's statistic) — of the bottom where the key is after the query — times the value entry. -/
theorem pay2_apply (i : grid2.Coords) (xq xk xv : Vec Ideal S1x512x1024 .bf16) (xl : Vec Ideal S1x1x512 .f32)
    (acc : Vec Ideal S512x1024 .f32) (r : Fin 512) (e : Fin 1024) :
    k2_pay2 i xq xk xl acc xv (ix2 r e)
      = acc (ix2 r e) + ∑ j : Fin 512,
          Ideal.exp (if 512 * (i 2).val + j.val ≤ 512 * (i 1).val + r.val
              then (∑ d : Fin 1024, xq (ix3 (0 : Fin 1) r d) * xk (ix3 (0 : Fin 1) j d)) - xl (ix3 (0 : Fin 1) (0 : Fin 1) j) else ⊥)
            * xv (ix3 (0 : Fin 1) j e) := by
  have hq : (i 1).val < 4 := (i 1).isLt
  have hk : (i 2).val < 4 := (i 2).isLt
  unfold k2_pay2
  dsimp only
  rw [shapeCast_self, addf_apply, matmul_pv]
  refine congrArg (acc (ix2 r e) + ·) (Finset.sum_congr rfl fun j _ => ?_)
  rw [shapeCast_1ab_ab_apply, truncf_apply, exp_apply, select_apply, mask_apply, select_words _ _ hq hk, subf_apply, matmul_qk,
    broadcastTo_1b_ab_apply, shapeCast_1ab_ab_apply, broadcast_apply, neg_big_eq]
  refine congrArg (fun z => Ideal.exp (if 512 * (i 2).val + j.val ≤ 512 * (i 1).val + r.val then z - xl (ix3 (0 : Fin 1) (0 : Fin 1) j) else ⊥) * xv (ix3 (0 : Fin 1) j e)) (Finset.sum_congr rfl fun d _ => ?_)
  rw [shapeCast_1ab_ab_apply, shapeCast_1ab_ab_apply]

/-! ## The grid of the output pass in closed form -/

/-- Position t = 16 b + 4 qb + kb is the point (b, qb, kb); the query and output blocks are (b, qb), the key, value and
    statistic blocks (b, min kb qb); the reset is at kb = 0 and the increment at kb ≤ qb. -/
theorem grid_facts : ∀ t : Fin cfg2.N,
    ((grid2.coords t) 0).val = t.val / 16 ∧ ((grid2.coords t) 1).val = t.val / 4 % 4 ∧ ((grid2.coords t) 2).val = t.val % 4
    ∧ win2_0.index t (0 : Fin 3) = t.val / 16 ∧ win2_0.index t (1 : Fin 3) = t.val / 4 % 4 ∧ win2_0.index t (2 : Fin 3) = 0
    ∧ win2_1.index t (0 : Fin 3) = t.val / 16 ∧ win2_1.index t (1 : Fin 3) = min (t.val % 4) (t.val / 4 % 4) ∧ win2_1.index t (2 : Fin 3) = 0
    ∧ win2_2.index t (0 : Fin 3) = t.val / 16 ∧ win2_2.index t (1 : Fin 3) = min (t.val % 4) (t.val / 4 % 4) ∧ win2_2.index t (2 : Fin 3) = 0
    ∧ win2_3.index t (0 : Fin 3) = t.val / 16 ∧ win2_3.index t (1 : Fin 3) = 0 ∧ win2_3.index t (2 : Fin 3) = min (t.val % 4) (t.val / 4 % 4)
    ∧ win2_4.index t (0 : Fin 3) = t.val / 16 ∧ win2_4.index t (1 : Fin 3) = t.val / 4 % 4 ∧ win2_4.index t (2 : Fin 3) = 0
    ∧ (cond2_0 (grid2.coords t) ↔ t.val % 4 = 0) ∧ (cond2_1 (grid2.coords t) ↔ t.val % 4 ≤ t.val / 4 % 4) :=
  (by decide +kernel : ∀ t : Fin grid2.N, _)

theorem N2 : cfg2.N = 128 := N_2

/-! ## The blocks the points read, as entries of the four operand arrays -/

/-- The query block at a point. -/
abbrev qblk (c : Dev nD) (t : Fin cfg2.N) : Vec Ideal S1x512x1024 .bf16 := iblk2 V c 0 t
/-- The key block at a point. -/
abbrev kblk (c : Dev nD) (t : Fin cfg2.N) : Vec Ideal S1x512x1024 .bf16 := iblk2 V c 1 t
/-- The value block at a point. -/
abbrev vblk (c : Dev nD) (t : Fin cfg2.N) : Vec Ideal S1x512x1024 .bf16 := iblk2 V c 2 t
/-- The block of the keys' statistics at a point. -/
abbrev lblk (c : Dev nD) (t : Fin cfg2.N) : Vec Ideal S1x1x512 .f32 := iblk2 V c 3 t

/-- The four operand arrays. -/
abbrev Qa (c : Dev nD) : Spec.A3 := V c main_v5
abbrev Ka (c : Dev nD) : Spec.A3 := V c main_v6
abbrev Va (c : Dev nD) : Spec.A3 := V c main_v7
abbrev La (c : Dev nD) : Spec.A3l := V c main_v8

theorem qblk_apply (c : Dev nD) (t : Fin cfg2.N) (u : Fin 1) (r : Fin 512) (d : Fin 1024) (b : Fin 8) (q : Fin 2048)
    (hb : b.val = t.val / 16) (hq : q.val = 512 * (t.val / 4 % 4) + r.val) :
    qblk V c t (ix3 u r d) = Qa V c (ix3 b q d) := by
  obtain ⟨-, -, -, e0, e1, e2, -⟩ := grid_facts t
  unfold qblk iblk2
  rw [View.read_apply]
  show V c main_v5 _ = V c main_v5 _
  congr 1
  funext a
  apply Fin.ext
  match a with
  | ⟨0, _⟩ => show win2_0.index t (0 : Fin 3) * 1 + 1 * u.val = b.val; rw [e0, hb]; omega
  | ⟨1, _⟩ => show win2_0.index t (1 : Fin 3) * 512 + 1 * r.val = q.val; rw [e1, hq]; omega
  | ⟨2, _⟩ => show win2_0.index t (2 : Fin 3) * 1024 + 1 * d.val = d.val; rw [e2]; omega

theorem kblk_apply (c : Dev nD) (t : Fin cfg2.N) (u : Fin 1) (j : Fin 512) (d : Fin 1024) (b : Fin 8) (k : Fin 2048)
    (hb : b.val = t.val / 16) (hk : k.val = 512 * min (t.val % 4) (t.val / 4 % 4) + j.val) :
    kblk V c t (ix3 u j d) = Ka V c (ix3 b k d) := by
  obtain ⟨-, -, -, -, -, -, e0, e1, e2, -⟩ := grid_facts t
  unfold kblk iblk2
  rw [View.read_apply]
  show V c main_v6 _ = V c main_v6 _
  congr 1
  funext a
  apply Fin.ext
  match a with
  | ⟨0, _⟩ => show win2_1.index t (0 : Fin 3) * 1 + 1 * u.val = b.val; rw [e0, hb]; omega
  | ⟨1, _⟩ => show win2_1.index t (1 : Fin 3) * 512 + 1 * j.val = k.val; rw [e1, hk]; omega
  | ⟨2, _⟩ => show win2_1.index t (2 : Fin 3) * 1024 + 1 * d.val = d.val; rw [e2]; omega

theorem vblk_apply (c : Dev nD) (t : Fin cfg2.N) (u : Fin 1) (j : Fin 512) (d : Fin 1024) (b : Fin 8) (k : Fin 2048)
    (hb : b.val = t.val / 16) (hk : k.val = 512 * min (t.val % 4) (t.val / 4 % 4) + j.val) :
    vblk V c t (ix3 u j d) = Va V c (ix3 b k d) := by
  obtain ⟨-, -, -, -, -, -, -, -, -, e0, e1, e2, -⟩ := grid_facts t
  unfold vblk iblk2
  rw [View.read_apply]
  show V c main_v7 _ = V c main_v7 _
  congr 1
  funext a
  apply Fin.ext
  match a with
  | ⟨0, _⟩ => show win2_2.index t (0 : Fin 3) * 1 + 1 * u.val = b.val; rw [e0, hb]; omega
  | ⟨1, _⟩ => show win2_2.index t (1 : Fin 3) * 512 + 1 * j.val = k.val; rw [e1, hk]; omega
  | ⟨2, _⟩ => show win2_2.index t (2 : Fin 3) * 1024 + 1 * d.val = d.val; rw [e2]; omega

theorem lblk_apply (c : Dev nD) (t : Fin cfg2.N) (u u' : Fin 1) (j : Fin 512) (b : Fin 8) (k : Fin 2048)
    (hb : b.val = t.val / 16) (hk : k.val = 512 * min (t.val % 4) (t.val / 4 % 4) + j.val) :
    lblk V c t (ix3 u u' j) = La V c (ix3 b (0 : Fin 1) k) := by
  obtain ⟨-, -, -, -, -, -, -, -, -, -, -, -, e0, e1, e2, -⟩ := grid_facts t
  unfold lblk iblk2
  rw [View.read_apply]
  show V c main_v8 _ = V c main_v8 _
  congr 1
  funext a
  apply Fin.ext
  match a with
  | ⟨0, _⟩ => show win2_3.index t (0 : Fin 3) * 1 + 1 * u.val = b.val; rw [e0, hb]; omega
  | ⟨1, _⟩ => show win2_3.index t (1 : Fin 3) * 1 + 1 * u'.val = 0; rw [e1]; omega
  | ⟨2, _⟩ => show win2_3.index t (2 : Fin 3) * 512 + 1 * j.val = k.val; rw [e2, hk]; omega

/-! ## The output sum, key by key -/

/-- One key's term of the output at (batch, query, feature). -/
def term (c : Dev nD) (b : Fin 8) (q : Fin 2048) (e : Fin 1024) (k : Fin 2048) : EReal :=
  Ideal.exp (if k ≤ q then Spec.score (Qa V c) (Ka V c) b q k - La V c (ix3 b (0 : Fin 1) k) else ⊥) * Va V c (ix3 b k e)

/-- The same over the naturals: nothing past the last key. -/
def termN (c : Dev nD) (b : Fin 8) (q : Fin 2048) (e : Fin 1024) (k : ℕ) : EReal :=
  if h : k < 2048 then term V c b q e ⟨k, h⟩ else 0

/-- The sum over the first m keys. -/
def psum (c : Dev nD) (b : Fin 8) (q : Fin 2048) (e : Fin 1024) (m : ℕ) : EReal :=
  ∑ k ∈ Finset.range m, termN V c b q e k

theorem psum_zero (c : Dev nD) (b : Fin 8) (q : Fin 2048) (e : Fin 1024) : psum V c b q e 0 = 0 := by
  unfold psum; rw [Finset.range_zero, Finset.sum_empty]

/-- The next 512 keys. -/
theorem psum_add (c : Dev nD) (b : Fin 8) (q : Fin 2048) (e : Fin 1024) (m : ℕ) :
    psum V c b q e (m + 512) = psum V c b q e m + ∑ j : Fin 512, termN V c b q e (m + j.val) := by
  unfold psum
  rw [Finset.sum_range_add, Fin.sum_univ_eq_sum_range (fun j => termN V c b q e (m + j)) 512]

/-- All 2048 keys: the output. -/
theorem psum_all (c : Dev nD) (b : Fin 8) (q : Fin 2048) (e : Fin 1024) :
    psum V c b q e 2048 = Spec.outSpec (Qa V c) (Ka V c) (Va V c) (La V c) (ix3 b q e) := by
  unfold psum
  rw [← Fin.sum_univ_eq_sum_range (termN V c b q e) 2048, Spec.outSpec_apply]
  refine Finset.sum_congr rfl fun k _ => ?_
  unfold termN
  rw [dif_pos k.isLt]
  rfl

/-- A key after the query contributes nothing: the exponential of the bottom is zero. -/
theorem termN_after (c : Dev nD) (b : Fin 8) (q : Fin 2048) (e : Fin 1024) (k : ℕ) (h : q.val < k) : termN V c b q e k = 0 := by
  unfold termN
  split
  · rename_i hk
    unfold term
    rw [if_neg (by rw [Fin.le_def]; show ¬ k ≤ q.val; omega), Ideal.exp_bot, zero_mul]
  · rfl

/-! ## The accumulator after each point -/

theorem lt128 (t : Fin cfg2.N) : t.val < 128 := lt_of_lt_of_eq t.isLt N2

/-- At a point whose key block is not after its query block, the block's 512 terms are the terms of keys
    512 kb, …, 512 kb + 511 of the output sum at query 512 qb + r. -/
theorem block_term (c : Dev nD) (t : Fin cfg2.N) (h1 : t.val % 4 ≤ t.val / 4 % 4) (r j : Fin 512) (e : Fin 1024)
    (b : Fin 8) (q : Fin 2048) (hb : b.val = t.val / 16) (hq : q.val = 512 * (t.val / 4 % 4) + r.val) :
    Ideal.exp (if 512 * ((grid2.coords t) 2).val + j.val ≤ 512 * ((grid2.coords t) 1).val + r.val
          then (∑ d : Fin 1024, qblk V c t (ix3 (0 : Fin 1) r d) * kblk V c t (ix3 (0 : Fin 1) j d)) - lblk V c t (ix3 (0 : Fin 1) (0 : Fin 1) j) else ⊥)
        * vblk V c t (ix3 (0 : Fin 1) j e)
      = termN V c b q e (512 * (t.val % 4) + j.val) := by
  obtain ⟨-, g1, g2, -⟩ := grid_facts t
  have hN := lt128 t
  have hj := j.isLt
  have hk : 512 * (t.val % 4) + j.val < 2048 := by omega
  have hmin : min (t.val % 4) (t.val / 4 % 4) = t.val % 4 := Nat.min_eq_left h1
  unfold termN
  rw [dif_pos hk]
  unfold term
  rw [g1, g2, vblk_apply V c t 0 j e b ⟨512 * (t.val % 4) + j.val, hk⟩ hb (by rw [hmin])]
  by_cases hc : 512 * (t.val % 4) + j.val ≤ 512 * (t.val / 4 % 4) + r.val
  · rw [if_pos hc, if_pos (by rw [Fin.le_def]; show 512 * (t.val % 4) + j.val ≤ q.val; rw [hq]; exact hc),
      lblk_apply V c t 0 0 j b ⟨512 * (t.val % 4) + j.val, hk⟩ hb (by rw [hmin])]
    unfold Spec.score
    refine congrArg (fun z => Ideal.exp (z - La V c (ix3 b (0 : Fin 1) (⟨512 * (t.val % 4) + j.val, hk⟩ : Fin 2048)))
      * Va V c (ix3 b (⟨512 * (t.val % 4) + j.val, hk⟩ : Fin 2048) e)) (Finset.sum_congr rfl fun d _ => ?_)
    rw [qblk_apply V c t 0 r d b q hb hq, kblk_apply V c t 0 j d b ⟨512 * (t.val % 4) + j.val, hk⟩ hb (by rw [hmin])]
  · rw [if_neg hc, if_neg (by rw [Fin.le_def]; show ¬ 512 * (t.val % 4) + j.val ≤ q.val; rw [hq]; exact hc)]

/-- One point's step: from the sum over the keys before block kb (nothing, at kb = 0, where the accumulator is reset) to the
    sum over the keys up to the end of block kb — block kb's terms are added when kb ≤ qb, and vanish when kb > qb. -/
theorem step_inv (c : Dev nD) (t : Fin cfg2.N) (a : Vec Ideal S512x1024 .f32) (r : Fin 512) (e : Fin 1024)
    (b : Fin 8) (q : Fin 2048) (hb : b.val = t.val / 16) (hq : q.val = 512 * (t.val / 4 % 4) + r.val)
    (ha : ¬ t.val % 4 = 0 → a (ix2 r e) = psum V c b q e (512 * (t.val % 4))) :
    accStep2 (grid2.coords t) (qblk V c t) (kblk V c t) (vblk V c t) (lblk V c t) a (ix2 r e)
      = psum V c b q e (512 * (t.val % 4 + 1)) := by
  obtain ⟨-, -, -, -, -, -, -, -, -, -, -, -, -, -, -, -, -, -, c0, c1⟩ := grid_facts t
  have hN := lt128 t
  have hr := r.isLt
  rw [show 512 * (t.val % 4 + 1) = 512 * (t.val % 4) + 512 by omega, psum_add]
  unfold accStep2
  by_cases h0 : t.val % 4 = 0
  · have hz : psum V c b q e (512 * (t.val % 4)) = 0 := by rw [h0]; exact psum_zero V c b q e
    rw [if_pos (c0.mpr h0), if_pos (c1.mpr (by omega)), pay2_apply, pay1_apply, hz]
    refine congrArg (0 + ·) (Finset.sum_congr rfl fun j _ => ?_)
    exact block_term V c t (by omega) r j e b q hb hq
  · rw [if_neg (mt c0.mp h0)]
    by_cases h1 : t.val % 4 ≤ t.val / 4 % 4
    · rw [if_pos (c1.mpr h1), pay2_apply, ha h0]
      refine congrArg (psum V c b q e (512 * (t.val % 4)) + ·) (Finset.sum_congr rfl fun j _ => ?_)
      exact block_term V c t h1 r j e b q hb hq
    · rw [if_neg (mt c1.mp h1), ha h0,
        Finset.sum_eq_zero (fun j _ => termN_after V c b q e _ (by rw [hq]; omega)), add_zero]

/-- After the point at position n = 16 b + 4 qb + kb, entry (r, e) of the accumulator is the sum over the keys below
    512 (kb + 1) of the output's terms at batch b, query 512 qb + r, feature e. -/
theorem acc_inv (c : Dev nD) : ∀ (n : ℕ) (hn : n < cfg2.N) (r : Fin 512) (e : Fin 1024) (b : Fin 8) (q : Fin 2048),
    b.val = n / 16 → q.val = 512 * (n / 4 % 4) + r.val →
    accAt2 V c n hn (ix2 r e) = psum V c b q e (512 * (n % 4 + 1))
  | 0, hn, r, e, b, q, hb, hq =>
    step_inv V c ⟨0, hn⟩ (k2_pay1 (F := Ideal)) r e b q hb hq (fun h => absurd rfl h)
  | n + 1, hn, r, e, b, q, hb, hq => by
    show accStep2 (grid2.coords ⟨n + 1, hn⟩) (qblk V c ⟨n + 1, hn⟩) (kblk V c ⟨n + 1, hn⟩) (vblk V c ⟨n + 1, hn⟩)
      (lblk V c ⟨n + 1, hn⟩) (accAt2 V c n (Nat.lt_of_succ_lt hn)) (ix2 r e) = _
    refine step_inv V c ⟨n + 1, hn⟩ (accAt2 V c n (Nat.lt_of_succ_lt hn)) r e b q hb hq (fun h => ?_)
    have h' : ¬ (n + 1) % 4 = 0 := h
    rw [acc_inv c n (Nat.lt_of_succ_lt hn) r e b q (by omega) (by omega)]
    show psum V c b q e (512 * (n % 4 + 1)) = psum V c b q e (512 * ((n + 1) % 4))
    rw [show n % 4 + 1 = (n + 1) % 4 by omega]

/-! ## From the stored blocks to the result array -/

/-- The stored block is the accumulator under a leading unit axis. -/
theorem pay3_apply (a : Vec Ideal S512x1024 .f32) (u : Fin 1) (r : Fin 512) (e : Fin 1024) :
    k2_pay3 a (ix3 u r e) = a (ix2 r e) := by
  unfold k2_pay3
  exact shapeCast_ab_1ab_apply a shapeCasts_S512x1024_S1x512x1024 u r e

/-- At the last key block the sum runs over all 2048 keys: the stored block is the output on rows 512 qb + r of batch b. -/
theorem out_entry (c : Dev nD) (t : Fin cfg2.N) (ht : t.val % 4 = 3) (u : Fin 1) (r : Fin 512) (e : Fin 1024)
    (b : Fin 8) (q : Fin 2048) (hb : b.val = t.val / 16) (hq : q.val = 512 * (t.val / 4 % 4) + r.val) :
    outAt2 V c t (ix3 u r e) = Spec.outSpec (Qa V c) (Ka V c) (Va V c) (La V c) (ix3 b q e) := by
  unfold outAt2
  rw [pay3_apply, acc_inv V c t.val t.isLt r e b q hb hq, ht]
  exact psum_all V c b q e

/-- A block that agrees entry by entry with an array on rows 512 qb + r of batch b is the array's block (b, qb). -/
theorem cut_read (t : Fin cfg2.N) (X : Vec Ideal S1x512x1024 .f32) (G : Spec.A3)
    (h : ∀ (u : Fin 1) (r : Fin 512) (e : Fin 1024) (b : Fin 8) (q : Fin 2048), b.val = t.val / 16 →
      q.val = 512 * (t.val / 4 % 4) + r.val → X (ix3 u r e) = G (ix3 b q e)) :
    (cfg2.win 4).cut (grid2.coords t) X = ((cfg2.win 4).blk t).view.read (Elt Ideal) G := by
  obtain ⟨-, -, -, -, -, -, -, -, -, -, -, -, -, -, -, e0, e1, e2, -⟩ := grid_facts t
  have hN := lt128 t
  funext j
  have h0 : (j 0).val < 1 := (j 0).isLt
  have h1 : (j 1).val < 512 := (j 1).isLt
  have h2 : (j 2).val < 1024 := (j 2).isLt
  have hbv : t.val / 16 < 8 := by omega
  have hqv : 512 * (t.val / 4 % 4) + (j 1).val < 2048 := by omega
  rw [View.read_apply]
  refine Eq.trans ?_ ((h ⟨(j 0).val, h0⟩ ⟨(j 1).val, h1⟩ ⟨(j 2).val, h2⟩ ⟨t.val / 16, hbv⟩ ⟨512 * (t.val / 4 % 4) + (j 1).val, hqv⟩ rfl rfl).trans ?_)
  · show X _ = X _
    congr 1
    funext a
    match a with
    | ⟨0, _⟩ => rfl
    | ⟨1, _⟩ => rfl
    | ⟨2, _⟩ => rfl
  · show G _ = G _
    congr 1
    funext a
    apply Fin.ext
    match a with
    | ⟨0, _⟩ => show t.val / 16 = win2_4.index t (0 : Fin 3) * 1 + 1 * (j 0).val; rw [e0]; omega
    | ⟨1, _⟩ => show 512 * (t.val / 4 % 4) + (j 1).val = win2_4.index t (1 : Fin 3) * 512 + 1 * (j 1).val; rw [e1]; omega
    | ⟨2, _⟩ => show (j 2).val = win2_4.index t (2 : Fin 3) * 1024 + 1 * (j 2).val; rw [e2]; omega

/-- What a storing point writes back is its block of the output. -/
theorem flushed_eq (c : Dev nD) (t : Fin cfg2.N) (hf : (cfg2.win 4).flush t = true) :
    (dat2 (F := Ideal) V c).flushed 4 t
      = ((cfg2.win 4).blk t).view.read (Elt Ideal) (Spec.outSpec (Qa V c) (Ka V c) (Va V c) (La V c)) := by
  have ht : t.val % 4 = 3 := (flush2_4 t).mp hf
  show (cfg2.win 4).cut (grid2.coords t) ((dat2 (F := Ideal) V c).after 4 t) = _
  rw [after2_4]
  exact cut_read t (outAt2 V c t) (Spec.outSpec (Qa V c) (Ka V c) (Va V c) (La V c))
    (fun u r e b q hb hq => out_entry V c t ht u r e b q hb hq)

/-- An index of the result array is in a point's block when each coordinate is in the block's range. -/
theorem mem_blk4 (t : Fin cfg2.N) (i : S8x2048x1024.Idx) :
    i ∈ ((cfg2.win 4).blk t).view.set ↔ ∀ a : Fin 3, win2_4.index t a * S1x512x1024.size a ≤ (i a).val
      ∧ (i a).val < win2_4.index t a * S1x512x1024.size a + S1x512x1024.size a := by
  show i ∈ ((View.whole main_v9).slice (win2_4.rect t)).set ↔ _
  rw [View.set_slice_whole, Rect.mem_set_unit]
  exact Iff.rfl

/-- Row q of batch b lies in the block stored at the point (b, q / 512, 3). -/
theorem cover4 (i : S8x2048x1024.Idx) :
    ∃ t : Fin cfg2.N, (cfg2.win 4).flush t = true ∧ i ∈ ((cfg2.win 4).blk t).view.set := by
  have h0 : (i 0).val < 8 := (i 0).isLt
  have h1 : (i 1).val < 2048 := (i 1).isLt
  have h2 : (i 2).val < 1024 := (i 2).isLt
  have hlt : 16 * (i 0).val + 4 * ((i 1).val / 512) + 3 < cfg2.N := by rw [N2]; omega
  obtain ⟨-, -, -, -, -, -, -, -, -, -, -, -, -, -, -, e0, e1, e2, -⟩ := grid_facts ⟨16 * (i 0).val + 4 * ((i 1).val / 512) + 3, hlt⟩
  refine ⟨⟨16 * (i 0).val + 4 * ((i 1).val / 512) + 3, hlt⟩, (flush2_4 _).mpr (by show (16 * (i 0).val + 4 * ((i 1).val / 512) + 3) % 4 = 3; omega), ?_⟩
  rw [mem_blk4]
  intro a
  match a with
  | ⟨0, _⟩ =>
    show win2_4.index ⟨16 * (i 0).val + 4 * ((i 1).val / 512) + 3, hlt⟩ (0 : Fin 3) * 1 ≤ (i 0).val
      ∧ (i 0).val < win2_4.index ⟨16 * (i 0).val + 4 * ((i 1).val / 512) + 3, hlt⟩ (0 : Fin 3) * 1 + 1
    rw [e0]; show (16 * (i 0).val + 4 * ((i 1).val / 512) + 3) / 16 * 1 ≤ (i 0).val ∧ (i 0).val < (16 * (i 0).val + 4 * ((i 1).val / 512) + 3) / 16 * 1 + 1; omega
  | ⟨1, _⟩ =>
    show win2_4.index ⟨16 * (i 0).val + 4 * ((i 1).val / 512) + 3, hlt⟩ (1 : Fin 3) * 512 ≤ (i 1).val
      ∧ (i 1).val < win2_4.index ⟨16 * (i 0).val + 4 * ((i 1).val / 512) + 3, hlt⟩ (1 : Fin 3) * 512 + 512
    rw [e1]; show (16 * (i 0).val + 4 * ((i 1).val / 512) + 3) / 4 % 4 * 512 ≤ (i 1).val ∧ (i 1).val < (16 * (i 0).val + 4 * ((i 1).val / 512) + 3) / 4 % 4 * 512 + 512; omega
  | ⟨2, _⟩ =>
    show win2_4.index ⟨16 * (i 0).val + 4 * ((i 1).val / 512) + 3, hlt⟩ (2 : Fin 3) * 1024 ≤ (i 2).val
      ∧ (i 2).val < win2_4.index ⟨16 * (i 0).val + 4 * ((i 1).val / 512) + 3, hlt⟩ (2 : Fin 3) * 1024 + 1024
    rw [e2]; omega

end Out

/-- The result array of the output call: every row is stored once, at the last key block of its query block, and holds
    the output there. -/
theorem arr2_4 (c : Dev nD) :
    (dat2 (F := Ideal) V c).arrAt 4 cfg2.N = Spec.outSpec (V c main_v5) (V c main_v6) (V c main_v7) (V c main_v8) := by
  exact (dat2 (F := Ideal) V c).arrAt_eq_of_cover 4
    (Spec.outSpec (Out.Qa V c) (Out.Ka V c) (Out.Va V c) (Out.La V c))
    (fun t hf => Out.flushed_eq V c t hf) (fun i => Out.cover4 i)

end Cert.Proof.Value

end
-- ==== Proof.Bridge.lean ====
/-
  From the program's last boundary to the mathematics: what the result buffer holds at the end, as a function of
  the argument arrays. The weight casts change nothing over the extended reals and the reshapes are row-major
  re-indexings (row `2048 b + s` of the two-axis `x` is row `(b, s)` of the three-axis one), so the three projections are
  `Q = x·Wq`, `K = x·Wk`, `V = x·Wv`; the statistics call stores per key the log-sum-exp of its visible scores and the
  output call contracts `exp (score − that)` with `V`. Finite inputs are real inputs, and projections of real arrays
  are real: that is what the statistics call's value needs.
-/
import proofs.«416763_j40561671143865_3_alg».proof.Proof.KI.RunDefs
import proofs.«416763_j40561671143865_3_alg».proof.Proof.V0
import proofs.«416763_j40561671143865_3_alg».proof.Proof.V1
import proofs.«416763_j40561671143865_3_alg».proof.Proof.V2
import proofs.«416763_j40561671143865_3_alg».proof.Proof.Spec
import proofs.«416763_j40561671143865_3_alg».proof.Proof.Gen.Pre_finite_inputs
import proofs.«416763_j40561671143865_3_alg».proof.Defs
import Idealize.ShloMosaic.Lib.ReduceAll
import Idealize.ShloMosaic.Lib.StableHlo.Run
import Idealize.ShloMosaic.Lib.Pipeline.Value

set_option maxRecDepth 16384

noncomputable section

namespace Cert.Proof.Bridge

open Cert.KernelIdeal Cert.KernelIdeal.Gen Cert.KernelIdeal.Hand
open Idealize.ShloMosaic Idealize.ShloMosaic.TcCoe Idealize.ShloMosaic.ValueIdx Idealize.SL.Sem
open Cert.Proof

variable [hPre_finite_inputs : Cert.Pre_finite_inputs.Facts]

/-- An extended real whose absolute value compares below `+∞` is a real. -/
theorem real_of_abs_lt (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

instance : Subsingleton Cert.Pre_finite_inputs.S_.Idx := ⟨fun a b => funext fun d => d.elim0⟩

/-- An array is real when the conjunction, over all its entries, of "the absolute value compares below `+∞`" is true. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi (cmpf .olt (Host.absf x)
          (broadcastInDim s ![] hb (constant (F := Ideal) Cert.Pre_finite_inputs.S_ .f32 0x7F800000#32)))
          (constantI Cert.Pre_finite_inputs.S_ 1 1#1) hr hu ValueIdx.ix0 = 1#1) (i : s.Idx) :
    ∃ r : ℝ, (x i : EReal) = (r : EReal) :=
  real_of_abs_lt (x i) (Host.reduce_andi_all _ _ hr hu _ e i)

/-- Finite inputs are real inputs. -/
theorem pre_real (m : (ℓ : Loc nD τ sig) → Buf (Elt Ideal) ℓ) (hpre : Cert.Pre_KernelIdeal m) (c : Dev nD) :
    Spec.IsReal (m ((c.tc : Thread nD τ).loc main_arg0) : Spec.A3)
    ∧ Spec.IsReal (m ((c.tc : Thread nD τ).loc main_arg1) : Spec.A2w)
    ∧ Spec.IsReal (m ((c.tc : Thread nD τ).loc main_arg2) : Spec.A2w)
    ∧ Spec.IsReal (m ((c.tc : Thread nD τ).loc main_arg3) : Spec.A2w) := by
  have h := congrFun (hpre c) ValueIdx.ix0
  dsimp only [Cert.Pre_finite_inputs.fn, Cert.Pre_finite_inputs.fn_part1, andi] at h
  obtain ⟨h012, h3⟩ := IntOp.andi_eq_one.1 h
  obtain ⟨h01, h2⟩ := IntOp.andi_eq_one.1 h012
  obtain ⟨h0, h1⟩ := IntOp.andi_eq_one.1 h01
  exact ⟨all_real _ _ _ _ h0, all_real _ _ _ _ h1, all_real _ _ _ _ h2, all_real _ _ _ _ h3⟩

/-- The projection of the row-major `x` (row `2048 b + s`), read back on three axes, is the projection of the three-axis `x`. -/
theorem proj_reshape (x : Spec.A3) (w : Spec.A2w)
    (h1 : (⟨3, ![8, 2048, 1024]⟩ : Shape).ShapeCasts ⟨2, ![16384, 1024]⟩)
    (h2 : (⟨2, ![16384, 1024]⟩ : Shape).ShapeCasts ⟨3, ![8, 2048, 1024]⟩) :
    shapeCast ⟨3, ![8, 2048, 1024]⟩ (Spec.proj (shapeCast ⟨2, ![16384, 1024]⟩ x h1) w) h2 = Spec.qkv x w := by
  funext j
  obtain ⟨b, s, e, rfl⟩ : ∃ (b : Fin 8) (s : Fin 2048) (e : Fin 1024), j = ix3 b s e := ⟨j 0, j 1, j 2, eq_ix3 j⟩
  have hr : 2048 * b.val + s.val < 16384 := by omega
  rw [shapeCast_apply _ h2 (ix3 b s e) (ix2 (⟨2048 * b.val + s.val, hr⟩ : Fin 16384) e) (by
    rw [Shape.rowMajor_val_two, Shape.rowMajor_val_three]
    show (2048 * b.val + s.val) * 1024 + e.val = (b.val * 2048 + s.val) * 1024 + e.val
    omega)]
  show (∑ d : Fin 1024, shapeCast ⟨2, ![16384, 1024]⟩ x h1 (ix2 (⟨2048 * b.val + s.val, hr⟩ : Fin 16384) d) * w (ix2 d e))
      = ∑ d : Fin 1024, x (ix3 b s d) * w (ix2 d e)
  refine Finset.sum_congr rfl fun d _ => ?_
  rw [shapeCast_apply x h1 _ (ix3 b s d) (by
    rw [Shape.rowMajor_val_two, Shape.rowMajor_val_three]
    show (b.val * 2048 + s.val) * 1024 + d.val = (2048 * b.val + s.val) * 1024 + d.val
    omega)]

/-! ## What the host operations leave at the calls' entries -/

section Host
variable (m : (ℓ : Loc nD τ sig) → Buf (Elt Ideal) ℓ) (ρ : Dev nD → PrngReg) (c : Dev nD)

/-- The projection call finds the row-major `x` … -/
theorem V1_v3 : (V1 (F := Ideal) m ρ c main_v3 : Spec.A2x)
    = shapeCast ⟨2, ![16384, 1024]⟩ (m ((c.tc : Thread nD τ).loc main_arg0) : Spec.A3) shapeCasts_S8x2048x1024_S16384x1024 := by
  show StableHlo.after hostOps0 (W0 m ρ c) (Proc.devRef .tc main_v3) = _
  after_results
  rfl
/-- … and the three weight matrices, which the narrowing casts leave as they are over the extended reals. -/
theorem V1_v0 : (V1 (F := Ideal) m ρ c main_v0 : Spec.A2w) = m ((c.tc : Thread nD τ).loc main_arg1) := by
  show StableHlo.after hostOps0 (W0 m ρ c) (Proc.devRef .tc main_v0) = _
  after_results
  rfl
theorem V1_v1 : (V1 (F := Ideal) m ρ c main_v1 : Spec.A2w) = m ((c.tc : Thread nD τ).loc main_arg2) := by
  show StableHlo.after hostOps0 (W0 m ρ c) (Proc.devRef .tc main_v1) = _
  after_results
  rfl
theorem V1_v2 : (V1 (F := Ideal) m ρ c main_v2 : Spec.A2w) = m ((c.tc : Thread nD τ).loc main_arg3) := by
  show StableHlo.after hostOps0 (W0 m ρ c) (Proc.devRef .tc main_v2) = _
  after_results
  rfl

/-- The statistics call finds each projection read back on three axes. -/
theorem V3_v5 : (V3 (F := Ideal) m ρ c main_v5 : Spec.A3)
    = shapeCast ⟨3, ![8, 2048, 1024]⟩ (V2 (F := Ideal) m ρ c main_v4_0 : Spec.A2x) shapeCasts_S16384x1024_S8x2048x1024 := by
  show StableHlo.after hostOps1 (W2 m ρ c) (Proc.devRef .tc main_v5) = _
  after_results
  rfl
theorem V3_v6 : (V3 (F := Ideal) m ρ c main_v6 : Spec.A3)
    = shapeCast ⟨3, ![8, 2048, 1024]⟩ (V2 (F := Ideal) m ρ c main_v4_1 : Spec.A2x) shapeCasts_S16384x1024_S8x2048x1024 := by
  show StableHlo.after hostOps1 (W2 m ρ c) (Proc.devRef .tc main_v6) = _
  after_results
  rfl
theorem V3_v7 : (V3 (F := Ideal) m ρ c main_v7 : Spec.A3)
    = shapeCast ⟨3, ![8, 2048, 1024]⟩ (V2 (F := Ideal) m ρ c main_v4_2 : Spec.A2x) shapeCasts_S16384x1024_S8x2048x1024 := by
  show StableHlo.after hostOps1 (W2 m ρ c) (Proc.devRef .tc main_v7) = _
  after_results
  rfl

end Host

/-! ## The calls' results, boundary by boundary -/

section Calls
variable (m : (ℓ : Loc nD τ sig) → Buf (Elt Ideal) ℓ) (ρ : Dev nD → PrngReg) (c : Dev nD)

/-- The projection call's three results: the row-major `x` times one weight matrix each. -/
theorem V2_v4_0 : (V2 (F := Ideal) m ρ c main_v4_0 : Spec.A2x)
    = Spec.proj (shapeCast ⟨2, ![16384, 1024]⟩ (m ((c.tc : Thread nD τ).loc main_arg0) : Spec.A3) shapeCasts_S8x2048x1024_S16384x1024)
        (m ((c.tc : Thread nD τ).loc main_arg1)) := by
  refine (W2_arr m ρ c 4).trans ?_
  rw [Value.arr0_4 (V1 m ρ) c, V1_v3, V1_v0]
theorem V2_v4_1 : (V2 (F := Ideal) m ρ c main_v4_1 : Spec.A2x)
    = Spec.proj (shapeCast ⟨2, ![16384, 1024]⟩ (m ((c.tc : Thread nD τ).loc main_arg0) : Spec.A3) shapeCasts_S8x2048x1024_S16384x1024)
        (m ((c.tc : Thread nD τ).loc main_arg2)) := by
  refine (W2_arr m ρ c 5).trans ?_
  rw [Value.arr0_5 (V1 m ρ) c, V1_v3, V1_v1]
theorem V2_v4_2 : (V2 (F := Ideal) m ρ c main_v4_2 : Spec.A2x)
    = Spec.proj (shapeCast ⟨2, ![16384, 1024]⟩ (m ((c.tc : Thread nD τ).loc main_arg0) : Spec.A3) shapeCasts_S8x2048x1024_S16384x1024)
        (m ((c.tc : Thread nD τ).loc main_arg3)) := by
  refine (W2_arr m ρ c 6).trans ?_
  rw [Value.arr0_6 (V1 m ρ) c, V1_v3, V1_v2]

/-- The statistics call finds `Q = x·Wq`, `K = x·Wk`, `V = x·Wv` on three axes. -/
theorem V3_Q : (V3 (F := Ideal) m ρ c main_v5 : Spec.A3)
    = Spec.qkv (m ((c.tc : Thread nD τ).loc main_arg0)) (m ((c.tc : Thread nD τ).loc main_arg1)) := by
  rw [V3_v5, V2_v4_0, proj_reshape]
theorem V3_K : (V3 (F := Ideal) m ρ c main_v6 : Spec.A3)
    = Spec.qkv (m ((c.tc : Thread nD τ).loc main_arg0)) (m ((c.tc : Thread nD τ).loc main_arg2)) := by
  rw [V3_v6, V2_v4_1, proj_reshape]
theorem V3_V : (V3 (F := Ideal) m ρ c main_v7 : Spec.A3)
    = Spec.qkv (m ((c.tc : Thread nD τ).loc main_arg0)) (m ((c.tc : Thread nD τ).loc main_arg3)) := by
  rw [V3_v7, V2_v4_2, proj_reshape]

/-- The statistics call leaves the projections as it found them: `Q` and `K` are arrays it only reads, `V` one it does
    not touch. -/
theorem V4_v5 : V4 (F := Ideal) m ρ c main_v5 = V3 (F := Ideal) m ρ c main_v5 :=
  (W4_arr m ρ c 1).trans (((dat1 (V3 m ρ) c).arrAt_in 1 rfl cfg1.N).trans (A_eq1 (V3 m ρ) c 1))
theorem V4_v6 : V4 (F := Ideal) m ρ c main_v6 = V3 (F := Ideal) m ρ c main_v6 :=
  (W4_arr m ρ c 0).trans (((dat1 (V3 m ρ) c).arrAt_in 0 rfl cfg1.N).trans (A_eq1 (V3 m ρ) c 0))
theorem V4_v7 : V4 (F := Ideal) m ρ c main_v7 = V3 (F := Ideal) m ρ c main_v7 := W4_of_ne m ρ c main_v7 (by decide)

end Calls

/-- The result buffer at the end: the output arrangement of the three projections and the stored statistics. -/
theorem result_eq (m : (ℓ : Loc nD τ sig) → Buf (Elt Ideal) ℓ) (ρ : Dev nD → PrngReg) (hpre : Cert.Pre_KernelIdeal m) (c : Dev nD) :
    W5 (F := Ideal) m ρ c (Proc.devRef .tc main_v9)
      = Spec.outSpec
          (Spec.qkv (m ((c.tc : Thread nD τ).loc main_arg0)) (m ((c.tc : Thread nD τ).loc main_arg1)))
          (Spec.qkv (m ((c.tc : Thread nD τ).loc main_arg0)) (m ((c.tc : Thread nD τ).loc main_arg2)))
          (Spec.qkv (m ((c.tc : Thread nD τ).loc main_arg0)) (m ((c.tc : Thread nD τ).loc main_arg3)))
          (Spec.lseSpec (Spec.qkv (m ((c.tc : Thread nD τ).loc main_arg0)) (m ((c.tc : Thread nD τ).loc main_arg2)))
            (Spec.qkv (m ((c.tc : Thread nD τ).loc main_arg0)) (m ((c.tc : Thread nD τ).loc main_arg1)))) := by
  obtain ⟨hx, hq, hk, hv⟩ := pre_real m hpre c
  have hK : Spec.IsReal (V3 (F := Ideal) m ρ c main_v6 : Spec.A3) := by
    rw [V3_K]; exact Spec.qkv_real _ _ hx hk
  have hQ : Spec.IsReal (V3 (F := Ideal) m ρ c main_v5 : Spec.A3) := by
    rw [V3_Q]; exact Spec.qkv_real _ _ hx hq
  have e8 : (V4 (F := Ideal) m ρ c main_v8 : Spec.A3l)
      = Spec.lseSpec (Spec.qkv (m ((c.tc : Thread nD τ).loc main_arg0)) (m ((c.tc : Thread nD τ).loc main_arg2)))
          (Spec.qkv (m ((c.tc : Thread nD τ).loc main_arg0)) (m ((c.tc : Thread nD τ).loc main_arg1))) := by
    refine (W4_arr m ρ c 2).trans ?_
    rw [Value.arr1_2 (V3 m ρ) c hK hQ, V3_K, V3_Q]
  refine (W5_arr m ρ c 4).trans ?_
  rw [Value.arr2_4 (V4 m ρ) c, e8, V4_v5, V4_v6, V4_v7, V3_Q, V3_K, V3_V]

end Cert.Proof.Bridge

end
-- ==== Proof.lean ====
/-
  Single-head causal attention whose softmax is taken over the QUERY axis, computed by three kernel calls — the
  projections `Q = x·Wq`, `K = x·Wk`, `V = x·Wv`; per key, the log-sum-exp of its scores over the queries that see it,
  folded in block by block with a running maximum; and, per query, the sum over the visible keys of
  `exp (score − that statistic)` times the value row — against the plain formulation that masks the scores with
  `−∞`, subtracts the column maximum, exponentiates, divides by the column sum and contracts with `V`.

  Over the extended reals both are `out (b,q,e) = ∑ k ≤ q, exp (s b q k) / (∑ q' ≥ k, exp (s b q' k)) · V (b,k,e)`:
  a change of float format is the identity, the kernel's finite stand-in for `−∞` is named `⊥`, a block-wise sum is
  the sum, and `exp (s − log Σ) = exp (s − M) / Σ_M` for every real shift `M`. The law needs the scores to be real
  numbers, which is what finite inputs give.

  The frames (both programs run to the end, fault nowhere and leave their arguments alone) are one argument, written
  for any float instance: the program's five items as segments, each kernel call's proof data at its entry contents,
  the scratch buffers carried between grid points held at their named contents.
-/
import proofs.«416763_j40561671143865_3_alg».proof.Defs
import proofs.«416763_j40561671143865_3_alg».proof.Proof.Gen.Kernel
import proofs.«416763_j40561671143865_3_alg».proof.Proof.Gen.KernelIdeal
import proofs.«416763_j40561671143865_3_alg».proof.Proof.Gen.ReferenceIdeal
import proofs.«416763_j40561671143865_3_alg».proof.Proof.Gen.Pre_finite_inputs
import proofs.«416763_j40561671143865_3_alg».proof.Proof.KI.Run
import proofs.«416763_j40561671143865_3_alg».proof.Proof.K.Run
import proofs.«416763_j40561671143865_3_alg».proof.Proof.Ref
import proofs.«416763_j40561671143865_3_alg».proof.Proof.Bridge
import proofs.«416763_j40561671143865_3_alg».proof.Proof.Spec
import Idealize.ShloMosaic.Adequacy
import Idealize.ShloMosaic.Init

noncomputable section

namespace Cert.Proof

open Idealize.ShloMosaic Idealize.ShloMosaic.TcCoe Idealize.SL.Sem

namespace Claims

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The kernel as printed runs and leaves its arguments alone. -/
theorem frame_k : Cert.frame_Kernel := fun m ρ _ =>
  (θ_run Cert.Kernel.defs _ _).mono (fun _ h c => (h c).2) (Cert.Kernel.Hand.run_main (F := Bits) m ρ)

/-- So does its idealization. -/
theorem frame_ki : Cert.frame_KernelIdeal := fun m ρ _ =>
  (θ_run Cert.KernelIdeal.defs _ _).mono (fun _ h c => (h c).2) (Cert.KernelIdeal.Hand.run_main (F := Ideal) m ρ)

/-- The reference is a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass named the kernel's finite stand-in for `−∞` in two places; the table gives that name `⊥`. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- From memories agreeing on the arguments both idealized programs end with the same result: the kernel's last
    boundary holds the output arrangement of the three projections, the reference's run the plain arrangement over a
    real column shift, and for real projections the two are one function. -/
theorem algebraic : Cert.algebraic_KernelIdeal_ReferenceIdeal := by
  intro m ρ m' ρ' hpre hagree
  have hreal := fun c => Bridge.pre_real m hpre c
  obtain ⟨M, hM, href⟩ := RefValue.ref_run m' ρ'
    (fun c => by rw [(hagree c).1]; exact (hreal c).1)
    (fun c => by rw [(hagree c).2.1]; exact (hreal c).2.1)
    (fun c => by rw [(hagree c).2.2.1]; exact (hreal c).2.2.1)
    (fun c => by rw [(hagree c).2.2.2]; exact (hreal c).2.2.2)
  refine ⟨fun c => Cert.KernelIdeal.Hand.W5 (F := Ideal) m ρ c (Proc.devRef .tc Cert.KernelIdeal.main_v9),
    Cert.KernelIdeal.Hand.run_main (F := Ideal) m ρ, ?_⟩
  refine (θ_run Cert.ReferenceIdeal.defs _ _).mono (fun _ h c => ⟨(h c).1.trans ?_, (h c).2⟩) href
  rw [(hagree c).1, (hagree c).2.1, (hagree c).2.2.1, (hagree c).2.2.2]
  exact ((Bridge.result_eq m ρ hpre c).trans (Spec.attn_eq (M c) (hM c) _ _ _
    (Spec.qkv_real _ _ (hreal c).1 (hreal c).2.1) (Spec.qkv_real _ _ (hreal c).1 (hreal c).2.2.1)
    (Spec.qkv_real _ _ (hreal c).1 (hreal c).2.2.2))).symm

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
